-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S10000x256 .f32 .bf16
  ∧ IdealRules.truncf_extf.Statement Cert.KernelIdeal.S16x10000 .f32 .bf16
  ∧ IdealRules.truncf_extf.Statement Cert.KernelIdeal.S16x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x256 : Shape := ⟨2, ![1000000, 256]⟩
abbrev S1000000 : Shape := ⟨1, ![1000000]⟩
abbrev S256x64 : Shape := ⟨2, ![256, 64]⟩
abbrev S64x256 : Shape := ⟨2, ![64, 256]⟩
abbrev S_ : Shape := ⟨0, ![]⟩

class Facts : Prop where
  bcast_S_S1000000x256 : S_.BroadcastsInDim S1000000x256 (![] : Fin 0 → Fin S1000000x256.rank)
  reducesTo_S1000000x256_S_d0_1 : S1000000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_v13 : IVec S_ 1) (main_v15 : IVec S1000000 1) (main_c_5 : IVec S_ 32) : IVec S_ 1 :=
  let main_v16 : IVec S1000000 32 := broadcastInDim S1000000 ![] bcast_S_S1000000 main_c_5
  let main_v17 : IVec S1000000 1 := cmpi .slt main_arg1 main_v16
  let main_v18 : IVec S1000000 1 := andi main_v15 main_v17
  let main_c_6 : IVec S_ 1 := constantI S_ 1 1#1
  let main_v19 : IVec S_ 1 := (fun x v => Host.reduce IntOp.andi x v reducesTo_S1000000_S_d0 h_S_) main_v18 main_c_6
  let main_v20 : IVec S_ 1 := andi main_v13 main_v19
  main_v20

def fn {F : FTy → Type} [FloatOps F] (main_arg0 : FVec F S1000000x256 .f32) (main_arg1 : IVec S1000000 32) (main_arg2 : FVec F S256x64 .f32) (main_arg3 : FVec F S64x256 .f32) : IVec S_ 1 :=
  let main_v0 : FVec F S1000000x256 .f32 := Host.absf main_arg0
  let main_cst : FVec F S_ .f32 := constant S_ .f32 0x7F800000#32
  let main_v1 : FVec F S1000000x256 .f32 := broadcastInDim S1000000x256 ![] bcast_S_S1000000x256 main_cst
  let main_v2 : IVec S1000000x256 1 := cmpf .olt main_v0 main_v1
  let main_c : IVec S_ 1 := constantI S_ 1 1#1
  let main_v3 : IVec S_ 1 := (fun x v => Host.reduce IntOp.andi x v reducesTo_S1000000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg1 main_v14
  let main_c_5 : IVec S_ 32 := constantI S_ 32 16#32
  fn_part1 (F := F) main_arg1 main_v13 main_v15 main_c_5
-- ==== Kernel.lean ====
abbrev S1000000x256 : Shape := ⟨2, ![1000000, 256]⟩
abbrev S1000000 : Shape := ⟨1, ![1000000]⟩
abbrev S256x64 : Shape := ⟨2, ![256, 64]⟩
abbrev S64x256 : Shape := ⟨2, ![64, 256]⟩
abbrev S100x1x10000 : Shape := ⟨3, ![100, 1, 10000]⟩
abbrev S2x16x256 : Shape := ⟨3, ![2, 16, 256]⟩
abbrev S2x16x1 : Shape := ⟨3, ![2, 16, 1]⟩
abbrev S10000x256 : Shape := ⟨2, ![10000, 256]⟩
abbrev S1x1x10000 : Shape := ⟨3, ![1, 1, 10000]⟩
abbrev S1x16x256 : Shape := ⟨3, ![1, 16, 256]⟩
abbrev S1x16x1 : Shape := ⟨3, ![1, 16, 1]⟩
abbrev S16x256 : Shape := ⟨2, ![16, 256]⟩
abbrev S16x1 : Shape := ⟨2, ![16, 1]⟩
abbrev S1x10000 : Shape := ⟨2, ![1, 10000]⟩
abbrev S16x10000 : Shape := ⟨2, ![16, 10000]⟩
abbrev S16 : Shape := ⟨1, ![16]⟩
abbrev S_ : Shape := ⟨0, ![]⟩
abbrev S16x64 : Shape := ⟨2, ![16, 64]⟩
abbrev S200x1x5000 : Shape := ⟨3, ![200, 1, 5000]⟩
abbrev S5000x256 : Shape := ⟨2, ![5000, 256]⟩
abbrev S1x1x5000 : Shape := ⟨3, ![1, 1, 5000]⟩
abbrev S1x5000 : Shape := ⟨2, ![1, 5000]⟩
abbrev S16x5000 : Shape := ⟨2, ![16, 5000]⟩

abbrev nBuf : Space → Nat
  | .hbm => 37
  | .vmem => 17
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S256x64, .f32⟩
  | .hbm, ⟨3, _⟩ => ⟨S64x256, .f32⟩
  | .hbm, ⟨4, _⟩ => ⟨S100x1x10000, .i32⟩
  | .hbm, ⟨5, _⟩ => ⟨S2x16x256, .f32⟩
  | .hbm, ⟨6, _⟩ => ⟨S2x16x1, .f32⟩
  | .hbm, ⟨7, _⟩ => ⟨S1x16x256, .f32⟩
  | .hbm, ⟨8, _⟩ => ⟨S16x256, .f32⟩
  | .hbm, ⟨9, _⟩ => ⟨S1x16x256, .f32⟩
  | .hbm, ⟨10, _⟩ => ⟨S16x256, .f32⟩
  | .hbm, ⟨11, _⟩ => ⟨S16x256, .f32⟩
  | .hbm, ⟨12, _⟩ => ⟨S1x16x1, .f32⟩
  | .hbm, ⟨13, _⟩ => ⟨S16x1, .f32⟩
  | .hbm, ⟨14, _⟩ => ⟨S1x16x1, .f32⟩
  | .hbm, ⟨15, _⟩ => ⟨S16x1, .f32⟩
  | .hbm, ⟨16, _⟩ => ⟨S16x1, .f32⟩
  | .hbm, ⟨17, _⟩ => ⟨S_, .f32⟩
  | .hbm, ⟨18, _⟩ => ⟨S16x1, .f32⟩
  | .hbm, ⟨19, _⟩ => ⟨S16x1, .f32⟩
  | .hbm, ⟨20, _⟩ => ⟨S16x256, .f32⟩
  | .hbm, ⟨21, _⟩ => ⟨S16x256, .f32⟩
  | .hbm, ⟨22, _⟩ => ⟨S16x64, .f32⟩
  | .hbm, ⟨23, _⟩ => ⟨S_, .f32⟩
  | .hbm, ⟨24, _⟩ => ⟨S16x64, .f32⟩
  | .hbm, ⟨25, _⟩ => ⟨S16x64, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S_, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S200x1x5000, .i32⟩
  | .hbm, ⟨36, _⟩ => ⟨S1000000x256, .f32⟩
  | .local _ .vmem, ⟨0, _⟩ => ⟨S10000x256, .f32⟩
  | .local _ .vmem, ⟨1, _⟩ => ⟨S10000x256, .f32⟩
  | .local _ .vmem, ⟨2, _⟩ => ⟨S1x1x10000, .i32⟩
  | .local _ .vmem, ⟨3, _⟩ => ⟨S1x1x10000, .i32⟩
  | .local _ .vmem, ⟨4, _⟩ => ⟨S1x16x256, .f32⟩
  | .local _ .vmem, ⟨5, _⟩ => ⟨S1x16x256, .f32⟩
  | .local _ .vmem, ⟨6, _⟩ => ⟨S1x16x1, .f32⟩
  | .local _ .vmem, ⟨7, _⟩ => ⟨S1x16x1, .f32⟩
  | .local _ .vmem, ⟨8, _⟩ => ⟨S16x256, .f32⟩
  | .local _ .vmem, ⟨9, _⟩ => ⟨S16x1, .f32⟩
  | .local _ .vmem, ⟨10, _⟩ => ⟨S5000x256, .f32⟩
  | .local _ .vmem, ⟨11, _⟩ => ⟨S5000x256, .f32⟩
  | .local _ .vmem, ⟨12, _⟩ => ⟨S1x1x5000, .i32⟩
  | .local _ .vmem, ⟨13, _⟩ => ⟨S1x1x5000, .i32⟩
  | .local _ .vmem, ⟨14, _⟩ => ⟨S16x256, .f32⟩
  | .local _ .vmem, ⟨15, _⟩ => ⟨S5000x256, .f32⟩
  | .local _ .vmem, ⟨16, _⟩ => ⟨S5000x256, .f32⟩
  | _, _ => ⟨S1000000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v33 : BitVec 1 := Scalar.cmpi .eq arg1 c49_i32
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 100], ![false, false]⟩

def cc1_transform_0 (i : grid1.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x5000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S1000000_S100x1x10000 : S1000000.ShapeCasts S100x1x10000
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S10000x256_S10000x256_0_0 : ∀ a, (![0, 0] : Fin 2 → Nat) a + S10000x256.size a ≤ S10000x256.size a
  h_S10000x256 : 0 < S10000x256.numel
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  iota_S16x1_d0_w32 : S16x1.Iotas .tc 32 [0]
  broadcasts_S1x10000_S16x10000 : S1x10000.Broadcasts S16x10000
  broadcasts_S16x1_S16x10000 : S16x1.Broadcasts S16x10000
  natLt_1_32 : 1 < 32
  bitsLt_bf16_f32 : FTy.bits .bf16 < FTy.bits .f32
  reduces_S16x10000_S16 : S16x10000.Reduces [1] S16
  shapeCasts_S16_S16x1 : S16.ShapeCasts S16x1
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  shapeCasts_S16x256_S1x16x256 : S16x256.ShapeCasts S1x16x256
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  slices_S2x16x256_S1x16x256_0_0_0 : S2x16x256.Slices ![0, 0, 0] S1x16x256
  slices_S2x16x256_S1x16x256_1_0_0 : S2x16x256.Slices ![1, 0, 0] S1x16x256
  slices_S2x16x1_S1x16x1_0_0_0 : S2x16x1.Slices ![0, 0, 0] S1x16x1
  slices_S2x16x1_S1x16x1_1_0_0 : S2x16x1.Slices ![1, 0, 0] S1x16x1
  bcast_S_S16x1 : S_.BroadcastsInDim S16x1 (![] : Fin 0 → Fin S16x1.rank)
  bcast_S16x1_S16x256_0_1 : S16x1.BroadcastsInDim S16x256 (![0, 1] : Fin 2 → Fin S16x256.rank)
  bcast_S_S16x64 : S_.BroadcastsInDim S16x64 (![] : Fin 0 → Fin S16x64.rank)
  bcast_S_S16x256 : S_.BroadcastsInDim S16x256 (![] : Fin 0 → Fin S16x256.rank)
  shapeCasts_S1000000_S200x1x5000 : S1000000.ShapeCasts S200x1x5000
  inb_S5000x256_S5000x256_0_0 : ∀ a, (![0, 0] : Fin 2 → Nat) a + S5000x256.size a ≤ S5000x256.size a
  h_S5000x256 : 0 < S5000x256.numel
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  broadcasts_S1x5000_S16x5000 : S1x5000.Broadcasts S16x5000
  broadcasts_S16x1_S16x5000 : S16x1.Broadcasts S16x5000
  dot_S16x10000_S10000x256_S16x256_1_0_0_1_n_n_wf : DotDims.WF S16x10000 S10000x256 S16x256 [1] [0] [0] [1] [] []
  dot_S16x256_S256x64_S16x64_1_0_0_1_n_n_wf : DotDims.WF S16x256 S256x64 S16x64 [1] [0] [0] [1] [] []
  dot_S16x64_S64x256_S16x256_1_0_0_1_n_n_wf : DotDims.WF S16x64 S64x256 S16x256 [1] [0] [0] [1] [] []
  dot_S16x5000_S16x256_S5000x256_0_0_1_1_n_n_wf : DotDims.WF S16x5000 S16x256 S5000x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S1000000x256.size a
  hwx0_0 : ∀ i : grid0.Coords, EltTy.bits .f32 = 32 ∨ (Rect.block (s := S1000000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x10000.size a ≤ S100x1x10000.size a
  hwx0_1 : ∀ i : grid0.Coords, EltTy.bits .i32 = 32 ∨ (Rect.block (s := S100x1x10000) S1x1x10000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256.size a ≤ S2x16x256.size a
  hwx0_2 : ∀ i : grid0.Coords, EltTy.bits .f32 = 32 ∨ (Rect.block (s := S2x16x256) S1x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1.size a ≤ S2x16x1.size a
  hwx0_3 : ∀ i : grid0.Coords, EltTy.bits .f32 = 32 ∨ (Rect.block (s := S2x16x1) S1x16x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S1000000x256.size a
  hwx1_0 : ∀ i : grid1.Coords, EltTy.bits .f32 = 32 ∨ (Rect.block (s := S1000000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x5000.size a ≤ S200x1x5000.size a
  hwx1_1 : ∀ i : grid1.Coords, EltTy.bits .i32 = 32 ∨ (Rect.block (s := S200x1x5000) S1x1x5000.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x256.size a
  hwx1_2 : ∀ i : grid1.Coords, EltTy.bits .f32 = 32 ∨ (Rect.block (s := S16x256) S16x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S1000000x256.size a
  hwx1_3 : ∀ i : grid1.Coords, EltTy.bits .f32 = 32 ∨ (Rect.block (s := S1000000x256) S5000x256.size (cc1_transform_3 i) (hinb1_3 i)).WholeWords (EltTy.packing .f32)

variable [Facts₀]

def dot_S16x10000_S10000x256_S16x256_1_0_0_1_n_n : DotDims S16x10000 S10000x256 S16x256 where
  lhsContracting := [1]
  rhsContracting := [0]
  lhsNonContracting := [0]
  rhsNonContracting := [1]
  lhsBatch := []
  rhsBatch := []
  wf := dot_S16x10000_S10000x256_S16x256_1_0_0_1_n_n_wf
def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf
def dot_S16x5000_S16x256_S5000x256_0_0_1_1_n_n : DotDims S16x5000 S16x256 S5000x256 where
  lhsContracting := [0]
  rhsContracting := [0]
  lhsNonContracting := [1]
  rhsNonContracting := [1]
  lhsBatch := []
  rhsBatch := []
  wf := dot_S16x5000_S16x256_S5000x256_0_0_1_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x16x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x1x5000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S16x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x256 : Shape := ⟨2, ![1000000, 256]⟩
abbrev S1000000 : Shape := ⟨1, ![1000000]⟩
abbrev S256x64 : Shape := ⟨2, ![256, 64]⟩
abbrev S64x256 : Shape := ⟨2, ![64, 256]⟩
abbrev S_ : Shape := ⟨0, ![]⟩
abbrev S16x256 : Shape := ⟨2, ![16, 256]⟩
abbrev S1000000x1 : Shape := ⟨2, ![1000000, 1]⟩
abbrev S16 : Shape := ⟨1, ![16]⟩
abbrev S16x1 : Shape := ⟨2, ![16, 1]⟩
abbrev S16x64 : Shape := ⟨2, ![16, 64]⟩

abbrev nBuf : Space → Nat
  | .hbm => 43
  | .vmem => 0
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S256x64, .f32⟩
  | .hbm, ⟨3, _⟩ => ⟨S64x256, .f32⟩
  | .hbm, ⟨4, _⟩ => ⟨S_, .f32⟩
  | .hbm, ⟨5, _⟩ => ⟨S16x256, .f32⟩
  | .hbm, ⟨6, _⟩ => ⟨S1000000x1, .i32⟩
  | .hbm, ⟨7, _⟩ => ⟨S16x256, .f32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S16, .f32⟩
  | .hbm, ⟨12, _⟩ => ⟨S1000000x1, .i32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S16x256, .f32⟩
  | .hbm, ⟨19, _⟩ => ⟨S16x256, .f32⟩
  | .hbm, ⟨20, _⟩ => ⟨S16x64, .f32⟩
  | .hbm, ⟨21, _⟩ => ⟨S_, .f32⟩
  | .hbm, ⟨22, _⟩ => ⟨S16x64, .f32⟩
  | .hbm, ⟨23, _⟩ => ⟨S16x64, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S_, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x256, .f32⟩
  | .hbm, ⟨42, _⟩ => ⟨S1000000x256, .f32⟩
  | _, _ => ⟨S1000000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S16x256 : S_.BroadcastsInDim S16x256 (![] : Fin 0 → Fin S16x256.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S_S16x64 : S_.BroadcastsInDim S16x64 (![] : Fin 0 → Fin S16x64.rank)
  scatter_S16x256_S1000000x1_S1000000x256_1_0_0_1_wf : ScatterDims.WF S16x256 S1000000x1 S1000000x256 [1] [0] [0] 1
  scatter_S16_S1000000x1_S1000000_n_0_0_1_wf : ScatterDims.WF S16 S1000000x1 S1000000 [] [0] [0] 1
  dot_S16x256_S256x64_S16x64_1_0_0_1_n_n_wf : DotDims.WF S16x256 S256x64 S16x64 [1] [0] [0] [1] [] []
  dot_S16x64_S64x256_S16x256_1_0_0_1_n_n_wf : DotDims.WF S16x64 S64x256 S16x256 [1] [0] [0] [1] [] []
  gather_S16x256_S1000000x1_S1000000x256_1_0_n_n_0_1_1256_wf : GatherDims.WF S16x256 S1000000x1 S1000000x256 [1] [0] [] [0] [] 1 ![1, 256]

variable [Facts₀]

def scatter_S16x256_S1000000x1_S1000000x256_1_0_0_1 : ScatterDims S16x256 S1000000x1 S1000000x256 where
  updateWindowDims := [1]
  insertedWindowDims := [0]
  scatterDimsToOperandDims := [0]
  indexVectorDim := 1
  wf := scatter_S16x256_S1000000x1_S1000000x256_1_0_0_1_wf
def scatter_S16_S1000000x1_S1000000_n_0_0_1 : ScatterDims S16 S1000000x1 S1000000 where
  updateWindowDims := []
  insertedWindowDims := [0]
  scatterDimsToOperandDims := [0]
  indexVectorDim := 1
  wf := scatter_S16_S1000000x1_S1000000_n_0_0_1_wf
def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf
def gather_S16x256_S1000000x1_S1000000x256_1_0_n_n_0_1_1256 : GatherDims S16x256 S1000000x1 S1000000x256 where
  offsetDims := [1]
  collapsedSliceDims := [0]
  operandBatchingDims := []
  startIndicesBatchingDims := []
  startIndexMap := [0]
  indexVectorDim := 1
  sliceSizes := ![1, 256]
  wf := gather_S16x256_S1000000x1_S1000000x256_1_0_n_n_0_1_1256_wf

class Facts : Prop extends Facts₀ where

variable [Facts]
-- ==== Proof.Reg0B.lean ====
/-
  The first pallas_call (the segment-reduce pass) as a pipeline region: what each window's staging buffer and the two
  accumulators hold around the body at every grid point, and that the body does that.

  The grid has two halves of 50 points, one per core half. At a point the body is handed a block of 10000 rows of
  `x` and their ids. At the first point of a half it resets the two accumulators (16 x 256 sums, 16 x 1 counts) to
  zero; at every point it adds the block's per-segment sums and counts into them; at the last point of a half it
  copies them into the half's output blocks. Between points the accumulators live in scratch memory the pipeline does
  not touch, so the region's invariant names their contents after each point.
-/
import proofs.«415255_j31834297598792_3_alg».proof.Proof.Gen.Kernel.Launch
import proofs.«415255_j31834297598792_3_alg».proof.Proof.Gen.Kernel.Skeleton
import proofs.«415255_j31834297598792_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region's entry contents: the TensorCore's unscoped buffers as the region finds them
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` and the block of ids at position `n` of the grid, at their literal types. -/
abbrev xblk0 (c : Dev nD) (n : ℕ) (hn : n < cfg0.N) : Vec F S10000x256 .f32 := iblk0 V c 0 ⟨n, hn⟩
abbrev iblk0i (c : Dev nD) (n : ℕ) (hn : n < cfg0.N) : Vec F S1x1x10000 .i32 := iblk0 V c 1 ⟨n, hn⟩

/-- THE ACCUMULATION. The two accumulators (sums, counts) after the body at position `n`: at the first point of a half
    (`n` a multiple of 50) the block's sums and counts added to the reset value; elsewhere added to what the point
    before left. -/
def accAt (c : Dev nD) : (n : ℕ) → n < cfg0.N → Vec F S16x256 .f32 × Vec F S16x1 .f32
  | 0, hn => (k0_pay6 (xblk0 V c 0 hn) (iblk0i V c 0 hn) (k0_pay3 (F := F)), k0_pay7 (iblk0i V c 0 hn) (k0_pay4 (F := F)))
  | n + 1, hn =>
    if (n + 1) % 50 = 0 then
      (k0_pay6 (xblk0 V c (n + 1) hn) (iblk0i V c (n + 1) hn) (k0_pay3 (F := F)), k0_pay7 (iblk0i V c (n + 1) hn) (k0_pay4 (F := F)))
    else
      (k0_pay6 (xblk0 V c (n + 1) hn) (iblk0i V c (n + 1) hn) (accAt c n (Nat.lt_of_succ_lt hn)).1,
       k0_pay7 (iblk0i V c (n + 1) hn) (accAt c n (Nat.lt_of_succ_lt hn)).2)

/-- At the first point of a half the accumulators restart from zero. -/
theorem accAt_first (c : Dev nD) (n : ℕ) (hn : n < cfg0.N) (h : n % 50 = 0) :
    accAt V c n hn = (k0_pay6 (xblk0 V c n hn) (iblk0i V c n hn) (k0_pay3 (F := F)), k0_pay7 (iblk0i V c n hn) (k0_pay4 (F := F))) := by
  cases n with
  | zero => rfl
  | succ n => exact if_pos h

/-- At any other point they continue from the point before. -/
theorem accAt_next (c : Dev nD) (n : ℕ) (hn : n < cfg0.N) (h : ¬ n % 50 = 0) :
    accAt V c n hn = (k0_pay6 (xblk0 V c n hn) (iblk0i V c n hn) (accAt V c (n - 1) (by omega)).1,
      k0_pay7 (iblk0i V c n hn) (accAt V c (n - 1) (by omega)).2) := by
  cases n with
  | zero => exact absurd (Nat.zero_mod _) h
  | succ n => exact if_neg h

/-- The two accumulators, as whole scratch buffers. -/
abbrev scS0 : Memref sig .tc .vmem S16x256 .f32 := Memref.whole cc0_scratch0
abbrev scC0 : Memref sig .tc .vmem S16x1 .f32 := Memref.whole cc0_scratch1

/-- The core's scoped buffers that are neither a staging buffer of this call nor an accumulator (the second call's
    staging buffers), each whole at some contents: the body never touches them. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The pipeline's own invariant, with the two accumulators split off as buffers owned at some contents. -/
theorem PhiA0_eq (c : Dev nD) :
    (Pipeline.ΦA spec0 c : sProp 𝕄)
      = iprop(((∃ d, owns (c : Thread nD τ) scS0 fullShare d) ∗ (∃ d, owns (c : Thread nD τ) scC0 fullShare d) ∗ restS0 c) ∗ (∃ r, prngReg c r)) := by
  unfold Pipeline.ΦA; rw [scopedRest0_eq]; unfold restS0; simp only [scS0, scC0, owns_whole]; try rfl

/-- The region's invariant before position `n`: before the first point the pipeline's own (every scoped buffer that
    is no staging buffer of this call at anything, the generator register at some state); afterwards the same with the
    two accumulators at what the point before left. -/
def PhiS (c : Dev nD) : (n : ℕ) → n ≤ cfg0.N → sProp 𝕄
  | 0, _ => Pipeline.ΦA spec0 c
  | n + 1, hn => iprop((owns (c : Thread nD τ) scS0 fullShare (accAt V c n hn).1 ∗ owns (c : Thread nD τ) scC0 fullShare (accAt V c n hn).2
      ∗ restS0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop((owns (c : Thread nD τ) scS0 fullShare (accAt V c n hn).1 ∗ owns (c : Thread nD τ) scC0 fullShare (accAt V c n hn).2
      ∗ restS0 c) ∗ (∃ r, prngReg c r)) := rfl

/-- Before a point that is not the first: the accumulators at what the point before left. -/
theorem PhiS_pos (c : Dev nD) (n : ℕ) (h : n ≤ cfg0.N) (hz : n ≠ 0) :
    PhiS V c n h = iprop((owns (c : Thread nD τ) scS0 fullShare (accAt V c (n - 1) (by omega)).1
      ∗ owns (c : Thread nD τ) scC0 fullShare (accAt V c (n - 1) (by omega)).2 ∗ restS0 c) ∗ (∃ r, prngReg c r)) := by
  cases n with
  | zero => exact absurd rfl hz
  | succ n => rfl

/-- The region's proof data on core `c`: the arrays as the region finds them; after the body each input's buffer at
    its block, the sums' output block at the sum accumulator under a leading unit axis and the counts' at the count
    accumulator (read only at the last point of a half, where the body stores them); the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (accAt V c t.val t.isLt).1
    | ⟨3, _⟩ => k0_pay2 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (accAt V c t.val t.isLt).1 := by dsimp only [dat0]
theorem after0_3 (c : Dev nD) (t : Fin cfg0.N) : (dat0 V c).after 3 t = k0_pay2 (accAt V c t.val t.isLt).2 := by dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## The inputs' buffers hold their blocks at every point -/

/-- An input window's current staging buffer holds its block at every point (both inputs are fetched at every point;
    stated for any proof data whose array is the region's and whose body leaves the block in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's two conditions and where the output windows are idle -/

/-- The condition of the body's first conditional (reset the accumulators): the second grid coordinate is zero. -/
abbrev cond0_0 (i : grid0.Coords) : Prop :=
  (Scalar.cmpi .ne (Scalar.extui (Scalar.cmpi .eq (BitVec.ofNat 32 (i 1).val) 0#32)) 0#32) = 1#1
/-- It holds at the first point of each half. -/
theorem hcond0_0 : ∀ t : Fin cfg0.N, cond0_0 (grid0.coords t) ↔ t.val % 50 = 0 :=
  (by decide +kernel : ∀ t : Fin grid0.N, cond0_0 (grid0.coords t) ↔ t.val % 50 = 0)

/-- The condition of the body's second conditional (copy the accumulators out): the second grid coordinate is 49. -/
abbrev cond0_1 (i : grid0.Coords) : Prop := k0_cond2 i = 1#1
/-- It holds at the last point of each half. -/
theorem hcond0_1 : ∀ t : Fin cfg0.N, cond0_1 (grid0.coords t) ↔ t.val % 50 = 49 :=
  (by decide +kernel : ∀ t : Fin grid0.N, cond0_1 (grid0.coords t) ↔ t.val % 50 = 49)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Away from the last point of a half the output windows are idle and not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- at it they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The body on whole buffers, case by case -/

/-- The offsets of a whole-buffer rectangle are zero. -/
theorem zeros2_0 : (![0, 0] : Fin 2 → Nat) = fun _ => 0 := funext fun a => by fin_cases a <;> rfl
theorem zeros3_0 : (![0, 0, 0] : Fin 3 → Nat) = fun _ => 0 := funext fun a => by fin_cases a <;> rfl

/-- A list of stores whose last one is through the whole-buffer rectangle covers the buffer. -/
theorem cover_head0 {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.Mem.head _, View.mem_set_unit_zero h inb y⟩

set_option maxHeartbeats 1000000 in
/-- CASE A, the first point of a half (reset taken, copy-out not): on whole buffers, the inputs' at `x` and `ix`, the
    outputs' at `o4` and `o5`, the accumulators' at anything, the body runs to the continuation with the inputs' and
    the outputs' as they were and the accumulators at the block's sums and counts added to the reset value. -/
theorem run0_A (c : Dev nD) (E : Set ℕ) (i : grid0.Coords)
    (arg2 : Memref sig .tc .vmem S10000x256 .f32) (harg2 : arg2.IsWhole) (arg3 : Memref sig .tc .vmem S1x1x10000 .i32) (harg3 : arg3.IsWhole)
    (arg4 : Memref sig .tc .vmem S1x16x256 .f32) (harg4 : arg4.IsWhole) (arg5 : Memref sig .tc .vmem S1x16x1 .f32) (harg5 : arg5.IsWhole)
    (arg6 : Memref sig .tc .vmem S16x256 .f32) (harg6 : arg6.IsWhole) (arg7 : Memref sig .tc .vmem S16x1 .f32) (harg7 : arg7.IsWhole)
    (hc0 : cond0_0 i) (hc1 : ¬cond0_1 i)
    (x : Vec F S10000x256 .f32) (ix : Vec F S1x1x10000 .i32) (o4 : Vec F S1x16x256 .f32) (o5 : Vec F S1x16x1 .f32)
    (K : PUnit → sProp 𝕄) :
    iprop(owns (c : Thread nD τ) arg2 fullShare x ∗ owns (c : Thread nD τ) arg3 fullShare ix
        ∗ owns (c : Thread nD τ) arg4 fullShare o4 ∗ owns (c : Thread nD τ) arg5 fullShare o5
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare ix
            ∗ owns (c : Thread nD τ) arg4 fullShare o4 ∗ owns (c : Thread nD τ) arg5 fullShare o5
            ∗ owns (c : Thread nD τ) arg6 fullShare (k0_pay6 x ix (k0_pay3 (F := F)))
            ∗ owns (c : Thread nD τ) arg7 fullShare (k0_pay7 ix (k0_pay4 (F := F)))) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_words
    rw [View.read_writes_eq_canon _ _ _ (cover_head0 zeros2_0 _ _ _), View.canon_cons_unit_zero (S := S16x256) zeros2_0]
    simp only [View.readAt_eq_ld, harg2.read_unread, harg3.read_unread, View.ld_unit_zero (S := S10000x256) zeros2_0,
      View.ld_unit_zero (S := S1x1x10000) zeros3_0, View.readCov_unit_zero (S := S16x256) _ zeros2_0]
  iexists _; isplitr
  swap; · iexact H7
  ipureintro
  sl_unfold_words
  rw [View.read_writes_eq_canon _ _ _ (cover_head0 zeros2_0 _ _ _), View.canon_cons_unit_zero (S := S16x1) zeros2_0]
  simp only [View.readAt_eq_ld, harg3.read_unread, View.ld_unit_zero (S := S1x1x10000) zeros3_0, View.readCov_unit_zero (S := S16x1) _ zeros2_0]

set_option maxHeartbeats 1000000 in
/-- CASE B, a point inside a half (neither conditional taken): the inputs' and the outputs' buffers as they were, the
    accumulators, found at `s6` and `s7`, at the block's sums and counts added to those. -/
theorem run0_B (c : Dev nD) (E : Set ℕ) (i : grid0.Coords)
    (arg2 : Memref sig .tc .vmem S10000x256 .f32) (harg2 : arg2.IsWhole) (arg3 : Memref sig .tc .vmem S1x1x10000 .i32) (harg3 : arg3.IsWhole)
    (arg4 : Memref sig .tc .vmem S1x16x256 .f32) (harg4 : arg4.IsWhole) (arg5 : Memref sig .tc .vmem S1x16x1 .f32) (harg5 : arg5.IsWhole)
    (arg6 : Memref sig .tc .vmem S16x256 .f32) (harg6 : arg6.IsWhole) (arg7 : Memref sig .tc .vmem S16x1 .f32) (harg7 : arg7.IsWhole)
    (hc0 : ¬cond0_0 i) (hc1 : ¬cond0_1 i)
    (x : Vec F S10000x256 .f32) (ix : Vec F S1x1x10000 .i32) (o4 : Vec F S1x16x256 .f32) (o5 : Vec F S1x16x1 .f32)
    (s6 : Vec F S16x256 .f32) (s7 : Vec F S16x1 .f32) (K : PUnit → sProp 𝕄) :
    iprop(owns (c : Thread nD τ) arg2 fullShare x ∗ owns (c : Thread nD τ) arg3 fullShare ix
        ∗ owns (c : Thread nD τ) arg4 fullShare o4 ∗ owns (c : Thread nD τ) arg5 fullShare o5
        ∗ owns (c : Thread nD τ) arg6 fullShare s6 ∗ owns (c : Thread nD τ) arg7 fullShare s7
        ∗ (iprop(owns (c : Thread nD τ) arg2 fullShare x ∗ owns (c : Thread nD τ) arg3 fullShare ix
            ∗ owns (c : Thread nD τ) arg4 fullShare o4 ∗ owns (c : Thread nD τ) arg5 fullShare o5
            ∗ owns (c : Thread nD τ) arg6 fullShare (k0_pay6 x ix s6) ∗ owns (c : Thread nD τ) arg7 fullShare (k0_pay7 ix s7)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_words
    rw [View.read_writes_eq_canon _ _ _ (cover_head0 zeros2_0 _ _ _), View.canon_unit_zero (S := S16x256) zeros2_0]
    simp only [View.readAt_eq_ld, harg2.read_unread, harg3.read_unread, harg6.read_unread, View.ld_unit_zero (S := S10000x256) zeros2_0,
      View.ld_unit_zero (S := S1x1x10000) zeros3_0, View.ld_unit_zero (S := S16x256) zeros2_0]
  iexists _; isplitr
  swap; · iexact H7
  ipureintro
  sl_unfold_words
  rw [View.read_writes_eq_canon _ _ _ (cover_head0 zeros2_0 _ _ _), View.canon_unit_zero (S := S16x1) zeros2_0]
  simp only [View.readAt_eq_ld, harg3.read_unread, harg7.read_unread,
    View.ld_unit_zero (S := S1x1x10000) zeros3_0, View.ld_unit_zero (S := S16x1) zeros2_0]

set_option maxHeartbeats 1000000 in
/-- CASE C, the last point of a half (copy-out taken, reset not): the inputs' buffers as they were, the accumulators,
    found at `s6` and `s7`, at the block's sums and counts added to those, and each output's buffer, found at
    anything, at its accumulator's new contents under a leading unit axis. -/
theorem run0_C (c : Dev nD) (E : Set ℕ) (i : grid0.Coords)
    (arg2 : Memref sig .tc .vmem S10000x256 .f32) (harg2 : arg2.IsWhole) (arg3 : Memref sig .tc .vmem S1x1x10000 .i32) (harg3 : arg3.IsWhole)
    (arg4 : Memref sig .tc .vmem S1x16x256 .f32) (harg4 : arg4.IsWhole) (arg5 : Memref sig .tc .vmem S1x16x1 .f32) (harg5 : arg5.IsWhole)
    (arg6 : Memref sig .tc .vmem S16x256 .f32) (harg6 : arg6.IsWhole) (arg7 : Memref sig .tc .vmem S16x1 .f32) (harg7 : arg7.IsWhole)
    (hc0 : ¬cond0_0 i) (hc1 : cond0_1 i)
    (x : Vec F S10000x256 .f32) (ix : Vec F S1x1x10000 .i32)
    (s6 : Vec F S16x256 .f32) (s7 : Vec F S16x1 .f32) (K : PUnit → sProp 𝕄) :
    iprop(owns (c : Thread nD τ) arg2 fullShare x ∗ owns (c : Thread nD τ) arg3 fullShare ix
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg2 fullShare x ∗ owns (c : Thread nD τ) arg3 fullShare ix
            ∗ owns (c : Thread nD τ) arg4 fullShare (k0_pay1 (k0_pay6 x ix s6)) ∗ owns (c : Thread nD τ) arg5 fullShare (k0_pay2 (k0_pay7 ix s7))
            ∗ owns (c : Thread nD τ) arg6 fullShare (k0_pay6 x ix s6) ∗ owns (c : Thread nD τ) arg7 fullShare (k0_pay7 ix s7)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (cover_head0 zeros3_0 _ _ _), View.canon_unit_zero (S := S1x16x256) zeros3_0]
    simp only [View.readAt_eq_ld, harg2.read_unread, harg3.read_unread, harg6.read_unread, View.ld_unit_zero (S := S10000x256) zeros2_0,
      View.ld_unit_zero (S := S1x1x10000) zeros3_0, View.ld_unit_zero (S := S16x256) zeros2_0, View.readCov_unit_zero (S := S16x256) _ zeros2_0]
  isplitl [H5]
  · iexists _; isplitr
    swap; · iexact H5
    ipureintro
    sl_unfold_words
    rw [View.read_writes_eq_canon _ _ _ (cover_head0 zeros3_0 _ _ _), View.canon_unit_zero (S := S1x16x1) zeros3_0]
    simp only [View.readAt_eq_ld, harg3.read_unread, harg7.read_unread,
      View.ld_unit_zero (S := S1x1x10000) zeros3_0, View.ld_unit_zero (S := S16x1) zeros2_0, View.readCov_unit_zero (S := S16x1) _ zeros2_0]
  isplitl [H6]
  · iexists _; isplitr
    swap; · iexact H6
    ipureintro
    sl_unfold_words
    rw [View.read_writes_eq_canon _ _ _ (cover_head0 zeros2_0 _ _ _), View.canon_unit_zero (S := S16x256) zeros2_0]
    simp only [View.readAt_eq_ld, harg2.read_unread, harg3.read_unread, harg6.read_unread, View.ld_unit_zero (S := S10000x256) zeros2_0,
      View.ld_unit_zero (S := S1x1x10000) zeros3_0, View.ld_unit_zero (S := S16x256) zeros2_0]
  iexists _; isplitr
  swap; · iexact H7
  ipureintro
  sl_unfold_words
  rw [View.read_writes_eq_canon _ _ _ (cover_head0 zeros2_0 _ _ _), View.canon_unit_zero (S := S16x1) zeros2_0]
  simp only [View.readAt_eq_ld, harg3.read_unread, harg7.read_unread,
    View.ld_unit_zero (S := S1x1x10000) zeros3_0, View.ld_unit_zero (S := S16x1) zeros2_0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position within the half says which case the
    point is in; the invariant hands the body the accumulators at what the point before left (at anything before the
    first point) and takes them back at this point's contents; an output window away from the last point of a half is
    idle and handed back as found, and at the last point receives its accumulator; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  by_cases h0 : t.val % 50 = 0
  · have h1 : ¬t.val % 50 = 49 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    rw [accAt_first V c t.val t.isLt h0]; dsimp only
    by_cases hz : t.val = 0
    · rw [PhiS_castSucc V c t, PhiS_zero V c _ _ hz, PhiA0_eq]
      iintro ⟨⟨⟨HS6, HS7, HR⟩, Hg⟩, Ho, ⟨%d0, H0⟩, ⟨%d1, H1⟩, ⟨%d2, H2⟩, ⟨%d3, H3⟩⟩
      iapply (run0_A c Set.univ (grid0.coords t) _ _ _ _ _ _ _ _ _ _ _ _ hc0 hc1 (xblk0 V c t.val t.isLt) (iblk0i V c t.val t.isLt) _ _ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [HS6 HS7 HR Hg]
      · isplitl [HS6 HS7 HR]
        · isplitl [HS6]; · iexact HS6
          isplitl [HS7]; · iexact HS7
          iexact HR
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨HS6, HS7, HR⟩, Hg⟩, Ho, ⟨%d0, H0⟩, ⟨%d1, H1⟩, ⟨%d2, H2⟩, ⟨%d3, H3⟩⟩
      iapply (run0_A c Set.univ (grid0.coords t) _ _ _ _ _ _ _ _ _ _ _ _ hc0 hc1 (xblk0 V c t.val t.isLt) (iblk0i V c t.val t.isLt) _ _ _)
      isplitl [H0]; · iexact H0
      isplitl [H1]; · iexact H1
      isplitl [H2]; · iexact H2
      isplitl [H3]; · iexact H3
      isplitl [HS6]; · iexists _; iexact HS6
      isplitl [HS7]; · iexists _; iexact HS7
      iintro ⟨H0, H1, H2, H3, HS6, HS7⟩
      isplitl [HS6 HS7 HR Hg]
      · isplitl [HS6 HS7 HR]
        · isplitl [HS6]; · iexact HS6
          isplitl [HS7]; · iexact HS7
          iexact HR
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    have hc0 : ¬cond0_0 (grid0.coords t) := fun h => h0 ((hcond0_0 t).mp h)
    rw [accAt_next V c t.val t.isLt h0]; dsimp only
    rw [PhiS_castSucc V c t, PhiS_pos V c _ _ hz]
    by_cases h1 : t.val % 50 = 49
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [show (dat0 V c).leavesExact 3 t = owns (c : Thread nD τ) (st0_3 t) fullShare ((dat0 V c).after 3 t) from by
        unfold Dat.leavesExact; rw [liveAt0_3 t hc1], after0_3]
      rw [accAt_next V c t.val t.isLt h0]; dsimp only
      iintro ⟨⟨⟨HS6, HS7, HR⟩, Hg⟩, Ho, ⟨%d0, H0⟩, ⟨%d1, H1⟩, ⟨%d2, H2⟩, ⟨%d3, H3⟩⟩
      iapply (run0_C c Set.univ (grid0.coords t) _ _ _ _ _ _ _ _ _ _ _ _ hc0 hc1 (xblk0 V c t.val t.isLt) (iblk0i V c t.val t.isLt) _ _ _)
      isplitl [H0]; · iexact H0
      isplitl [H1]; · iexact H1
      isplitl [H2]; · iexists _; iexact H2
      isplitl [H3]; · iexists _; iexact H3
      isplitl [HS6]; · iexact HS6
      isplitl [HS7]; · iexact HS7
      iintro ⟨H0, H1, H2, H3, HS6, HS7⟩
      isplitl [HS6 HS7 HR Hg]
      · isplitl [HS6 HS7 HR]
        · isplitl [HS6]; · iexact HS6
          isplitl [HS7]; · iexact HS7
          iexact HR
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t hc1)]
      rw [Dat.leavesExact_idle (dat0 V c) 3 t (idleAt0_3 t hc1) (noFlush0_3 t hc1)]
      iintro ⟨⟨⟨HS6, HS7, HR⟩, Hg⟩, Ho, ⟨%d0, H0⟩, ⟨%d1, H1⟩, ⟨%d2, H2⟩, ⟨%d3, H3⟩⟩
      iapply (run0_B c Set.univ (grid0.coords t) _ _ _ _ _ _ _ _ _ _ _ _ hc0 hc1 (xblk0 V c t.val t.isLt) (iblk0i V c t.val t.isLt) _ _ _ _ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [HS6 HS7 HR Hg]
      · isplitl [HS6 HS7 HR]
        · isplitl [HS6]; · iexact HS6
          isplitl [HS7]; · iexact HS7
          iexact HR
        iexact Hg
      isplitl [Ho]; · iexact Ho
      isplitl [H0]; · iexact H0
      isplitl [H1]; · iexact H1
      isplitl [H2]; · iexists _; iexact H2
      iexists _; iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the pipeline's own back. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS6, HS7, HR⟩, Hg⟩
  isplitl [HS6 HS7 HR]
  · isplitl [HS6]; · iexists _; iexact HS6
    isplitl [HS7]; · iexists _; iexact HS7
    iexact HR
  iexact Hg

/-- After the last point the invariant gives the pipeline's own back: the accumulators' contents are forgotten. -/
theorem hout0 (c : Dev nD) : (dat0 V c).Φ (Fin.last cfg0.N) ⊢ Pipeline.ΦA spec0 c :=
  Phi_out0 V c _ (by rw [Fin.val_last]; have : cfg0.N = 100 := N_0; omega)

end Cert.Kernel.Hand

end
-- ==== Proof.Reg1B.lean ====
/-
  The second pallas_call (the gather-and-multiply pass) as a pipeline region: what each window's staging buffer
  holds around the body at every grid point, and that the body does that.

  At a point the pipeline hands the body a block of 5000 rows of `x`, the matching 5000 ids and the whole 16-row gate
  table; the body stores one value into the output block, a pure function of the three. Nothing is carried from
  point to point.
-/
import proofs.«415255_j31834297598792_3_alg».proof.Proof.Gen.Kernel.Launch
import proofs.«415255_j31834297598792_3_alg».proof.Proof.Gen.Kernel.Skeleton
import proofs.«415255_j31834297598792_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region's entry contents: the TensorCore's unscoped buffers as the region finds them
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the pipeline fetched it
    there (the gate table is fetched once: its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S5000x256 := Rect.unit (s := S5000x256) ![0, 0] S5000x256.size inb_S5000x256_S5000x256_0_0
abbrev rI1 : Rect S1x1x5000 := Rect.unit (s := S1x1x5000) ![0, 0, 0] S1x1x5000.size inb_S1x1x5000_S1x1x5000_0_0_0
abbrev rG1 : Rect S16x256 := Rect.unit (s := S16x256) ![0, 0] S16x256.size inb_S16x256_S16x256_0_0

/-- The output block after the body, from the three input blocks: its one store, covering the buffer. -/
def gatherMul (x0 : Vec F S5000x256 .f32) (x1 : Vec F S1x1x5000 .i32) (x2 : Vec F S16x256 .f32) : Vec F S5000x256 .f32 :=
  View.canon [⟨rX1, k1_pay1 (View.ld x0 rX1) (View.ld x1 rI1) (View.ld x2 rG1)⟩]

/-- The one store covers the output buffer. -/
theorem cover1_3 (p0 : Vec F S5000x256 .f32) (y : S5000x256.Idx) :
    ∃ pc ∈ ([⟨rX1, p0⟩] : List (View.Piece (Elt F) S5000x256 .f32)), y ∈ pc.1.set :=
  View.cover_of_tiled [⟨rX1, p0⟩] S5000x256.size (by rfl) y

set_option maxHeartbeats 1000000 in
/-- The body on whole staging buffers, the inputs' at their contents and the output's at anything, runs to the
    continuation with the inputs' as they were and the output's at `gatherMul` of the inputs'. -/
theorem sound_kernel1 (c : Dev nD) (E : Set ℕ) (i : grid1.Coords)
    (arg2 : Memref sig .tc .vmem S5000x256 .f32) (harg2 : arg2.IsWhole) (arg3 : Memref sig .tc .vmem S1x1x5000 .i32) (harg3 : arg3.IsWhole)
    (arg4 : Memref sig .tc .vmem S16x256 .f32) (harg4 : arg4.IsWhole) (arg5 : Memref sig .tc .vmem S5000x256 .f32) (harg5 : arg5.IsWhole)
    (x0 : Vec F S5000x256 .f32) (x1 : Vec F S1x1x5000 .i32) (x2 : Vec F S16x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (gatherMul x0 x1 x2)) -∗ K ⟨⟩))
      ⊢ wp frame (wpE (defs₀ (F := F)) Variants.none c none) E (cc1__gather_mult_kernel i arg2 harg2 arg3 harg3 arg4 harg4 arg5 harg5) K := by
  simp only [cc1__gather_mult_kernel_eq_skeleton]; unfold cc1__gather_mult_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body each input's buffer at
    its block and the output's at `gatherMul` of the three blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => gatherMul (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = gatherMul (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunB.lean ====
/-
  The run of the kernel program: @main as six segments in order — a reshape of the ids, the segment-reduce pass, the
  host operations that turn the two halves' partial sums and counts into the gate table (three stretches), the
  gather-and-multiply pass — and the launch over them.

  Between two segments every unscoped buffer of the TensorCore is held at contents folded from the launch memory: a
  host stretch applies its operations; a pass leaves its windows' arrays at what its write-backs fold to and every
  other buffer as it found it. Every weakly fair execution from zero counters terminates with every unscoped buffer
  at the last of these contents: the arguments as launched, the result at what the second pass wrote.
-/
import proofs.«415255_j31834297598792_3_alg».proof.Proof.Reg0B
import proofs.«415255_j31834297598792_3_alg».proof.Proof.Reg1B
import proofs.«415255_j31834297598792_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the ids' reshape (the first pass's entry). -/
abbrev W1 : Dev nD → Valuation τ sig (Elt F) := fun c => StableHlo.after hostOps0 (W0 m ρ c)
/-- The same read at the TensorCore's references. -/
abbrev VR1 : (c : Dev nD) → (b : Ref sig .tc) → Buf (Elt F) ((c : Thread nD τ).loc b) := fun c b => W1 m ρ c b
/-- At the first pass's exit: its arrays at what its write-backs fold to, every other buffer as entered. -/
def W2 (c : Dev nD) : Valuation τ sig (Elt F) :=
  Pipeline.withArrays spec0 c (W1 m ρ c) fun w => (dat0 (VR1 m ρ) c).arrAt w cfg0.N
theorem W2_arr (c : Dev nD) (w : Fin cfg0.W) :
    W2 m ρ c (Proc.devRef .tc (Pipeline.arrRef spec0 w)) = (dat0 (VR1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VR2 : (c : Dev nD) → (b : Ref sig .tc) → Buf (Elt F) ((c : Thread nD τ).loc b) := fun c b => W2 m ρ c b
theorem hF0 (c : Dev nD) (w : Fin cfg0.W) : (dat0 (VR1 m ρ) c).arrAt w cfg0.N = VR2 m ρ c (Pipeline.arrRef spec0 w) :=
  (W2_arr m ρ c w).symm
theorem hrest0 (c : Dev nD) : ∀ b, b ∉ Finset.univ.image (Pipeline.arrRef spec0) → VR2 m ρ c b = VR1 m ρ c b :=
  fun b hb => W2_of_ne m ρ c b fun w e => hb (Finset.mem_image.mpr ⟨w, Finset.mem_univ _, e⟩)

/-- After the three host stretches between the passes (the second pass's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev VR5 : (c : Dev nD) → (b : Ref sig .tc) → Buf (Elt F) ((c : Thread nD τ).loc b) := fun c b => W5 m ρ c b
/-- At the second pass's exit. -/
def W6 (c : Dev nD) : Valuation τ sig (Elt F) :=
  Pipeline.withArrays spec1 c (W5 m ρ c) fun w => (dat1 (VR5 m ρ) c).arrAt w cfg1.N
theorem W6_arr (c : Dev nD) (w : Fin cfg1.W) :
    W6 m ρ c (Proc.devRef .tc (Pipeline.arrRef spec1 w)) = (dat1 (VR5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev VR6 : (c : Dev nD) → (b : Ref sig .tc) → Buf (Elt F) ((c : Thread nD τ).loc b) := fun c b => W6 m ρ c b
theorem hF1 (c : Dev nD) (w : Fin cfg1.W) : (dat1 (VR5 m ρ) c).arrAt w cfg1.N = VR6 m ρ c (Pipeline.arrRef spec1 w) :=
  (W6_arr m ρ c w).symm
theorem hrest1 (c : Dev nD) : ∀ b, b ∉ Finset.univ.image (Pipeline.arrRef spec1) → VR6 m ρ c b = VR5 m ρ c b :=
  fun b hb => W6_of_ne m ρ c b fun w e => hb (Finset.mem_image.mpr ⟨w, Finset.mem_univ _, e⟩)

/-! ## A buffer no host stretch writes and no pass changes keeps its contents -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W4_of (c : Dev nD) (r : Ref sig .tc) (h : r ∉ hostOps1_1_W) : W4 m ρ c r = W3 m ρ c r :=
  StableHlo.after_of_writes_sub hostOps1_1 _ hostOps1_1_writes h
theorem W5_of (c : Dev nD) (r : Ref sig .tc) (h : r ∉ hostOps1_2_W) : W5 m ρ c r = W4 m ρ c r :=
  StableHlo.after_of_writes_sub hostOps1_2 _ hostOps1_2_writes h

/-- `x` is an input window of both passes: each leaves it as it found it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 0).trans (((dat1 (VR5 m ρ) c).arrAt_in 0 rfl _).trans (A_eq1 (VR5 m ρ) c 0))
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := (W2_arr m ρ c 0).trans (((dat0 (VR1 m ρ) c).arrAt_in 0 rfl _).trans (A_eq0 (VR1 m ρ) c 0))
    _ = W0 m ρ c (Proc.devRef .tc main_arg0) := W1_of m ρ c main_arg0 (by decide)
    _ = m ((c : Thread nD τ).loc main_arg0) := rfl

/-- The ids and the two weight matrices are no window's array and no operation's result. -/
theorem W6_keep (c : Dev nD) (r : Ref sig .tc) (h6 : ∀ w, Pipeline.arrRef spec1 w ≠ r) (h5 : r ∉ hostOps1_2_W) (h4 : r ∉ hostOps1_1_W)
    (h3 : r ∉ hostOps1_W) (h2 : ∀ w, Pipeline.arrRef spec0 w ≠ r) (h1 : r ∉ hostOps0_W) :
    W6 m ρ c (Proc.devRef .tc r) = m ((c : Thread nD τ).loc r) :=
  calc W6 m ρ c (Proc.devRef .tc r)
    _ = W5 m ρ c (Proc.devRef .tc r) := W6_of_ne m ρ c r h6
    _ = W4 m ρ c (Proc.devRef .tc r) := W5_of m ρ c r h5
    _ = W3 m ρ c (Proc.devRef .tc r) := W4_of m ρ c r h4
    _ = W2 m ρ c (Proc.devRef .tc r) := W3_of m ρ c r h3
    _ = W1 m ρ c (Proc.devRef .tc r) := W2_of_ne m ρ c r h2
    _ = W0 m ρ c (Proc.devRef .tc r) := W1_of m ρ c r h1
    _ = m ((c : Thread nD τ).loc r) := rfl
theorem W6_main_arg1 (c : Dev nD) : W6 m ρ c (Proc.devRef .tc main_arg1) = m ((c : Thread nD τ).loc main_arg1) :=
  W6_keep m ρ c main_arg1 (by decide) (by decide) (by decide) (by decide) (by decide) (by decide)
theorem W6_main_arg2 (c : Dev nD) : W6 m ρ c (Proc.devRef .tc main_arg2) = m ((c : Thread nD τ).loc main_arg2) :=
  W6_keep m ρ c main_arg2 (by decide) (by decide) (by decide) (by decide) (by decide) (by decide)
theorem W6_main_arg3 (c : Dev nD) : W6 m ρ c (Proc.devRef .tc main_arg3) = m ((c : Thread nD τ).loc main_arg3) :=
  W6_keep m ρ c main_arg3 (by decide) (by decide) (by decide) (by decide) (by decide) (by decide)

/-! ## The proof data family and the thread state -/

/-- Each pass's proof data at its entry contents. -/
def pdats : (p : Fin 2) → (c : Dev nD) → Dat τ (Elt F) Unit ℕ (UR sig nD τ) ℕ (Pipeline.pin (pcfgs (F := F)) adm p) c
  | ⟨0, _⟩ => fun c => dat0 (VR1 m ρ) c
  | ⟨1, _⟩ => fun c => dat1 (VR5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ c) ∗ ∃ r, prngReg c r)

/-! ## The passes as segments -/

set_option backward.isDefEq.respectTransparency.types false in
/-- The segment-reduce pass: entered from every unscoped buffer at `W1`, left at `W2`; its arrays split out of the
    unscoped buffers and put back at the exit contents; the generator register and the scoped rest into the
    invariant and out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VR1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VR1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (VR1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (VR1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VR1 m ρ c) (VR2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather-and-multiply pass: entered from every unscoped buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VR5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VR5 m ρ c) (VR6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segsH : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- @main is the run of the segments. -/
theorem main_run (c : Dev nD) : main (F := F) c = Pipeline.Seg.run (segsH m ρ) := (main_chain c).trans (by chain_rfl)

set_option backward.isDefEq.respectTransparency.types false in
/-- THE RUN. From any memory with zero counters, every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

/-- THE RESULT: the run with the result's buffer named — what the second pass's write-backs fold to — beside the
    unchanged arguments. -/
theorem run_result : θ_run defs (onTc (τ := τ) (main (F := F))) ⟨m, fun _ => 0, ρ⟩ (fun r => ∀ c : Dev nD,
      r.2.mem ((c.tc : Thread nD τ).loc main_v26) = (dat1 (VR5 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v26 (by decide))).trans (W6_arr m ρ c 3),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.Kernel.Hand

end
-- ==== Proof.Reg0.lean ====
/-
  The first pallas_call (the segment-reduce pass) as a pipeline region: what each window's staging buffer and the two
  accumulators hold around the body at every grid point, and that the body does that.

  The grid has two halves of 50 points, one per core half. At a point the body is handed a block of 10000 rows of
  `x` and their ids. At the first point of a half it resets the two accumulators (16 x 256 sums, 16 x 1 counts) to
  zero; at every point it adds the block's per-segment sums and counts into them; at the last point of a half it
  copies them into the half's output blocks. Between points the accumulators live in scratch memory the pipeline does
  not touch, so the region's invariant names their contents after each point.
-/
import proofs.«415255_j31834297598792_3_alg».proof.Proof.Gen.KernelIdeal.Launch
import proofs.«415255_j31834297598792_3_alg».proof.Proof.Gen.KernelIdeal.Skeleton
import proofs.«415255_j31834297598792_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region's entry contents: the TensorCore's unscoped buffers as the region finds them
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` and the block of ids at position `n` of the grid, at their literal types. -/
abbrev xblk0 (c : Dev nD) (n : ℕ) (hn : n < cfg0.N) : Vec F S10000x256 .f32 := iblk0 V c 0 ⟨n, hn⟩
abbrev iblk0i (c : Dev nD) (n : ℕ) (hn : n < cfg0.N) : Vec F S1x1x10000 .i32 := iblk0 V c 1 ⟨n, hn⟩

/-- THE ACCUMULATION. The two accumulators (sums, counts) after the body at position `n`: at the first point of a half
    (`n` a multiple of 50) the block's sums and counts added to the reset value; elsewhere added to what the point
    before left. -/
def accAt (c : Dev nD) : (n : ℕ) → n < cfg0.N → Vec F S16x256 .f32 × Vec F S16x1 .f32
  | 0, hn => (k0_pay6 (xblk0 V c 0 hn) (iblk0i V c 0 hn) (k0_pay3 (F := F)), k0_pay7 (iblk0i V c 0 hn) (k0_pay4 (F := F)))
  | n + 1, hn =>
    if (n + 1) % 50 = 0 then
      (k0_pay6 (xblk0 V c (n + 1) hn) (iblk0i V c (n + 1) hn) (k0_pay3 (F := F)), k0_pay7 (iblk0i V c (n + 1) hn) (k0_pay4 (F := F)))
    else
      (k0_pay6 (xblk0 V c (n + 1) hn) (iblk0i V c (n + 1) hn) (accAt c n (Nat.lt_of_succ_lt hn)).1,
       k0_pay7 (iblk0i V c (n + 1) hn) (accAt c n (Nat.lt_of_succ_lt hn)).2)

/-- At the first point of a half the accumulators restart from zero. -/
theorem accAt_first (c : Dev nD) (n : ℕ) (hn : n < cfg0.N) (h : n % 50 = 0) :
    accAt V c n hn = (k0_pay6 (xblk0 V c n hn) (iblk0i V c n hn) (k0_pay3 (F := F)), k0_pay7 (iblk0i V c n hn) (k0_pay4 (F := F))) := by
  cases n with
  | zero => rfl
  | succ n => exact if_pos h

/-- At any other point they continue from the point before. -/
theorem accAt_next (c : Dev nD) (n : ℕ) (hn : n < cfg0.N) (h : ¬ n % 50 = 0) :
    accAt V c n hn = (k0_pay6 (xblk0 V c n hn) (iblk0i V c n hn) (accAt V c (n - 1) (by omega)).1,
      k0_pay7 (iblk0i V c n hn) (accAt V c (n - 1) (by omega)).2) := by
  cases n with
  | zero => exact absurd (Nat.zero_mod _) h
  | succ n => exact if_neg h

/-- The two accumulators, as whole scratch buffers. -/
abbrev scS0 : Memref sig .tc .vmem S16x256 .f32 := Memref.whole cc0_scratch0
abbrev scC0 : Memref sig .tc .vmem S16x1 .f32 := Memref.whole cc0_scratch1

/-- The core's scoped buffers that are neither a staging buffer of this call nor an accumulator (the second call's
    staging buffers), each whole at some contents: the body never touches them. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The pipeline's own invariant, with the two accumulators split off as buffers owned at some contents. -/
theorem PhiA0_eq (c : Dev nD) :
    (Pipeline.ΦA spec0 c : sProp 𝕄)
      = iprop(((∃ d, owns (c : Thread nD τ) scS0 fullShare d) ∗ (∃ d, owns (c : Thread nD τ) scC0 fullShare d) ∗ restS0 c) ∗ (∃ r, prngReg c r)) := by
  unfold Pipeline.ΦA; rw [scopedRest0_eq]; unfold restS0; simp only [scS0, scC0, owns_whole]; try rfl

/-- The region's invariant before position `n`: before the first point the pipeline's own (every scoped buffer that
    is no staging buffer of this call at anything, the generator register at some state); afterwards the same with the
    two accumulators at what the point before left. -/
def PhiS (c : Dev nD) : (n : ℕ) → n ≤ cfg0.N → sProp 𝕄
  | 0, _ => Pipeline.ΦA spec0 c
  | n + 1, hn => iprop((owns (c : Thread nD τ) scS0 fullShare (accAt V c n hn).1 ∗ owns (c : Thread nD τ) scC0 fullShare (accAt V c n hn).2
      ∗ restS0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop((owns (c : Thread nD τ) scS0 fullShare (accAt V c n hn).1 ∗ owns (c : Thread nD τ) scC0 fullShare (accAt V c n hn).2
      ∗ restS0 c) ∗ (∃ r, prngReg c r)) := rfl

/-- Before a point that is not the first: the accumulators at what the point before left. -/
theorem PhiS_pos (c : Dev nD) (n : ℕ) (h : n ≤ cfg0.N) (hz : n ≠ 0) :
    PhiS V c n h = iprop((owns (c : Thread nD τ) scS0 fullShare (accAt V c (n - 1) (by omega)).1
      ∗ owns (c : Thread nD τ) scC0 fullShare (accAt V c (n - 1) (by omega)).2 ∗ restS0 c) ∗ (∃ r, prngReg c r)) := by
  cases n with
  | zero => exact absurd rfl hz
  | succ n => rfl

/-- The region's proof data on core `c`: the arrays as the region finds them; after the body each input's buffer at
    its block, the sums' output block at the sum accumulator under a leading unit axis and the counts' at the count
    accumulator (read only at the last point of a half, where the body stores them); the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (accAt V c t.val t.isLt).1
    | ⟨3, _⟩ => k0_pay2 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (accAt V c t.val t.isLt).1 := by dsimp only [dat0]
theorem after0_3 (c : Dev nD) (t : Fin cfg0.N) : (dat0 V c).after 3 t = k0_pay2 (accAt V c t.val t.isLt).2 := by dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## The inputs' buffers hold their blocks at every point -/

/-- An input window's current staging buffer holds its block at every point (both inputs are fetched at every point;
    stated for any proof data whose array is the region's and whose body leaves the block in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's two conditions and where the output windows are idle -/

/-- The condition of the body's first conditional (reset the accumulators): the second grid coordinate is zero. -/
abbrev cond0_0 (i : grid0.Coords) : Prop :=
  (Scalar.cmpi .ne (Scalar.extui (Scalar.cmpi .eq (BitVec.ofNat 32 (i 1).val) 0#32)) 0#32) = 1#1
/-- It holds at the first point of each half. -/
theorem hcond0_0 : ∀ t : Fin cfg0.N, cond0_0 (grid0.coords t) ↔ t.val % 50 = 0 :=
  (by decide +kernel : ∀ t : Fin grid0.N, cond0_0 (grid0.coords t) ↔ t.val % 50 = 0)

/-- The condition of the body's second conditional (copy the accumulators out): the second grid coordinate is 49. -/
abbrev cond0_1 (i : grid0.Coords) : Prop := k0_cond2 i = 1#1
/-- It holds at the last point of each half. -/
theorem hcond0_1 : ∀ t : Fin cfg0.N, cond0_1 (grid0.coords t) ↔ t.val % 50 = 49 :=
  (by decide +kernel : ∀ t : Fin grid0.N, cond0_1 (grid0.coords t) ↔ t.val % 50 = 49)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Away from the last point of a half the output windows are idle and not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- at it they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The body on whole buffers, case by case -/

/-- The offsets of a whole-buffer rectangle are zero. -/
theorem zeros2_0 : (![0, 0] : Fin 2 → Nat) = fun _ => 0 := funext fun a => by fin_cases a <;> rfl
theorem zeros3_0 : (![0, 0, 0] : Fin 3 → Nat) = fun _ => 0 := funext fun a => by fin_cases a <;> rfl

/-- A list of stores whose last one is through the whole-buffer rectangle covers the buffer. -/
theorem cover_head0 {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.Mem.head _, View.mem_set_unit_zero h inb y⟩

set_option maxHeartbeats 1000000 in
/-- CASE A, the first point of a half (reset taken, copy-out not): on whole buffers, the inputs' at `x` and `ix`, the
    outputs' at `o4` and `o5`, the accumulators' at anything, the body runs to the continuation with the inputs' and
    the outputs' as they were and the accumulators at the block's sums and counts added to the reset value. -/
theorem run0_A (c : Dev nD) (E : Set ℕ) (i : grid0.Coords)
    (arg2 : Memref sig .tc .vmem S10000x256 .f32) (harg2 : arg2.IsWhole) (arg3 : Memref sig .tc .vmem S1x1x10000 .i32) (harg3 : arg3.IsWhole)
    (arg4 : Memref sig .tc .vmem S1x16x256 .f32) (harg4 : arg4.IsWhole) (arg5 : Memref sig .tc .vmem S1x16x1 .f32) (harg5 : arg5.IsWhole)
    (arg6 : Memref sig .tc .vmem S16x256 .f32) (harg6 : arg6.IsWhole) (arg7 : Memref sig .tc .vmem S16x1 .f32) (harg7 : arg7.IsWhole)
    (hc0 : cond0_0 i) (hc1 : ¬cond0_1 i)
    (x : Vec F S10000x256 .f32) (ix : Vec F S1x1x10000 .i32) (o4 : Vec F S1x16x256 .f32) (o5 : Vec F S1x16x1 .f32)
    (K : PUnit → sProp 𝕄) :
    iprop(owns (c : Thread nD τ) arg2 fullShare x ∗ owns (c : Thread nD τ) arg3 fullShare ix
        ∗ owns (c : Thread nD τ) arg4 fullShare o4 ∗ owns (c : Thread nD τ) arg5 fullShare o5
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare ix
            ∗ owns (c : Thread nD τ) arg4 fullShare o4 ∗ owns (c : Thread nD τ) arg5 fullShare o5
            ∗ owns (c : Thread nD τ) arg6 fullShare (k0_pay6 x ix (k0_pay3 (F := F)))
            ∗ owns (c : Thread nD τ) arg7 fullShare (k0_pay7 ix (k0_pay4 (F := F)))) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_words
    rw [View.read_writes_eq_canon _ _ _ (cover_head0 zeros2_0 _ _ _), View.canon_cons_unit_zero (S := S16x256) zeros2_0]
    simp only [View.readAt_eq_ld, harg2.read_unread, harg3.read_unread, View.ld_unit_zero (S := S10000x256) zeros2_0,
      View.ld_unit_zero (S := S1x1x10000) zeros3_0, View.readCov_unit_zero (S := S16x256) _ zeros2_0]
  iexists _; isplitr
  swap; · iexact H7
  ipureintro
  sl_unfold_words
  rw [View.read_writes_eq_canon _ _ _ (cover_head0 zeros2_0 _ _ _), View.canon_cons_unit_zero (S := S16x1) zeros2_0]
  simp only [View.readAt_eq_ld, harg3.read_unread, View.ld_unit_zero (S := S1x1x10000) zeros3_0, View.readCov_unit_zero (S := S16x1) _ zeros2_0]

set_option maxHeartbeats 1000000 in
/-- CASE B, a point inside a half (neither conditional taken): the inputs' and the outputs' buffers as they were, the
    accumulators, found at `s6` and `s7`, at the block's sums and counts added to those. -/
theorem run0_B (c : Dev nD) (E : Set ℕ) (i : grid0.Coords)
    (arg2 : Memref sig .tc .vmem S10000x256 .f32) (harg2 : arg2.IsWhole) (arg3 : Memref sig .tc .vmem S1x1x10000 .i32) (harg3 : arg3.IsWhole)
    (arg4 : Memref sig .tc .vmem S1x16x256 .f32) (harg4 : arg4.IsWhole) (arg5 : Memref sig .tc .vmem S1x16x1 .f32) (harg5 : arg5.IsWhole)
    (arg6 : Memref sig .tc .vmem S16x256 .f32) (harg6 : arg6.IsWhole) (arg7 : Memref sig .tc .vmem S16x1 .f32) (harg7 : arg7.IsWhole)
    (hc0 : ¬cond0_0 i) (hc1 : ¬cond0_1 i)
    (x : Vec F S10000x256 .f32) (ix : Vec F S1x1x10000 .i32) (o4 : Vec F S1x16x256 .f32) (o5 : Vec F S1x16x1 .f32)
    (s6 : Vec F S16x256 .f32) (s7 : Vec F S16x1 .f32) (K : PUnit → sProp 𝕄) :
    iprop(owns (c : Thread nD τ) arg2 fullShare x ∗ owns (c : Thread nD τ) arg3 fullShare ix
        ∗ owns (c : Thread nD τ) arg4 fullShare o4 ∗ owns (c : Thread nD τ) arg5 fullShare o5
        ∗ owns (c : Thread nD τ) arg6 fullShare s6 ∗ owns (c : Thread nD τ) arg7 fullShare s7
        ∗ (iprop(owns (c : Thread nD τ) arg2 fullShare x ∗ owns (c : Thread nD τ) arg3 fullShare ix
            ∗ owns (c : Thread nD τ) arg4 fullShare o4 ∗ owns (c : Thread nD τ) arg5 fullShare o5
            ∗ owns (c : Thread nD τ) arg6 fullShare (k0_pay6 x ix s6) ∗ owns (c : Thread nD τ) arg7 fullShare (k0_pay7 ix s7)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    sl_unfold_words
    rw [View.read_writes_eq_canon _ _ _ (cover_head0 zeros2_0 _ _ _), View.canon_unit_zero (S := S16x256) zeros2_0]
    simp only [View.readAt_eq_ld, harg2.read_unread, harg3.read_unread, harg6.read_unread, View.ld_unit_zero (S := S10000x256) zeros2_0,
      View.ld_unit_zero (S := S1x1x10000) zeros3_0, View.ld_unit_zero (S := S16x256) zeros2_0]
  iexists _; isplitr
  swap; · iexact H7
  ipureintro
  sl_unfold_words
  rw [View.read_writes_eq_canon _ _ _ (cover_head0 zeros2_0 _ _ _), View.canon_unit_zero (S := S16x1) zeros2_0]
  simp only [View.readAt_eq_ld, harg3.read_unread, harg7.read_unread,
    View.ld_unit_zero (S := S1x1x10000) zeros3_0, View.ld_unit_zero (S := S16x1) zeros2_0]

set_option maxHeartbeats 1000000 in
/-- CASE C, the last point of a half (copy-out taken, reset not): the inputs' buffers as they were, the accumulators,
    found at `s6` and `s7`, at the block's sums and counts added to those, and each output's buffer, found at
    anything, at its accumulator's new contents under a leading unit axis. -/
theorem run0_C (c : Dev nD) (E : Set ℕ) (i : grid0.Coords)
    (arg2 : Memref sig .tc .vmem S10000x256 .f32) (harg2 : arg2.IsWhole) (arg3 : Memref sig .tc .vmem S1x1x10000 .i32) (harg3 : arg3.IsWhole)
    (arg4 : Memref sig .tc .vmem S1x16x256 .f32) (harg4 : arg4.IsWhole) (arg5 : Memref sig .tc .vmem S1x16x1 .f32) (harg5 : arg5.IsWhole)
    (arg6 : Memref sig .tc .vmem S16x256 .f32) (harg6 : arg6.IsWhole) (arg7 : Memref sig .tc .vmem S16x1 .f32) (harg7 : arg7.IsWhole)
    (hc0 : ¬cond0_0 i) (hc1 : cond0_1 i)
    (x : Vec F S10000x256 .f32) (ix : Vec F S1x1x10000 .i32)
    (s6 : Vec F S16x256 .f32) (s7 : Vec F S16x1 .f32) (K : PUnit → sProp 𝕄) :
    iprop(owns (c : Thread nD τ) arg2 fullShare x ∗ owns (c : Thread nD τ) arg3 fullShare ix
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg2 fullShare x ∗ owns (c : Thread nD τ) arg3 fullShare ix
            ∗ owns (c : Thread nD τ) arg4 fullShare (k0_pay1 (k0_pay6 x ix s6)) ∗ owns (c : Thread nD τ) arg5 fullShare (k0_pay2 (k0_pay7 ix s7))
            ∗ owns (c : Thread nD τ) arg6 fullShare (k0_pay6 x ix s6) ∗ owns (c : Thread nD τ) arg7 fullShare (k0_pay7 ix s7)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (cover_head0 zeros3_0 _ _ _), View.canon_unit_zero (S := S1x16x256) zeros3_0]
    simp only [View.readAt_eq_ld, harg2.read_unread, harg3.read_unread, harg6.read_unread, View.ld_unit_zero (S := S10000x256) zeros2_0,
      View.ld_unit_zero (S := S1x1x10000) zeros3_0, View.ld_unit_zero (S := S16x256) zeros2_0, View.readCov_unit_zero (S := S16x256) _ zeros2_0]
  isplitl [H5]
  · iexists _; isplitr
    swap; · iexact H5
    ipureintro
    sl_unfold_words
    rw [View.read_writes_eq_canon _ _ _ (cover_head0 zeros3_0 _ _ _), View.canon_unit_zero (S := S1x16x1) zeros3_0]
    simp only [View.readAt_eq_ld, harg3.read_unread, harg7.read_unread,
      View.ld_unit_zero (S := S1x1x10000) zeros3_0, View.ld_unit_zero (S := S16x1) zeros2_0, View.readCov_unit_zero (S := S16x1) _ zeros2_0]
  isplitl [H6]
  · iexists _; isplitr
    swap; · iexact H6
    ipureintro
    sl_unfold_words
    rw [View.read_writes_eq_canon _ _ _ (cover_head0 zeros2_0 _ _ _), View.canon_unit_zero (S := S16x256) zeros2_0]
    simp only [View.readAt_eq_ld, harg2.read_unread, harg3.read_unread, harg6.read_unread, View.ld_unit_zero (S := S10000x256) zeros2_0,
      View.ld_unit_zero (S := S1x1x10000) zeros3_0, View.ld_unit_zero (S := S16x256) zeros2_0]
  iexists _; isplitr
  swap; · iexact H7
  ipureintro
  sl_unfold_words
  rw [View.read_writes_eq_canon _ _ _ (cover_head0 zeros2_0 _ _ _), View.canon_unit_zero (S := S16x1) zeros2_0]
  simp only [View.readAt_eq_ld, harg3.read_unread, harg7.read_unread,
    View.ld_unit_zero (S := S1x1x10000) zeros3_0, View.ld_unit_zero (S := S16x1) zeros2_0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position within the half says which case the
    point is in; the invariant hands the body the accumulators at what the point before left (at anything before the
    first point) and takes them back at this point's contents; an output window away from the last point of a half is
    idle and handed back as found, and at the last point receives its accumulator; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  by_cases h0 : t.val % 50 = 0
  · have h1 : ¬t.val % 50 = 49 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    rw [accAt_first V c t.val t.isLt h0]; dsimp only
    by_cases hz : t.val = 0
    · rw [PhiS_castSucc V c t, PhiS_zero V c _ _ hz, PhiA0_eq]
      iintro ⟨⟨⟨HS6, HS7, HR⟩, Hg⟩, Ho, ⟨%d0, H0⟩, ⟨%d1, H1⟩, ⟨%d2, H2⟩, ⟨%d3, H3⟩⟩
      iapply (run0_A c Set.univ (grid0.coords t) _ _ _ _ _ _ _ _ _ _ _ _ hc0 hc1 (xblk0 V c t.val t.isLt) (iblk0i V c t.val t.isLt) _ _ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [HS6 HS7 HR Hg]
      · isplitl [HS6 HS7 HR]
        · isplitl [HS6]; · iexact HS6
          isplitl [HS7]; · iexact HS7
          iexact HR
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨HS6, HS7, HR⟩, Hg⟩, Ho, ⟨%d0, H0⟩, ⟨%d1, H1⟩, ⟨%d2, H2⟩, ⟨%d3, H3⟩⟩
      iapply (run0_A c Set.univ (grid0.coords t) _ _ _ _ _ _ _ _ _ _ _ _ hc0 hc1 (xblk0 V c t.val t.isLt) (iblk0i V c t.val t.isLt) _ _ _)
      isplitl [H0]; · iexact H0
      isplitl [H1]; · iexact H1
      isplitl [H2]; · iexact H2
      isplitl [H3]; · iexact H3
      isplitl [HS6]; · iexists _; iexact HS6
      isplitl [HS7]; · iexists _; iexact HS7
      iintro ⟨H0, H1, H2, H3, HS6, HS7⟩
      isplitl [HS6 HS7 HR Hg]
      · isplitl [HS6 HS7 HR]
        · isplitl [HS6]; · iexact HS6
          isplitl [HS7]; · iexact HS7
          iexact HR
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    have hc0 : ¬cond0_0 (grid0.coords t) := fun h => h0 ((hcond0_0 t).mp h)
    rw [accAt_next V c t.val t.isLt h0]; dsimp only
    rw [PhiS_castSucc V c t, PhiS_pos V c _ _ hz]
    by_cases h1 : t.val % 50 = 49
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [show (dat0 V c).leavesExact 3 t = owns (c : Thread nD τ) (st0_3 t) fullShare ((dat0 V c).after 3 t) from by
        unfold Dat.leavesExact; rw [liveAt0_3 t hc1], after0_3]
      rw [accAt_next V c t.val t.isLt h0]; dsimp only
      iintro ⟨⟨⟨HS6, HS7, HR⟩, Hg⟩, Ho, ⟨%d0, H0⟩, ⟨%d1, H1⟩, ⟨%d2, H2⟩, ⟨%d3, H3⟩⟩
      iapply (run0_C c Set.univ (grid0.coords t) _ _ _ _ _ _ _ _ _ _ _ _ hc0 hc1 (xblk0 V c t.val t.isLt) (iblk0i V c t.val t.isLt) _ _ _)
      isplitl [H0]; · iexact H0
      isplitl [H1]; · iexact H1
      isplitl [H2]; · iexists _; iexact H2
      isplitl [H3]; · iexists _; iexact H3
      isplitl [HS6]; · iexact HS6
      isplitl [HS7]; · iexact HS7
      iintro ⟨H0, H1, H2, H3, HS6, HS7⟩
      isplitl [HS6 HS7 HR Hg]
      · isplitl [HS6 HS7 HR]
        · isplitl [HS6]; · iexact HS6
          isplitl [HS7]; · iexact HS7
          iexact HR
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t hc1)]
      rw [Dat.leavesExact_idle (dat0 V c) 3 t (idleAt0_3 t hc1) (noFlush0_3 t hc1)]
      iintro ⟨⟨⟨HS6, HS7, HR⟩, Hg⟩, Ho, ⟨%d0, H0⟩, ⟨%d1, H1⟩, ⟨%d2, H2⟩, ⟨%d3, H3⟩⟩
      iapply (run0_B c Set.univ (grid0.coords t) _ _ _ _ _ _ _ _ _ _ _ _ hc0 hc1 (xblk0 V c t.val t.isLt) (iblk0i V c t.val t.isLt) _ _ _ _ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [HS6 HS7 HR Hg]
      · isplitl [HS6 HS7 HR]
        · isplitl [HS6]; · iexact HS6
          isplitl [HS7]; · iexact HS7
          iexact HR
        iexact Hg
      isplitl [Ho]; · iexact Ho
      isplitl [H0]; · iexact H0
      isplitl [H1]; · iexact H1
      isplitl [H2]; · iexists _; iexact H2
      iexists _; iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the pipeline's own back. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS6, HS7, HR⟩, Hg⟩
  isplitl [HS6 HS7 HR]
  · isplitl [HS6]; · iexists _; iexact HS6
    isplitl [HS7]; · iexists _; iexact HS7
    iexact HR
  iexact Hg

/-- After the last point the invariant gives the pipeline's own back: the accumulators' contents are forgotten. -/
theorem hout0 (c : Dev nD) : (dat0 V c).Φ (Fin.last cfg0.N) ⊢ Pipeline.ΦA spec0 c :=
  Phi_out0 V c _ (by rw [Fin.val_last]; have : cfg0.N = 100 := N_0; omega)

end Cert.KernelIdeal.Hand

end
-- ==== Proof.Reg1.lean ====
/-
  The second pallas_call (the gather-and-multiply pass) as a pipeline region: what each window's staging buffer
  holds around the body at every grid point, and that the body does that.

  At a point the pipeline hands the body a block of 5000 rows of `x`, the matching 5000 ids and the whole 16-row gate
  table; the body stores one value into the output block, a pure function of the three. Nothing is carried from
  point to point.
-/
import proofs.«415255_j31834297598792_3_alg».proof.Proof.Gen.KernelIdeal.Launch
import proofs.«415255_j31834297598792_3_alg».proof.Proof.Gen.KernelIdeal.Skeleton
import proofs.«415255_j31834297598792_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region's entry contents: the TensorCore's unscoped buffers as the region finds them
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the pipeline fetched it
    there (the gate table is fetched once: its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S5000x256 := Rect.unit (s := S5000x256) ![0, 0] S5000x256.size inb_S5000x256_S5000x256_0_0
abbrev rI1 : Rect S1x1x5000 := Rect.unit (s := S1x1x5000) ![0, 0, 0] S1x1x5000.size inb_S1x1x5000_S1x1x5000_0_0_0
abbrev rG1 : Rect S16x256 := Rect.unit (s := S16x256) ![0, 0] S16x256.size inb_S16x256_S16x256_0_0

/-- The output block after the body, from the three input blocks: its one store, covering the buffer. -/
def gatherMul (x0 : Vec F S5000x256 .f32) (x1 : Vec F S1x1x5000 .i32) (x2 : Vec F S16x256 .f32) : Vec F S5000x256 .f32 :=
  View.canon [⟨rX1, k1_pay1 (View.ld x0 rX1) (View.ld x1 rI1) (View.ld x2 rG1)⟩]

/-- The one store covers the output buffer. -/
theorem cover1_3 (p0 : Vec F S5000x256 .f32) (y : S5000x256.Idx) :
    ∃ pc ∈ ([⟨rX1, p0⟩] : List (View.Piece (Elt F) S5000x256 .f32)), y ∈ pc.1.set :=
  View.cover_of_tiled [⟨rX1, p0⟩] S5000x256.size (by rfl) y

set_option maxHeartbeats 1000000 in
/-- The body on whole staging buffers, the inputs' at their contents and the output's at anything, runs to the
    continuation with the inputs' as they were and the output's at `gatherMul` of the inputs'. -/
theorem sound_kernel1 (c : Dev nD) (E : Set ℕ) (i : grid1.Coords)
    (arg2 : Memref sig .tc .vmem S5000x256 .f32) (harg2 : arg2.IsWhole) (arg3 : Memref sig .tc .vmem S1x1x5000 .i32) (harg3 : arg3.IsWhole)
    (arg4 : Memref sig .tc .vmem S16x256 .f32) (harg4 : arg4.IsWhole) (arg5 : Memref sig .tc .vmem S5000x256 .f32) (harg5 : arg5.IsWhole)
    (x0 : Vec F S5000x256 .f32) (x1 : Vec F S1x1x5000 .i32) (x2 : Vec F S16x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (gatherMul x0 x1 x2)) -∗ K ⟨⟩))
      ⊢ wp frame (wpE (defs₀ (F := F)) Variants.none c none) E (cc1__gather_mult_kernel i arg2 harg2 arg3 harg3 arg4 harg4 arg5 harg5) K := by
  simp only [cc1__gather_mult_kernel_eq_skeleton]; unfold cc1__gather_mult_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body each input's buffer at
    its block and the output's at `gatherMul` of the three blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => gatherMul (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = gatherMul (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The run of the kernel program: @main as six segments in order — a reshape of the ids, the segment-reduce pass, the
  host operations that turn the two halves' partial sums and counts into the gate table (three stretches), the
  gather-and-multiply pass — and the launch over them.

  Between two segments every unscoped buffer of the TensorCore is held at contents folded from the launch memory: a
  host stretch applies its operations; a pass leaves its windows' arrays at what its write-backs fold to and every
  other buffer as it found it. Every weakly fair execution from zero counters terminates with every unscoped buffer
  at the last of these contents: the arguments as launched, the result at what the second pass wrote.
-/
import proofs.«415255_j31834297598792_3_alg».proof.Proof.Reg0
import proofs.«415255_j31834297598792_3_alg».proof.Proof.Reg1
import proofs.«415255_j31834297598792_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the ids' reshape (the first pass's entry). -/
abbrev W1 : Dev nD → Valuation τ sig (Elt F) := fun c => StableHlo.after hostOps0 (W0 m ρ c)
/-- The same read at the TensorCore's references. -/
abbrev VR1 : (c : Dev nD) → (b : Ref sig .tc) → Buf (Elt F) ((c : Thread nD τ).loc b) := fun c b => W1 m ρ c b
/-- At the first pass's exit: its arrays at what its write-backs fold to, every other buffer as entered. -/
def W2 (c : Dev nD) : Valuation τ sig (Elt F) :=
  Pipeline.withArrays spec0 c (W1 m ρ c) fun w => (dat0 (VR1 m ρ) c).arrAt w cfg0.N
theorem W2_arr (c : Dev nD) (w : Fin cfg0.W) :
    W2 m ρ c (Proc.devRef .tc (Pipeline.arrRef spec0 w)) = (dat0 (VR1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VR2 : (c : Dev nD) → (b : Ref sig .tc) → Buf (Elt F) ((c : Thread nD τ).loc b) := fun c b => W2 m ρ c b
theorem hF0 (c : Dev nD) (w : Fin cfg0.W) : (dat0 (VR1 m ρ) c).arrAt w cfg0.N = VR2 m ρ c (Pipeline.arrRef spec0 w) :=
  (W2_arr m ρ c w).symm
theorem hrest0 (c : Dev nD) : ∀ b, b ∉ Finset.univ.image (Pipeline.arrRef spec0) → VR2 m ρ c b = VR1 m ρ c b :=
  fun b hb => W2_of_ne m ρ c b fun w e => hb (Finset.mem_image.mpr ⟨w, Finset.mem_univ _, e⟩)

/-- After the three host stretches between the passes (the second pass's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev VR5 : (c : Dev nD) → (b : Ref sig .tc) → Buf (Elt F) ((c : Thread nD τ).loc b) := fun c b => W5 m ρ c b
/-- At the second pass's exit. -/
def W6 (c : Dev nD) : Valuation τ sig (Elt F) :=
  Pipeline.withArrays spec1 c (W5 m ρ c) fun w => (dat1 (VR5 m ρ) c).arrAt w cfg1.N
theorem W6_arr (c : Dev nD) (w : Fin cfg1.W) :
    W6 m ρ c (Proc.devRef .tc (Pipeline.arrRef spec1 w)) = (dat1 (VR5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev VR6 : (c : Dev nD) → (b : Ref sig .tc) → Buf (Elt F) ((c : Thread nD τ).loc b) := fun c b => W6 m ρ c b
theorem hF1 (c : Dev nD) (w : Fin cfg1.W) : (dat1 (VR5 m ρ) c).arrAt w cfg1.N = VR6 m ρ c (Pipeline.arrRef spec1 w) :=
  (W6_arr m ρ c w).symm
theorem hrest1 (c : Dev nD) : ∀ b, b ∉ Finset.univ.image (Pipeline.arrRef spec1) → VR6 m ρ c b = VR5 m ρ c b :=
  fun b hb => W6_of_ne m ρ c b fun w e => hb (Finset.mem_image.mpr ⟨w, Finset.mem_univ _, e⟩)

/-! ## A buffer no host stretch writes and no pass changes keeps its contents -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W4_of (c : Dev nD) (r : Ref sig .tc) (h : r ∉ hostOps1_1_W) : W4 m ρ c r = W3 m ρ c r :=
  StableHlo.after_of_writes_sub hostOps1_1 _ hostOps1_1_writes h
theorem W5_of (c : Dev nD) (r : Ref sig .tc) (h : r ∉ hostOps1_2_W) : W5 m ρ c r = W4 m ρ c r :=
  StableHlo.after_of_writes_sub hostOps1_2 _ hostOps1_2_writes h

/-- `x` is an input window of both passes: each leaves it as it found it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 0).trans (((dat1 (VR5 m ρ) c).arrAt_in 0 rfl _).trans (A_eq1 (VR5 m ρ) c 0))
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := (W2_arr m ρ c 0).trans (((dat0 (VR1 m ρ) c).arrAt_in 0 rfl _).trans (A_eq0 (VR1 m ρ) c 0))
    _ = W0 m ρ c (Proc.devRef .tc main_arg0) := W1_of m ρ c main_arg0 (by decide)
    _ = m ((c : Thread nD τ).loc main_arg0) := rfl

/-- The ids and the two weight matrices are no window's array and no operation's result. -/
theorem W6_keep (c : Dev nD) (r : Ref sig .tc) (h6 : ∀ w, Pipeline.arrRef spec1 w ≠ r) (h5 : r ∉ hostOps1_2_W) (h4 : r ∉ hostOps1_1_W)
    (h3 : r ∉ hostOps1_W) (h2 : ∀ w, Pipeline.arrRef spec0 w ≠ r) (h1 : r ∉ hostOps0_W) :
    W6 m ρ c (Proc.devRef .tc r) = m ((c : Thread nD τ).loc r) :=
  calc W6 m ρ c (Proc.devRef .tc r)
    _ = W5 m ρ c (Proc.devRef .tc r) := W6_of_ne m ρ c r h6
    _ = W4 m ρ c (Proc.devRef .tc r) := W5_of m ρ c r h5
    _ = W3 m ρ c (Proc.devRef .tc r) := W4_of m ρ c r h4
    _ = W2 m ρ c (Proc.devRef .tc r) := W3_of m ρ c r h3
    _ = W1 m ρ c (Proc.devRef .tc r) := W2_of_ne m ρ c r h2
    _ = W0 m ρ c (Proc.devRef .tc r) := W1_of m ρ c r h1
    _ = m ((c : Thread nD τ).loc r) := rfl
theorem W6_main_arg1 (c : Dev nD) : W6 m ρ c (Proc.devRef .tc main_arg1) = m ((c : Thread nD τ).loc main_arg1) :=
  W6_keep m ρ c main_arg1 (by decide) (by decide) (by decide) (by decide) (by decide) (by decide)
theorem W6_main_arg2 (c : Dev nD) : W6 m ρ c (Proc.devRef .tc main_arg2) = m ((c : Thread nD τ).loc main_arg2) :=
  W6_keep m ρ c main_arg2 (by decide) (by decide) (by decide) (by decide) (by decide) (by decide)
theorem W6_main_arg3 (c : Dev nD) : W6 m ρ c (Proc.devRef .tc main_arg3) = m ((c : Thread nD τ).loc main_arg3) :=
  W6_keep m ρ c main_arg3 (by decide) (by decide) (by decide) (by decide) (by decide) (by decide)

/-! ## The proof data family and the thread state -/

/-- Each pass's proof data at its entry contents. -/
def pdats : (p : Fin 2) → (c : Dev nD) → Dat τ (Elt F) Unit ℕ (UR sig nD τ) ℕ (Pipeline.pin (pcfgs (F := F)) adm p) c
  | ⟨0, _⟩ => fun c => dat0 (VR1 m ρ) c
  | ⟨1, _⟩ => fun c => dat1 (VR5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ c) ∗ ∃ r, prngReg c r)

/-! ## The passes as segments -/

set_option backward.isDefEq.respectTransparency.types false in
/-- The segment-reduce pass: entered from every unscoped buffer at `W1`, left at `W2`; its arrays split out of the
    unscoped buffers and put back at the exit contents; the generator register and the scoped rest into the
    invariant and out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VR1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VR1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (VR1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (VR1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VR1 m ρ c) (VR2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather-and-multiply pass: entered from every unscoped buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VR5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VR5 m ρ c) (VR6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segsH : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- @main is the run of the segments. -/
theorem main_run (c : Dev nD) : main (F := F) c = Pipeline.Seg.run (segsH m ρ) := (main_chain c).trans (by chain_rfl)

set_option backward.isDefEq.respectTransparency.types false in
/-- THE RUN. From any memory with zero counters, every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

/-- THE RESULT: the run with the result's buffer named — what the second pass's write-backs fold to — beside the
    unchanged arguments. -/
theorem run_result : θ_run defs (onTc (τ := τ) (main (F := F))) ⟨m, fun _ => 0, ρ⟩ (fun r => ∀ c : Dev nD,
      r.2.mem ((c.tc : Thread nD τ).loc main_v26) = (dat1 (VR5 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v26 (by decide))).trans (W6_arr m ρ c 3),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.KernelIdeal.Hand

end
-- ==== Proof.KArgs.lean ====
/-
  The kernel program's four arguments as launched, at their literal types, at the extended reals.
-/
import proofs.«415255_j31834297598792_3_alg».proof.Proof.Run
import Idealize.ShloMosaic.PureOps.Ideal

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- `x`, the ids and the two weight matrices on core `c`, as launched. -/
abbrev xOf (c : Dev nD) : S1000000x256.Idx → EReal := m ((c : Thread nD τ).loc main_arg0)
abbrev idOf (c : Dev nD) : IVec S1000000 32 := m ((c : Thread nD τ).loc main_arg1)
abbrev w1Of (c : Dev nD) : S256x64.Idx → EReal := m ((c : Thread nD τ).loc main_arg2)
abbrev w2Of (c : Dev nD) : S64x256.Idx → EReal := m ((c : Thread nD τ).loc main_arg3)

end Cert.KernelIdeal.Hand

end
-- ==== Proof.PayMath.lean ====
/-
  The kernels' arithmetic read at one index, at the extended reals.

  Reduce kernel, one block of 10000 rows: the one-hot selector of segment `s` against the block's id row, times the
  block, summed over the rows, is the sum of the block's rows whose id is `s`; the second product, of the selector
  with `x - x`, vanishes on finite entries. Gather kernel, one block of 5000 rows: the selector's transpose times the
  gate table picks, for row `r`, the gate row of `r`'s id; the second product with `g - g` vanishes on a finite table.
-/
import proofs.«415255_j31834297598792_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

variable [Cert.KernelIdeal.Facts]

/-- Row `k` of a block's id row carries the word of segment `s`. -/
abbrev hit {n : Nat} (ix : IVec ⟨3, ![1, 1, n]⟩ 32) (s : Fin 16) (k : Fin n) : Prop :=
  ix (ix3 (0 : Fin 1) (0 : Fin 1) k) = BitVec.ofNat 32 s.val

/-- The accumulators' reset values are zero. -/
theorem pay3_apply (j : S16x256.Idx) : (k0_pay3 (F := Ideal) j : EReal) = 0 := by
  show Ideal.ofBits .f32 0x00000000#32 = 0
  exact Ideal.ofBits_zero_f32
theorem pay4_apply (j : S16x1.Idx) : (k0_pay4 (F := Ideal) j : EReal) = 0 := by
  show Ideal.ofBits .f32 0x00000000#32 = 0
  exact Ideal.ofBits_zero_f32

/-- The partial sums as stored: the accumulator under a leading unit axis. -/
theorem pay1_apply (v : S16x256.Idx → EReal) (s : Fin 16) (c : Fin 256) :
    (k0_pay1 (F := Ideal) v (ix3 (0 : Fin 1) s c) : EReal) = v (ix2 s c) :=
  shapeCast_ab_1ab_apply v _ (0 : Fin 1) s c
theorem pay2_apply (v : S16x1.Idx → EReal) (s : Fin 16) :
    (k0_pay2 (F := Ideal) v (ix3 (0 : Fin 1) s (0 : Fin 1)) : EReal) = v (ix2 s (0 : Fin 1)) :=
  shapeCast_ab_1ab_apply v _ (0 : Fin 1) s (0 : Fin 1)

/-- A one-bit comparison word widened to 32 bits and read as a signed integer, as an extended real: the indicator. -/
theorem ind_word {w : Nat} (a b : BitVec w) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · rw [if_pos h, IntOp.cmpi_eq.mpr h]
    norm_num
  · have h0 : IntOp.cmpi .eq a b = 0#1 := eq_zero_of_ne_one (fun h1 => h (IntOp.cmpi_eq.mp h1))
    rw [if_neg h, h0]
    norm_num

/-- The selector of the reduce kernel: entry `(s, k)` is one where row `k`'s id word is `s`, else zero. -/
theorem sel0_apply (ix : IVec S1x1x10000 32) (s : Fin 16) (k : Fin 10000) :
    (k0_pay5 (F := Ideal) ix (ix2 s k) : EReal) = if hit ix s k then 1 else 0 := by
  unfold k0_pay5
  show (FloatOps.sitofp (F := Ideal) .f32 ((IntOp.cmpi .eq _ _).setWidth 32) : EReal) = _
  rw [ind_word]
  have e1 : broadcastTo S16x10000 (shapeCast S1x10000 ix Facts₀.shapeCasts_S1x1x10000_S1x10000) Facts₀.broadcasts_S1x10000_S16x10000 (ix2 s k)
      = ix (ix3 (0 : Fin 1) (0 : Fin 1) k) :=
    (broadcastTo_1b_ab_apply _ _ s k).trans (shapeCast_1ab_ab_apply ix _ (0 : Fin 1) k)
  have e2 : broadcastTo S16x10000 (iota .tc S16x1 32 [0] Facts₀.iota_S16x1_d0_w32) Facts₀.broadcasts_S16x1_S16x10000 (ix2 s k)
      = BitVec.ofNat 32 s.val :=
    (broadcastTo_apply _ _ (ix2 s k) (ix2 s (0 : Fin 1)) (fun a => match a with
      | ⟨0, _⟩ => rfl
      | ⟨1, _⟩ => rfl)).trans (iota_single_apply .tc S16x1 32 0 _ (ix2 s (0 : Fin 1)))
  rw [e1, e2]

/-- The count accumulator after one block: what it held plus the number of the block's rows of segment `s`. -/
theorem pay7_apply (ix : IVec S1x1x10000 32) (acc : S16x1.Idx → EReal) (s : Fin 16) :
    (k0_pay7 (F := Ideal) ix acc (ix2 s (0 : Fin 1)) : EReal)
      = acc (ix2 s (0 : Fin 1)) + ∑ k : Fin 10000, if hit ix s k then (1 : EReal) else 0 := by
  unfold k0_pay7
  refine (congrFun (shapeCast_self _ _) _).trans ?_
  refine congrArg (acc (ix2 s (0 : Fin 1)) + ·) ?_
  refine (shapeCast_apply _ _ (ix2 s (0 : Fin 1)) (ix1 s) (by
    rw [Shape.rowMajor_val_one, Shape.rowMajor_val_two]
    show s.val = s.val * 1 + 0
    omega)).trans ?_
  refine (Ideal.multiReduction_add_single (k0_pay5 (F := Ideal) ix) _ Facts₀.reduces_S16x10000_S16 _ _ (ix1 s)).trans ?_
  show ∑ k : Fin 10000, k0_pay5 (F := Ideal) ix (Facts₀.reduces_S16x10000_S16.lift (ix1 s) k) = _
  refine Finset.sum_congr rfl fun k _ => ?_
  have e : Facts₀.reduces_S16x10000_S16.lift (ix1 s) k = ix2 s k := funext fun a => Fin.ext (by
    match a with
    | ⟨0, _⟩ => rfl
    | ⟨1, _⟩ => rfl)
  rw [e]
  exact sel0_apply ix s k

/-! ## The two products read at an index -/

/-- The reduce kernel's product contracts the left operand's columns with the right operand's rows: at result
    `(s, c)` and contraction position `q` the left operand is read at `(s, q)` … -/
theorem dot0_lhs_0 (j : S16x256.Idx) (q : dot_S16x10000_S10000x256_S16x256_1_0_0_1_n_n.contr.Idx) :
    (dot_S16x10000_S10000x256_S16x256_1_0_0_1_n_n.lhsIdx j q 0).val = (j 0).val := by
  unfold DotDims.lhsIdx
  rw [dif_neg (show ¬(0 : Fin S16x10000.rank) ∈ dot_S16x10000_S10000x256_S16x256_1_0_0_1_n_n.lhsBatch by decide),
    dif_pos (show (0 : Fin S16x10000.rank) ∈ dot_S16x10000_S10000x256_S16x256_1_0_0_1_n_n.lhsNonContracting by decide)]
  rfl
theorem dot0_lhs_1 (j : S16x256.Idx) (q : dot_S16x10000_S10000x256_S16x256_1_0_0_1_n_n.contr.Idx) :
    (dot_S16x10000_S10000x256_S16x256_1_0_0_1_n_n.lhsIdx j q 1).val = (q ⟨0, by decide⟩).val :=
  dot_S16x10000_S10000x256_S16x256_1_0_0_1_n_n.lhsIdx_val_of_single rfl j q
/-- … and the right operand at `(q, c)`. -/
theorem dot0_rhs_0 (j : S16x256.Idx) (q : dot_S16x10000_S10000x256_S16x256_1_0_0_1_n_n.contr.Idx) :
    (dot_S16x10000_S10000x256_S16x256_1_0_0_1_n_n.rhsIdx j q 0).val = (q ⟨0, by decide⟩).val :=
  dot_S16x10000_S10000x256_S16x256_1_0_0_1_n_n.rhsIdx_val_of_single rfl j q
theorem dot0_rhs_1 (j : S16x256.Idx) (q : dot_S16x10000_S10000x256_S16x256_1_0_0_1_n_n.contr.Idx) :
    (dot_S16x10000_S10000x256_S16x256_1_0_0_1_n_n.rhsIdx j q 1).val = (j 1).val := by
  unfold DotDims.rhsIdx
  rw [dif_neg (show ¬(1 : Fin S10000x256.rank) ∈ dot_S16x10000_S10000x256_S16x256_1_0_0_1_n_n.rhsBatch by decide),
    dif_pos (show (1 : Fin S10000x256.rank) ∈ dot_S16x10000_S10000x256_S16x256_1_0_0_1_n_n.rhsNonContracting by decide)]
  rfl

/-- The reduce kernel's product onto a zero accumulator, at `(s, c)`: the sum over the block's rows. -/
theorem mm0_apply (A : FVec Ideal S16x10000 .bf16) (B : FVec Ideal S10000x256 .bf16) (s : Fin 16) (c : Fin 256) :
    (FloatOps.matmul dot_S16x10000_S10000x256_S16x256_1_0_0_1_n_n none A B (constant S16x256 .f32 0x00000000#32) (ix2 s c) : EReal)
      = ∑ k : Fin 10000, A (ix2 s k) * B (ix2 k c) := by
  rw [Ideal.matmul_constant_zero_apply, ← Equiv.sum_comp (contrEquiv1 dot_S16x10000_S10000x256_S16x256_1_0_0_1_n_n 10000 rfl rfl).symm]
  refine Finset.sum_congr rfl fun k _ => ?_
  have hk := contrEquiv1_symm_val dot_S16x10000_S10000x256_S16x256_1_0_0_1_n_n 10000 rfl rfl k
  have el : dot_S16x10000_S10000x256_S16x256_1_0_0_1_n_n.lhsIdx (ix2 s c) ((contrEquiv1 dot_S16x10000_S10000x256_S16x256_1_0_0_1_n_n 10000 rfl rfl).symm k) = ix2 s k :=
    funext fun a => Fin.ext (by
      match a with
      | ⟨0, _⟩ => exact dot0_lhs_0 _ _
      | ⟨1, _⟩ => exact (dot0_lhs_1 _ _).trans hk)
  have er : dot_S16x10000_S10000x256_S16x256_1_0_0_1_n_n.rhsIdx (ix2 s c) ((contrEquiv1 dot_S16x10000_S10000x256_S16x256_1_0_0_1_n_n 10000 rfl rfl).symm k) = ix2 k c :=
    funext fun a => Fin.ext (by
      match a with
      | ⟨0, _⟩ => exact (dot0_rhs_0 _ _).trans hk
      | ⟨1, _⟩ => exact dot0_rhs_1 _ _)
  rw [el, er]

/-- The sum accumulator after one block: what it held plus the block's rows of segment `s`, column `c`. -/
theorem pay6_apply (x : S10000x256.Idx → EReal) (ix : IVec S1x1x10000 32) (acc : S16x256.Idx → EReal)
    (hx : ∀ j, x j ≠ ⊤ ∧ x j ≠ ⊥) (s : Fin 16) (c : Fin 256) :
    (k0_pay6 (F := Ideal) x ix acc (ix2 s c) : EReal)
      = acc (ix2 s c) + ∑ k : Fin 10000, if hit ix s k then x (ix2 k c) else 0 := by
  unfold k0_pay6
  refine (congrFun (shapeCast_self _ _) _).trans ?_
  refine congrArg (acc (ix2 s c) + ·) ?_
  refine (congrArg₂ (· + ·) (mm0_apply _ _ s c) (mm0_apply _ _ s c)).trans ?_
  have h2 : ∑ k : Fin 10000, k0_pay5 (F := Ideal) ix (ix2 s k) * (x (ix2 k c) - x (ix2 k c)) = 0 :=
    Finset.sum_eq_zero fun k _ => by rw [EReal.sub_self (hx _).1 (hx _).2, mul_zero]
  refine (congrArg₂ (· + ·) rfl h2).trans ?_
  rw [add_zero]
  refine Finset.sum_congr rfl fun k _ => ?_
  show k0_pay5 (F := Ideal) ix (ix2 s k) * x (ix2 k c) = _
  rw [sel0_apply]
  by_cases h : hit ix s k
  · rw [if_pos h, if_pos h, one_mul]
  · rw [if_neg h, if_neg h, zero_mul]

/-- The gather kernel's product contracts the rows of both operands: at result `(r, c)` and contraction position
    `q` the left operand, the selector, is read at `(q, r)` … -/
theorem dot1_lhs_0 (j : S5000x256.Idx) (q : dot_S16x5000_S16x256_S5000x256_0_0_1_1_n_n.contr.Idx) :
    (dot_S16x5000_S16x256_S5000x256_0_0_1_1_n_n.lhsIdx j q 0).val = (q ⟨0, by decide⟩).val :=
  dot_S16x5000_S16x256_S5000x256_0_0_1_1_n_n.lhsIdx_val_of_single rfl j q
theorem dot1_lhs_1 (j : S5000x256.Idx) (q : dot_S16x5000_S16x256_S5000x256_0_0_1_1_n_n.contr.Idx) :
    (dot_S16x5000_S16x256_S5000x256_0_0_1_1_n_n.lhsIdx j q 1).val = (j 0).val := by
  unfold DotDims.lhsIdx
  rw [dif_neg (show ¬(1 : Fin S16x5000.rank) ∈ dot_S16x5000_S16x256_S5000x256_0_0_1_1_n_n.lhsBatch by decide),
    dif_pos (show (1 : Fin S16x5000.rank) ∈ dot_S16x5000_S16x256_S5000x256_0_0_1_1_n_n.lhsNonContracting by decide)]
  rfl
/-- … and the right operand, the gate table, at `(q, c)`. -/
theorem dot1_rhs_0 (j : S5000x256.Idx) (q : dot_S16x5000_S16x256_S5000x256_0_0_1_1_n_n.contr.Idx) :
    (dot_S16x5000_S16x256_S5000x256_0_0_1_1_n_n.rhsIdx j q 0).val = (q ⟨0, by decide⟩).val :=
  dot_S16x5000_S16x256_S5000x256_0_0_1_1_n_n.rhsIdx_val_of_single rfl j q
theorem dot1_rhs_1 (j : S5000x256.Idx) (q : dot_S16x5000_S16x256_S5000x256_0_0_1_1_n_n.contr.Idx) :
    (dot_S16x5000_S16x256_S5000x256_0_0_1_1_n_n.rhsIdx j q 1).val = (j 1).val := by
  unfold DotDims.rhsIdx
  rw [dif_neg (show ¬(1 : Fin S16x256.rank) ∈ dot_S16x5000_S16x256_S5000x256_0_0_1_1_n_n.rhsBatch by decide),
    dif_pos (show (1 : Fin S16x256.rank) ∈ dot_S16x5000_S16x256_S5000x256_0_0_1_1_n_n.rhsNonContracting by decide)]
  rfl

/-- The gather kernel's product onto a zero accumulator, at `(r, c)`: the sum over the sixteen segments. -/
theorem mm1_apply (A : FVec Ideal S16x5000 .bf16) (B : FVec Ideal S16x256 .bf16) (r : Fin 5000) (c : Fin 256) :
    (FloatOps.matmul dot_S16x5000_S16x256_S5000x256_0_0_1_1_n_n none A B (constant S5000x256 .f32 0x00000000#32) (ix2 r c) : EReal)
      = ∑ s : Fin 16, A (ix2 s r) * B (ix2 s c) := by
  rw [Ideal.matmul_constant_zero_apply, ← Equiv.sum_comp (contrEquiv1 dot_S16x5000_S16x256_S5000x256_0_0_1_1_n_n 16 rfl rfl).symm]
  refine Finset.sum_congr rfl fun s _ => ?_
  have hs := contrEquiv1_symm_val dot_S16x5000_S16x256_S5000x256_0_0_1_1_n_n 16 rfl rfl s
  have el : dot_S16x5000_S16x256_S5000x256_0_0_1_1_n_n.lhsIdx (ix2 r c) ((contrEquiv1 dot_S16x5000_S16x256_S5000x256_0_0_1_1_n_n 16 rfl rfl).symm s) = ix2 s r :=
    funext fun a => Fin.ext (by
      match a with
      | ⟨0, _⟩ => exact (dot1_lhs_0 _ _).trans hs
      | ⟨1, _⟩ => exact dot1_lhs_1 _ _)
  have er : dot_S16x5000_S16x256_S5000x256_0_0_1_1_n_n.rhsIdx (ix2 r c) ((contrEquiv1 dot_S16x5000_S16x256_S5000x256_0_0_1_1_n_n 16 rfl rfl).symm s) = ix2 s c :=
    funext fun a => Fin.ext (by
      match a with
      | ⟨0, _⟩ => exact (dot1_rhs_0 _ _).trans hs
      | ⟨1, _⟩ => exact dot1_rhs_1 _ _)
  rw [el, er]

/-- The gather kernel's selector, as its payload spells it: the block's id row against the segment numbers. -/
abbrev sel1 (ix : IVec S1x1x5000 32) : FVec Ideal S16x5000 .f32 :=
  sitofp .f32 (extui 32 (cmpi .eq
    (broadcastTo S16x5000 (shapeCast S1x5000 ix Facts₀.shapeCasts_S1x1x5000_S1x5000) Facts₀.broadcasts_S1x5000_S16x5000)
    (broadcastTo S16x5000 (iota .tc S16x1 32 [0] Facts₀.iota_S16x1_d0_w32) Facts₀.broadcasts_S16x1_S16x5000)) Facts₀.natLt_1_32)

/-- Its entry `(s, r)` is one where row `r`'s id word is `s`, else zero. -/
theorem sel1_apply (ix : IVec S1x1x5000 32) (s : Fin 16) (r : Fin 5000) :
    (sel1 ix (ix2 s r) : EReal) = if hit ix s r then 1 else 0 := by
  show (FloatOps.sitofp (F := Ideal) .f32 ((IntOp.cmpi .eq _ _).setWidth 32) : EReal) = _
  rw [ind_word]
  have e1 : broadcastTo S16x5000 (shapeCast S1x5000 ix Facts₀.shapeCasts_S1x1x5000_S1x5000) Facts₀.broadcasts_S1x5000_S16x5000 (ix2 s r)
      = ix (ix3 (0 : Fin 1) (0 : Fin 1) r) :=
    (broadcastTo_1b_ab_apply _ _ s r).trans (shapeCast_1ab_ab_apply ix _ (0 : Fin 1) r)
  have e2 : broadcastTo S16x5000 (iota .tc S16x1 32 [0] Facts₀.iota_S16x1_d0_w32) Facts₀.broadcasts_S16x1_S16x5000 (ix2 s r)
      = BitVec.ofNat 32 s.val :=
    (broadcastTo_apply _ _ (ix2 s r) (ix2 s (0 : Fin 1)) (fun a => match a with
      | ⟨0, _⟩ => rfl
      | ⟨1, _⟩ => rfl)).trans (iota_single_apply .tc S16x1 32 0 _ (ix2 s (0 : Fin 1)))
  rw [e1, e2]

/-- The gather kernel's block: row `r`, column `c` is `x r c` times the gate table summed against row `r`'s selector. -/
theorem gpay_apply (x : S5000x256.Idx → EReal) (ix : IVec S1x1x5000 32) (g : S16x256.Idx → EReal)
    (hg : ∀ j, g j ≠ ⊤ ∧ g j ≠ ⊥) (r : Fin 5000) (c : Fin 256) :
    (k1_pay1 (F := Ideal) x ix g (ix2 r c) : EReal)
      = x (ix2 r c) * ∑ s : Fin 16, if hit ix s r then g (ix2 s c) else 0 := by
  unfold k1_pay1
  refine congrArg (x (ix2 r c) * ·) ?_
  refine (congrArg₂ (· + ·) (mm1_apply _ _ r c) (mm1_apply _ _ r c)).trans ?_
  rw [← Finset.sum_add_distrib]
  refine Finset.sum_congr rfl fun s _ => ?_
  have e : shapeCast S16x256 g Facts₀.shapeCasts_S16x256_S16x256 (ix2 s c) = g (ix2 s c) :=
    congrFun (shapeCast_self g _) _
  show sel1 ix (ix2 s r) * shapeCast S16x256 g Facts₀.shapeCasts_S16x256_S16x256 (ix2 s c)
      + sel1 ix (ix2 s r) * (shapeCast S16x256 g Facts₀.shapeCasts_S16x256_S16x256 (ix2 s c)
        - shapeCast S16x256 g Facts₀.shapeCasts_S16x256_S16x256 (ix2 s c)) = _
  rw [e, EReal.sub_self (hg _).1 (hg _).2, mul_zero, add_zero, sel1_apply]
  by_cases h : hit ix s r
  · rw [if_pos h, if_pos h, one_mul]
  · rw [if_neg h, if_neg h, zero_mul]

end Cert.KernelIdeal.Pay

end
-- ==== Proof.Spec.lean ====
/-
  The function both programs compute, stated once over the argument arrays, at the extended reals.

  Rows of `x` carry a segment id in `0 … 15`. For segment `s` and column `c` the segment sum is the sum of
  `x r c` over the rows `r` whose id is `s`, the segment count the number of such rows, and the segment mean their
  quotient with the count raised to at least one. A gate table of 16 rows is computed from the means by a small
  dense network (kept abstract here: any function of the means), and row `r` of the result is row `r` of `x` times
  the gate row of its segment.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![1000000, 256]⟩
abbrev SId : Shape := ⟨1, ![1000000]⟩
abbrev SG : Shape := ⟨2, ![16, 256]⟩
abbrev SC : Shape := ⟨1, ![16]⟩

/-- Row `r` belongs to segment `s`: its id word is the word of `s`. -/
abbrev inSeg (idx : IVec SId 32) (s : Fin 16) (r : Fin 1000000) : Prop := idx (ix1 r) = BitVec.ofNat 32 s.val

/-- The segment sums: for segment `s` and column `c`, the sum of `x r c` over the rows of segment `s`. -/
def segSum (x : SX.Idx → EReal) (idx : IVec SId 32) (s : Fin 16) (c : Fin 256) : EReal :=
  ∑ r : Fin 1000000, if inSeg idx s r then x (ix2 r c) else 0

/-- The segment counts: how many rows segment `s` has, as an extended real. -/
def segCnt (idx : IVec SId 32) (s : Fin 16) : EReal :=
  ∑ r : Fin 1000000, if inSeg idx s r then (1 : EReal) else 0

/-- The segment means: the segment sum over the segment count raised to at least one. -/
def mean (x : SX.Idx → EReal) (idx : IVec SId 32) : SG.Idx → EReal :=
  fun j => Ideal.div (segSum x idx (j 0) (j 1)) (max (segCnt idx (j 0)) 1)

/-- Every id is a segment number: as a signed word it lies in `0 … 15`. -/
def IdsInRange (idx : IVec SId 32) : Prop := ∀ r : Fin 1000000, 0 ≤ (idx (ix1 r)).toInt ∧ (idx (ix1 r)).toInt < 16

/-- Every entry is a real number (neither infinity). -/
def Finite {s : Shape} (x : s.Idx → EReal) : Prop := ∀ j, x j ≠ ⊤ ∧ x j ≠ ⊥

/-- The segment of row `r` when the ids are in range. -/
def segOf (idx : IVec SId 32) (h : IdsInRange idx) (r : Fin 1000000) : Fin 16 :=
  ⟨(idx (ix1 r)).toInt.toNat, by have := h r; omega⟩

/-- The result from a gate table: row `r`, column `c` is `x r c` times the gate of row `r`'s segment at `c`. -/
def gated (x : SX.Idx → EReal) (idx : IVec SId 32) (h : IdsInRange idx) (gate : SG.Idx → EReal) : SX.Idx → EReal :=
  fun j => x j * gate (ix2 (segOf idx h (j 0)) (j 1))

/-- An id in range is the word of its segment. -/
theorem inSeg_segOf (idx : IVec SId 32) (h : IdsInRange idx) (r : Fin 1000000) : inSeg idx (segOf idx h r) r := by
  have hr := h r
  show idx (ix1 r) = BitVec.ofNat 32 (idx (ix1 r)).toInt.toNat
  apply BitVec.eq_of_toNat_eq
  rw [BitVec.toNat_ofNat]
  have hlt : (idx (ix1 r)).toNat < 2 ^ 32 := (idx (ix1 r)).isLt
  have e := BitVec.toInt_eq_toNat_cond (idx (ix1 r))
  split_ifs at e <;> omega

/-- A row lies in exactly the segment its id names. -/
theorem inSeg_iff (idx : IVec SId 32) (h : IdsInRange idx) (s : Fin 16) (r : Fin 1000000) :
    inSeg idx s r ↔ s = segOf idx h r := by
  constructor
  · intro hs
    have h2 := inSeg_segOf idx h r
    unfold inSeg at hs h2
    rw [hs] at h2
    apply Fin.ext
    have := congrArg BitVec.toNat h2
    simp only [BitVec.toNat_ofNat] at this
    have hs16 := s.isLt
    have hq := (segOf idx h r).isLt
    omega
  · rintro rfl; exact inSeg_segOf idx h r

/-- Summing a table over the segments against the indicator of row `r`'s segment picks that segment's entry. -/
theorem sum_inSeg (idx : IVec SId 32) (h : IdsInRange idx) (r : Fin 1000000) (g : Fin 16 → EReal) :
    (∑ s : Fin 16, if inSeg idx s r then g s else 0) = g (segOf idx h r) := by
  rw [Finset.sum_eq_single (segOf idx h r)]
  · rw [if_pos (inSeg_segOf idx h r)]
  · intro s _ hs; rw [if_neg (fun hh => hs ((inSeg_iff idx h s r).mp hh))]
  · intro hh; exact absurd (Finset.mem_univ _) hh

/-! ## The two halves of the rows, and blocks of 10000 rows -/

/-- Row `r` of half `p`: the rows are split in two halves of 500000. -/
def rowOf (p : Fin 2) (r : Fin 500000) : Fin 1000000 := ⟨500000 * p.val + r.val, by have := p.isLt; have := r.isLt; omega⟩

/-- Half `p`'s share of the segment sums. -/
def halfSum (x : SX.Idx → EReal) (idx : IVec SId 32) (p : Fin 2) (s : Fin 16) (c : Fin 256) : EReal :=
  ∑ r : Fin 500000, if inSeg idx s (rowOf p r) then x (ix2 (rowOf p r) c) else 0

/-- Half `p`'s share of the segment counts. -/
def halfCnt (idx : IVec SId 32) (p : Fin 2) (s : Fin 16) : EReal :=
  ∑ r : Fin 500000, if inSeg idx s (rowOf p r) then (1 : EReal) else 0

/-- A sum over all rows is the sum over the first half plus the sum over the second. -/
theorem sum_halves (f : Fin 1000000 → EReal) :
    ∑ r, f r = ∑ r : Fin 500000, f (rowOf 0 r) + ∑ r : Fin 500000, f (rowOf 1 r) := by
  have h := Fin.sum_univ_add (a := 500000) (b := 500000) (f : Fin (500000 + 500000) → EReal)
  have e0 : ∀ r : Fin 500000, f (Fin.castAdd 500000 r) = f (rowOf 0 r) := fun r => congrArg f (Fin.ext (by simp [rowOf]))
  have e1 : ∀ r : Fin 500000, f (Fin.natAdd 500000 r) = f (rowOf 1 r) := fun r => congrArg f (Fin.ext (by simp [rowOf]; omega))
  rw [Finset.sum_congr rfl (fun r _ => e0 r), Finset.sum_congr rfl (fun r _ => e1 r)] at h
  exact h

theorem halfSum_add (x : SX.Idx → EReal) (idx : IVec SId 32) (s : Fin 16) (c : Fin 256) :
    halfSum x idx 0 s c + halfSum x idx 1 s c = segSum x idx s c :=
  (sum_halves fun r => if inSeg idx s r then x (ix2 r c) else 0).symm

theorem halfCnt_add (idx : IVec SId 32) (s : Fin 16) :
    halfCnt idx 0 s + halfCnt idx 1 s = segCnt idx s :=
  (sum_halves fun r => if inSeg idx s r then (1 : EReal) else 0).symm

/-- A sum over a half's rows is the sum, over its 50 blocks of 10000 rows, of the sums over each block's rows. -/
theorem sum_blocks (g : Fin 500000 → EReal) :
    ∑ r, g r = ∑ i : Fin 50, ∑ k : Fin 10000, g ⟨10000 * i.val + k.val, by have := i.isLt; have := k.isLt; omega⟩ := by
  rw [← Fintype.sum_prod_type']
  refine (Fintype.sum_equiv (finProdFinEquiv (m := 50) (n := 10000)) _ g fun ik => ?_).symm
  refine congrArg g (Fin.ext ?_)
  simp [finProdFinEquiv]
  ring

end Cert.Spec

end
-- ==== Proof.KVal1.lean ====
/-
  What the gather-and-multiply pass leaves in the result array, at the extended reals: row `r`, column `c` is
  `x r c` times the gate table's row of row `r`'s segment at `c`, for whatever (finite) gate table the pass was handed.

  Each of the 200 grid points writes back one block of 5000 rows, a pure function of the same rows of `x`, their ids
  and the whole table; the blocks tile the array.
-/
import proofs.«415255_j31834297598792_3_alg».proof.Proof.KArgs
import proofs.«415255_j31834297598792_3_alg».proof.Proof.PayMath
import proofs.«415255_j31834297598792_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The gate table the second pass is handed: what the host operations before it left in its third operand. -/
abbrev gateOf (c : Dev nD) : S16x256.Idx → EReal := VR5 m ρ c main_v24

/-! ## The pass block by block: what each point reads, what it writes back, and that the blocks tile the result -/

namespace Gather1

/-- The zero offsets, as the constant function. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index maps over the 200 grid points. -/
theorem blockIdx : ∀ t : Fin cfg1.N,
    (win1_0.index t (0 : Fin 2) = t.val ∧ win1_0.index t (1 : Fin 2) = 0)
    ∧ (win1_1.index t (0 : Fin 3) = t.val ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = t.val ∧ win1_3.index t (1 : Fin 2) = 0) :=
  (by decide +kernel : ∀ t : Fin grid1.N, _)

/-- `x` reaches the pass as launched: no host operation writes it and the first pass only reads it. -/
theorem entry_x (c : Dev nD) : VR5 m ρ c main_arg0 = xOf m c :=
  calc W5 m ρ c (Proc.devRef .tc main_arg0)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := (W2_arr m ρ c 0).trans (((dat0 (VR1 m ρ) c).arrAt_in 0 rfl _).trans (A_eq0 (VR1 m ρ) c 0))
    _ = W0 m ρ c (Proc.devRef .tc main_arg0) := W1_of m ρ c main_arg0 (by decide)
    _ = m ((c : Thread nD τ).loc main_arg0) := rfl

/-- The ids are as launched when the last host stretch starts: no operation writes them and no pass has them as an array. -/
theorem mid_ids (c : Dev nD) : W4 m ρ c (Proc.devRef .tc main_arg1) = idOf m c :=
  calc W4 m ρ c (Proc.devRef .tc main_arg1)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- The id array the pass is handed is the launched ids recast as 200 rows of 5000. -/
theorem entry_ids (c : Dev nD) :
    VR5 m ρ c main_v25 = shapeCast S200x1x5000 (idOf m c) shapeCasts_S1000000_S200x1x5000 := by
  rw [← mid_ids m ρ c]
  show StableHlo.after hostOps1_2 _ (Proc.devRef .tc main_v25) = _
  after_results
  rfl

/-- One entry of the pass's block, over any block of `x`, id row and finite gate table: when the block's row `r` is row
    `R` of the array and carries `R`'s id, entry `(r, col)` is the gated product at `(R, col)`: the sum over the 16
    segments against the indicator of `R`'s segment picks that segment's gate. -/
theorem gather_entry (x : S5000x256.Idx → EReal) (ix : IVec S1x1x5000 32) (g : S16x256.Idx → EReal)
    (hg : Cert.Spec.Finite g) (X : S1000000x256.Idx → EReal) (ids : IVec S1000000 32) (h : Cert.Spec.IdsInRange ids)
    (r : Fin 5000) (col : Fin 256) (R : Fin 1000000)
    (hx : x (ix2 r col) = X (ix2 R col)) (hid : ix (ix3 (0 : Fin 1) (0 : Fin 1) r) = ids (ix1 R)) :
    (k1_pay1 (F := Ideal) x ix g (ix2 r col) : EReal) = Cert.Spec.gated X ids h g (ix2 R col) := by
  rw [Cert.KernelIdeal.Pay.gpay_apply x ix g hg r col, hx]
  show X (ix2 R col) * (∑ s : Fin 16, if ix (ix3 (0 : Fin 1) (0 : Fin 1) r) = BitVec.ofNat 32 s.val then g (ix2 s col) else 0)
    = X (ix2 R col) * g (ix2 (Cert.Spec.segOf ids h R) col)
  rw [hid]
  exact congrArg _ (Cert.Spec.sum_inSeg ids h R (fun s => g (ix2 s col)))

/-- The block of `x` at point `t` is rows `5000 t … 5000 t + 4999` of `x`. -/
theorem xblock_apply (c : Dev nD) (t : Fin cfg1.N) (r : Fin 5000) (col : Fin 256) (R : Fin 1000000)
    (hR : R.val = 5000 * t.val + r.val) :
    (iblk1 (VR5 m ρ) c 0 t : S5000x256.Idx → EReal) (ix2 r col) = xOf m c (ix2 R col) := by
  obtain ⟨⟨e0, e1⟩, -, -, -⟩ := blockIdx t
  unfold iblk1
  rw [View.read_apply]
  show VR5 m ρ c main_arg0 (((cfg1.win 0).blk t).view.emb (ix2 r col)) = xOf m c (ix2 R col)
  rw [entry_x]
  congr 1
  funext a
  apply Fin.ext
  match a with
  | ⟨0, _⟩ => show win1_0.index t (0 : Fin 2) * 5000 + 1 * r.val = R.val; omega
  | ⟨1, _⟩ => show win1_0.index t (1 : Fin 2) * 256 + 1 * col.val = col.val; omega

/-- The whole gate table is every point's block of it. -/
theorem gblock_eq (c : Dev nD) (t : Fin cfg1.N) :
    (iblk1 (VR5 m ρ) c 2 t : S16x256.Idx → EReal) = gateOf m ρ c := by
  obtain ⟨-, -, ⟨e0, e1⟩, -⟩ := blockIdx t
  funext y
  obtain ⟨s, col, rfl⟩ : ∃ (s : Fin 16) (col : Fin 256), y = ix2 s col := ⟨y 0, y 1, eq_ix2 y⟩
  unfold iblk1
  rw [View.read_apply]
  show VR5 m ρ c main_v24 (((cfg1.win 2).blk t).view.emb (ix2 s col)) = VR5 m ρ c main_v24 (ix2 s col)
  congr 1
  funext a
  apply Fin.ext
  match a with
  | ⟨0, _⟩ => show win1_2.index t (0 : Fin 2) * 16 + 1 * s.val = s.val; omega
  | ⟨1, _⟩ => show win1_2.index t (1 : Fin 2) * 256 + 1 * col.val = col.val; omega

/-- The id block at point `t` is the ids of rows `5000 t … 5000 t + 4999`. -/
theorem idblock_apply (c : Dev nD) (t : Fin cfg1.N) (r : Fin 5000) (R : Fin 1000000)
    (hR : R.val = 5000 * t.val + r.val) :
    (iblk1 (VR5 m ρ) c 1 t : IVec S1x1x5000 32) (ix3 (0 : Fin 1) (0 : Fin 1) r) = idOf m c (ix1 R) := by
  obtain ⟨-, ⟨e0, e1, e2⟩, -, -⟩ := blockIdx t
  have ht : t.val < 200 := t.isLt
  unfold iblk1
  rw [View.read_apply]
  show VR5 m ρ c main_v25 (((cfg1.win 1).blk t).view.emb (ix3 (0 : Fin 1) (0 : Fin 1) r)) = idOf m c (ix1 R)
  rw [entry_ids]
  have hemb : ((cfg1.win 1).blk t).view.emb (ix3 (0 : Fin 1) (0 : Fin 1) r)
      = (ix3 (⟨t.val, ht⟩ : Fin 200) (0 : Fin 1) r : S200x1x5000.Idx) := by
    funext a
    apply Fin.ext
    match a with
    | ⟨0, _⟩ => show win1_1.index t (0 : Fin 3) * 1 + 1 * 0 = t.val; omega
    | ⟨1, _⟩ => show win1_1.index t (1 : Fin 3) * 1 + 1 * 0 = 0; omega
    | ⟨2, _⟩ => show win1_1.index t (2 : Fin 3) * 5000 + 1 * r.val = r.val; omega
  rw [hemb]
  refine shapeCast_apply _ _ _ (ix1 R) ?_
  rw [Shape.rowMajor_val_one, Shape.rowMajor_val_three]
  show R.val = (t.val * 1 + 0) * 5000 + r.val
  omega

/-- The result's block at point `t` sits at rows `5000 t … 5000 t + 4999`. -/
theorem oblock_emb (t : Fin cfg1.N) (r : Fin 5000) (col : Fin 256) (R : Fin 1000000)
    (hR : R.val = 5000 * t.val + r.val) :
    ((cfg1.win 3).blk t).view.emb (ix2 r col) = (ix2 R col : S1000000x256.Idx) := by
  obtain ⟨-, -, -, ⟨e0, e1⟩⟩ := blockIdx t
  funext a
  apply Fin.ext
  match a with
  | ⟨0, _⟩ => show win1_3.index t (0 : Fin 2) * 5000 + 1 * r.val = R.val; omega
  | ⟨1, _⟩ => show win1_3.index t (1 : Fin 2) * 256 + 1 * col.val = col.val; omega

/-- What point `t` writes back is its block of the gated product. -/
theorem flushed_gated (c : Dev nD) (h : Cert.Spec.IdsInRange (idOf m c)) (hg : Cert.Spec.Finite (gateOf m ρ c))
    (t : Fin cfg1.N) :
    (dat1 (VR5 m ρ) c).flushed 3 t
      = ((cfg1.win 3).blk t).view.read (Elt Ideal) (Cert.Spec.gated (xOf m c) (idOf m c) h (gateOf m ρ c)) := by
  show (cfg1.win 3).cut (grid1.coords t) ((dat1 (VR5 m ρ) c).after 3 t) = _
  rw [after1_3]
  unfold gatherMul
  rw [View.canon_unit_zero zeros2]
  simp only [View.ld_unit_zero (S := S5000x256) zeros2, View.ld_unit_zero (S := S16x256) zeros2,
    View.ld_unit_zero (S := S1x1x5000) zeros3]
  funext y
  obtain ⟨r, col, rfl⟩ : ∃ (r : Fin 5000) (col : Fin 256), y = ix2 r col := ⟨y 0, y 1, eq_ix2 y⟩
  have ht : t.val < 200 := t.isLt
  have hR : 5000 * t.val + r.val < 1000000 := by have := r.isLt; omega
  show k1_pay1 (F := Ideal) (iblk1 (VR5 m ρ) c 0 t) (iblk1 (VR5 m ρ) c 1 t) (iblk1 (VR5 m ρ) c 2 t) (ix2 r col)
    = Cert.Spec.gated (xOf m c) (idOf m c) h (gateOf m ρ c) (((cfg1.win 3).blk t).view.emb (ix2 r col))
  rw [oblock_emb t r col ⟨5000 * t.val + r.val, hR⟩ rfl, gblock_eq m ρ c t]
  exact gather_entry _ _ (gateOf m ρ c) hg (xOf m c) (idOf m c) h r col ⟨5000 * t.val + r.val, hR⟩
    (xblock_apply m ρ c t r col ⟨5000 * t.val + r.val, hR⟩ rfl) (idblock_apply m ρ c t r ⟨5000 * t.val + r.val, hR⟩ rfl)

/-- An index of the result lies in point `t`'s block iff each coordinate lies in the block's range on its axis. -/
theorem mem_oblock (t : Fin cfg1.N) (i : S1000000x256.Idx) :
    i ∈ ((cfg1.win 3).blk t).view.set
      ↔ ∀ a : Fin 2, win1_3.index t a * S5000x256.size a ≤ (i a).val ∧ (i a).val < win1_3.index t a * S5000x256.size a + S5000x256.size a := by
  show i ∈ ((View.whole main_v26).slice (win1_3.rect t)).set ↔ _
  rw [View.set_slice_whole, Rect.mem_set_unit]
  exact Iff.rfl

/-- Row `r` of the result lies in the block of point `r / 5000`. -/
theorem covered (i : S1000000x256.Idx) :
    ∃ t : Fin cfg1.N, (cfg1.win 3).flush t = true ∧ i ∈ ((cfg1.win 3).blk t).view.set := by
  have h0 : (i 0).val < 1000000 := (i 0).isLt
  have h1 : (i 1).val < 256 := (i 1).isLt
  have hN : grid1.N = 200 := N_1
  refine ⟨⟨(i 0).val / 5000, by show _ < grid1.N; rw [hN]; omega⟩, flush1_3 _, ?_⟩
  rw [mem_oblock]
  obtain ⟨-, -, -, ⟨e0, e1⟩⟩ := blockIdx ⟨(i 0).val / 5000, by show _ < grid1.N; rw [hN]; omega⟩
  have e0' : win1_3.index ⟨(i 0).val / 5000, by show _ < grid1.N; rw [hN]; omega⟩ (0 : Fin 2) = (i 0).val / 5000 := e0
  intro a
  match a with
  | ⟨0, _⟩ =>
    show win1_3.index _ (0 : Fin 2) * 5000 ≤ (i 0).val ∧ (i 0).val < win1_3.index _ (0 : Fin 2) * 5000 + 5000
    rw [e0']; omega
  | ⟨1, _⟩ =>
    show win1_3.index _ (1 : Fin 2) * 256 ≤ (i 1).val ∧ (i 1).val < win1_3.index _ (1 : Fin 2) * 256 + 256
    rw [e1]; omega

end Gather1

/-- The result array is the specification's gated product of `x` with the table the pass was handed. -/
theorem result_gated (c : Dev nD) (h : Cert.Spec.IdsInRange (idOf m c)) (hg : Cert.Spec.Finite (gateOf m ρ c)) :
    ((dat1 (VR5 m ρ) c).arrAt 3 cfg1.N : S1000000x256.Idx → EReal)
      = Cert.Spec.gated (xOf m c) (idOf m c) h (gateOf m ρ c) :=
  (dat1 (VR5 m ρ) c).arrAt_eq_of_cover 3 (Cert.Spec.gated (xOf m c) (idOf m c) h (gateOf m ρ c))
    (fun t _ => Gather1.flushed_gated m ρ c h hg t) Gather1.covered

end Cert.KernelIdeal.Hand

end
-- ==== Proof.KHost.lean ====
/-
  The host operations between the two passes, at the extended reals: from the first pass's two result arrays (two
  halves of partial segment sums and counts) to the gate table the second pass is handed.

  The halves are added, the counts raised to at least one and broadcast along the columns, the sums divided by them
  (the segment means), and the means passed through the two-layer network with the logistic function. Read stretch
  by stretch over an arbitrary assignment of contents to the buffers, then composed along the run's boundaries.
-/
import proofs.«415255_j31834297598792_3_alg».proof.Proof.KArgs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

/-- The segment means from the two halves' partial sums `A` and counts `B`: the halves added, the sums over the
    counts raised to at least one. -/
def meanK (A : FVec Ideal S2x16x256 .f32) (B : FVec Ideal S2x16x1 .f32) : FVec Ideal S16x256 .f32 :=
  Host.divf (F := Ideal)
    (addf (F := Ideal)
      (shapeCast S16x256 (extractStridedSlice S1x16x256 ![0, 0, 0] A slices_S2x16x256_S1x16x256_0_0_0) shapeCasts_S1x16x256_S16x256)
      (shapeCast S16x256 (extractStridedSlice S1x16x256 ![1, 0, 0] A slices_S2x16x256_S1x16x256_1_0_0) shapeCasts_S1x16x256_S16x256))
    (broadcastInDim S16x256 ![0, 1] bcast_S16x1_S16x256_0_1
      (maximumf (F := Ideal)
        (addf (F := Ideal)
          (shapeCast S16x1 (extractStridedSlice S1x16x1 ![0, 0, 0] B slices_S2x16x1_S1x16x1_0_0_0) shapeCasts_S1x16x1_S16x1)
          (shapeCast S16x1 (extractStridedSlice S1x16x1 ![1, 0, 0] B slices_S2x16x1_S1x16x1_1_0_0) shapeCasts_S1x16x1_S16x1))
        (broadcastInDim S16x1 ![] bcast_S_S16x1 (constant (F := Ideal) S_ .f32 0x3F800000#32))))

/-- The network from a table of segment means to the gate table, as the kernel program's host operations compute it. -/
def netK (mean : FVec Ideal S16x256 .f32) (w1 : FVec Ideal S256x64 .f32) (w2 : FVec Ideal S64x256 .f32) : FVec Ideal S16x256 .f32 :=
  Host.divf (F := Ideal) (broadcastInDim S16x256 ![] bcast_S_S16x256 (constant (F := Ideal) S_ .f32 0x3F800000#32))
    (addf (F := Ideal) (broadcastInDim S16x256 ![] bcast_S_S16x256 (constant (F := Ideal) S_ .f32 0x3F800000#32))
      (Host.exp (F := Ideal) (Host.negf (F := Ideal) (Host.dotGeneral (F := Ideal) dot_S16x64_S64x256_S16x256_1_0_0_1_n_n none
        (maximumf (F := Ideal) (Host.dotGeneral (F := Ideal) dot_S16x256_S256x64_S16x64_1_0_0_1_n_n none mean w1)
          (broadcastInDim S16x64 ![] bcast_S_S16x64 (constant (F := Ideal) S_ .f32 0x00000000#32))) w2))))

/-- The first stretch: the first layer's product of the means with `w1`. -/
theorem stretch1 (G : Valuation τ sig (Elt Ideal)) :
    StableHlo.after hostOps1 G (Proc.devRef .tc main_v16)
      = Host.dotGeneral (F := Ideal) (φ₁ := .f32) (φ₂ := .f32) dot_S16x256_S256x64_S16x64_1_0_0_1_n_n none
          (meanK (G (Proc.devRef .tc main_v1_0)) (G (Proc.devRef .tc main_v1_1))) (G (Proc.devRef .tc main_arg2) : FVec Ideal S256x64 .f32) := by
  after_results
  rfl

/-- The second stretch: the maximum with zero. -/
theorem stretch2 (G : Valuation τ sig (Elt Ideal)) :
    StableHlo.after hostOps1_1 G (Proc.devRef .tc main_v17)
      = maximumf (F := Ideal) (G (Proc.devRef .tc main_v16) : FVec Ideal S16x64 .f32)
          (broadcastInDim S16x64 ![] bcast_S_S16x64 (constant (F := Ideal) S_ .f32 0x00000000#32)) := by
  after_results
  rfl

/-- The third stretch: the second layer's product with `w2` and the logistic function. -/
theorem stretch3 (G : Valuation τ sig (Elt Ideal)) :
    StableHlo.after hostOps1_2 G (Proc.devRef .tc main_v24)
      = Host.divf (F := Ideal) (broadcastInDim S16x256 ![] bcast_S_S16x256 (constant (F := Ideal) S_ .f32 0x3F800000#32))
          (addf (F := Ideal) (broadcastInDim S16x256 ![] bcast_S_S16x256 (constant (F := Ideal) S_ .f32 0x3F800000#32))
            (Host.exp (F := Ideal) (Host.negf (F := Ideal) (Host.dotGeneral (F := Ideal) (φ₁ := .f32) (φ₂ := .f32) dot_S16x64_S64x256_S16x256_1_0_0_1_n_n none
              (G (Proc.devRef .tc main_v17) : FVec Ideal S16x64 .f32) (G (Proc.devRef .tc main_arg3) : FVec Ideal S64x256 .f32))))) := by
  after_results

variable (m : (ℓ : Loc nD τ sig) → Buf (Elt Ideal) ℓ) (ρ : Dev nD → PrngReg)

/-- The weights reach the stretches that read them as launched. -/
theorem W2_main_arg2 (c : Dev nD) : W2 m ρ c (Proc.devRef .tc main_arg2) = w1Of m c :=
  (W2_of_ne m ρ c main_arg2 (by decide)).trans (W1_of m ρ c main_arg2 (by decide))
theorem W4_main_arg3 (c : Dev nD) : W4 m ρ c (Proc.devRef .tc main_arg3) = w2Of m c :=
  (W4_of m ρ c main_arg3 (by decide)).trans ((W3_of m ρ c main_arg3 (by decide)).trans
    ((W2_of_ne m ρ c main_arg3 (by decide)).trans (W1_of m ρ c main_arg3 (by decide))))

/-- THE GATE TABLE the second pass is handed: the network of the means of the first pass's two arrays. -/
theorem gate_eq (c : Dev nD) :
    (VR5 m ρ c main_v24 : FVec Ideal S16x256 .f32)
      = netK (meanK ((dat0 (VR1 m ρ) c).arrAt 2 cfg0.N) ((dat0 (VR1 m ρ) c).arrAt 3 cfg0.N)) (w1Of m c) (w2Of m c) := by
  show StableHlo.after hostOps1_2 (W4 m ρ c) (Proc.devRef .tc main_v24) = _
  rw [stretch3, W4_main_arg3]
  rw [show W4 m ρ c (Proc.devRef .tc main_v17) = StableHlo.after hostOps1_1 (W3 m ρ c) (Proc.devRef .tc main_v17) from rfl, stretch2]
  rw [show W3 m ρ c (Proc.devRef .tc main_v16) = StableHlo.after hostOps1 (W2 m ρ c) (Proc.devRef .tc main_v16) from rfl, stretch1]
  rw [W2_main_arg2, W2_arr m ρ c 2, W2_arr m ρ c 3]
  rfl

end Cert.KernelIdeal.Hand

end
-- ==== Proof.KVal0.lean ====
/-
  What the segment-reduce pass leaves in its two result arrays, at the extended reals: half `p` of the sums' array
  holds half `p`'s share of the segment sums, and half `p` of the counts' array its share of the segment counts.

  A half's 50 grid points each add one block of 10000 rows into the accumulators, the first after a reset; the last
  point copies the accumulators out and only that point's block is written back. So the array's half is the
  accumulators after the half's last point, which is the sum over the half's 50 blocks of each block's rows.
-/
import proofs.«415255_j31834297598792_3_alg».proof.Proof.KArgs
import proofs.«415255_j31834297598792_3_alg».proof.Proof.PayMath
import proofs.«415255_j31834297598792_3_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

namespace Reduce0

/-! ## The blocks the body is handed, as rows of the arguments -/

/-- The block index of `x`'s window at a grid point is the point's number, on the row axis, and zero on the columns. -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block index of the ids' window at a grid point is the point's number on the leading axis, zero on the others. -/
theorem index0_1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Row `k` of the block of `x` at position `n` is row `10000 n + k` of `x`. -/
theorem xblk0_apply (c : Dev nD) (n : ℕ) (hn : n < cfg0.N) (k : Fin 10000) (col : Fin 256) (h : 10000 * n + k.val < 1000000) :
    (xblk0 (VR1 m ρ) c n hn : S10000x256.Idx → EReal) (ix2 k col) = xOf m c (ix2 ⟨10000 * n + k.val, h⟩ col) := by
  show iblk0 (VR1 m ρ) c 0 ⟨n, hn⟩ (ix2 k col) = _
  unfold iblk0
  rw [View.read_apply]
  show VR1 m ρ c main_arg0 _ = m ((c : Thread nD τ).loc main_arg0) _
  have e : VR1 m ρ c main_arg0 = m ((c : Thread nD τ).loc main_arg0) := W1_of m ρ c main_arg0 (by decide)
  rw [e]
  congr 1
  funext a
  apply Fin.ext
  match a with
  | ⟨0, _⟩ => show win0_0.index ⟨n, hn⟩ 0 * 10000 + 1 * k.val = 10000 * n + k.val; rw [show win0_0.index ⟨n, hn⟩ 0 = n from (index0_0 ⟨n, hn⟩).1]; omega
  | ⟨1, _⟩ => show win0_0.index ⟨n, hn⟩ 1 * 256 + 1 * col.val = col.val; rw [(index0_0 ⟨n, hn⟩).2]; omega

/-- Entry `k` of the block of ids at position `n` is id `10000 n + k`: the ids reach the pass reshaped to 100 rows of
    10000, which keeps the row-major position. -/
theorem iblk0i_apply (c : Dev nD) (n : ℕ) (hn : n < cfg0.N) (k : Fin 10000) (h : 10000 * n + k.val < 1000000) :
    (iblk0i (VR1 m ρ) c n hn : IVec S1x1x10000 32) (ix3 (0 : Fin 1) (0 : Fin 1) k) = idOf m c (ix1 ⟨10000 * n + k.val, h⟩) := by
  show iblk0 (VR1 m ρ) c 1 ⟨n, hn⟩ (ix3 (0 : Fin 1) (0 : Fin 1) k) = _
  unfold iblk0
  rw [View.read_apply]
  show VR1 m ρ c main_v0 _ = m ((c : Thread nD τ).loc main_arg1) _
  have e : VR1 m ρ c main_v0 = shapeCast S100x1x10000 (m ((c : Thread nD τ).loc main_arg1)) shapeCasts_S1000000_S100x1x10000 := by
    show StableHlo.after hostOps0 _ (Proc.devRef .tc main_v0) = _
    after_results
    rfl
  rw [e]
  refine shapeCast_apply _ _ _ (ix1 ⟨10000 * n + k.val, h⟩) ?_
  rw [Shape.rowMajor_val_one, Shape.rowMajor_val_three]
  show 10000 * n + k.val = ((win0_1.index ⟨n, hn⟩ 0 * 1 + 1 * 0) * 1 + (win0_1.index ⟨n, hn⟩ 1 * 1 + 1 * 0)) * 10000
    + (win0_1.index ⟨n, hn⟩ 2 * 10000 + 1 * k.val)
  rw [show win0_1.index ⟨n, hn⟩ 0 = n from (index0_1 ⟨n, hn⟩).1, (index0_1 ⟨n, hn⟩).2.1, (index0_1 ⟨n, hn⟩).2.2]
  omega

/-! ## The accumulators after each point of a half -/

/-- Row `k` of the block at position `n`. -/
abbrev blockRow (n : ℕ) (hn : n < cfg0.N) (k : Fin 10000) : Fin 1000000 :=
  ⟨10000 * n + k.val, by have hN : cfg0.N = 100 := N_0; have := k.isLt; omega⟩

/-- The block at position `n`: its rows of segment `s`, column `col`, summed (zero past the grid). -/
def blkSum (c : Dev nD) (n : ℕ) (s : Fin 16) (col : Fin 256) : EReal :=
  if hn : n < cfg0.N then
    ∑ k : Fin 10000, if Cert.Spec.inSeg (idOf m c) s (blockRow n hn k) then xOf m c (ix2 (blockRow n hn k) col) else 0
  else 0

/-- The block at position `n`: the number of its rows of segment `s` (zero past the grid). -/
def blkCnt (c : Dev nD) (n : ℕ) (s : Fin 16) : EReal :=
  if hn : n < cfg0.N then
    ∑ k : Fin 10000, if Cert.Spec.inSeg (idOf m c) s (blockRow n hn k) then (1 : EReal) else 0
  else 0

/-- One point's step on the sums: the block's rows of segment `s` are added. -/
theorem pay6_at (c : Dev nD) (hx : Cert.Spec.Finite (xOf m c)) (n : ℕ) (hn : n < cfg0.N) (acc : S16x256.Idx → EReal)
    (s : Fin 16) (col : Fin 256) :
    (k0_pay6 (F := Ideal) (xblk0 (VR1 m ρ) c n hn) (iblk0i (VR1 m ρ) c n hn) acc (ix2 s col) : EReal)
      = acc (ix2 s col) + blkSum m c n s col := by
  have hN : cfg0.N = 100 := N_0
  have hfin : ∀ j, (xblk0 (VR1 m ρ) c n hn : S10000x256.Idx → EReal) j ≠ ⊤ ∧ (xblk0 (VR1 m ρ) c n hn : S10000x256.Idx → EReal) j ≠ ⊥ := by
    intro j
    obtain ⟨a, b, rfl⟩ : ∃ (a : Fin 10000) (b : Fin 256), j = ix2 a b := ⟨j 0, j 1, eq_ix2 j⟩
    rw [xblk0_apply m ρ c n hn a b (by have := a.isLt; omega)]
    exact hx _
  rw [Cert.KernelIdeal.Pay.pay6_apply _ _ _ hfin s col]
  unfold blkSum
  rw [dif_pos hn]
  congr 1
  refine Finset.sum_congr rfl fun k _ => ?_
  show (if iblk0i (VR1 m ρ) c n hn (ix3 (0 : Fin 1) (0 : Fin 1) k) = BitVec.ofNat 32 s.val then
      (xblk0 (VR1 m ρ) c n hn : S10000x256.Idx → EReal) (ix2 k col) else 0) = _
  rw [iblk0i_apply m ρ c n hn k (blockRow n hn k).isLt, xblk0_apply m ρ c n hn k col (blockRow n hn k).isLt]

/-- One point's step on the counts: the number of the block's rows of segment `s` is added. -/
theorem pay7_at (c : Dev nD) (n : ℕ) (hn : n < cfg0.N) (acc : S16x1.Idx → EReal) (s : Fin 16) :
    (k0_pay7 (F := Ideal) (iblk0i (VR1 m ρ) c n hn) acc (ix2 s (0 : Fin 1)) : EReal)
      = acc (ix2 s (0 : Fin 1)) + blkCnt m c n s := by
  rw [Cert.KernelIdeal.Pay.pay7_apply _ _ s]
  unfold blkCnt
  rw [dif_pos hn]
  congr 1
  refine Finset.sum_congr rfl fun k _ => ?_
  show (if iblk0i (VR1 m ρ) c n hn (ix3 (0 : Fin 1) (0 : Fin 1) k) = BitVec.ofNat 32 s.val then (1 : EReal) else 0) = _
  rw [iblk0i_apply m ρ c n hn k (blockRow n hn k).isLt]

/-- Away from the first point of a half the accumulators continue from the point before. -/
theorem accAt_step (c : Dev nD) (n : ℕ) (hn : n + 1 < cfg0.N) (h : ¬ (n + 1) % 50 = 0) :
    accAt (VR1 m ρ) c (n + 1) hn
      = (k0_pay6 (xblk0 (VR1 m ρ) c (n + 1) hn) (iblk0i (VR1 m ρ) c (n + 1) hn) (accAt (VR1 m ρ) c n (Nat.lt_of_succ_lt hn)).1,
         k0_pay7 (iblk0i (VR1 m ρ) c (n + 1) hn) (accAt (VR1 m ρ) c n (Nat.lt_of_succ_lt hn)).2) :=
  accAt_next (VR1 m ρ) c (n + 1) hn h

/-- The sum accumulator after point `i` of a run of 50 from position `50 q`: the run's first `i + 1` block sums. -/
theorem acc_sums (c : Dev nD) (hx : Cert.Spec.Finite (xOf m c)) (q : ℕ) (s : Fin 16) (col : Fin 256) :
    ∀ (i : ℕ) (h : 50 * q + i < cfg0.N), i < 50 →
      ((accAt (VR1 m ρ) c (50 * q + i) h).1 : S16x256.Idx → EReal) (ix2 s col)
        = ∑ j ∈ Finset.range (i + 1), blkSum m c (50 * q + j) s col
  | 0, h, _ => by
    rw [accAt_first (VR1 m ρ) c (50 * q + 0) h (by omega)]
    show (k0_pay6 (F := Ideal) _ _ _ (ix2 s col) : EReal) = _
    rw [pay6_at m ρ c hx, Cert.KernelIdeal.Pay.pay3_apply, zero_add, Finset.sum_range_one]
  | i + 1, h, hi => by
    show ((accAt (VR1 m ρ) c (50 * q + i + 1) h).1 : S16x256.Idx → EReal) (ix2 s col) = _
    rw [accAt_step m ρ c (50 * q + i) h (by omega)]
    show (k0_pay6 (F := Ideal) _ _ _ (ix2 s col) : EReal) = _
    rw [pay6_at m ρ c hx, acc_sums c hx q s col i (Nat.lt_of_succ_lt h) (by omega), Finset.sum_range_succ _ (i + 1)]
    rfl

/-- The count accumulator after point `i` of a run of 50 from position `50 q`: the run's first `i + 1` block counts. -/
theorem acc_cnts (c : Dev nD) (q : ℕ) (s : Fin 16) :
    ∀ (i : ℕ) (h : 50 * q + i < cfg0.N), i < 50 →
      ((accAt (VR1 m ρ) c (50 * q + i) h).2 : S16x1.Idx → EReal) (ix2 s (0 : Fin 1))
        = ∑ j ∈ Finset.range (i + 1), blkCnt m c (50 * q + j) s
  | 0, h, _ => by
    rw [accAt_first (VR1 m ρ) c (50 * q + 0) h (by omega)]
    show (k0_pay7 (F := Ideal) _ _ (ix2 s (0 : Fin 1)) : EReal) = _
    rw [pay7_at m ρ c, Cert.KernelIdeal.Pay.pay4_apply, zero_add, Finset.sum_range_one]
  | i + 1, h, hi => by
    show ((accAt (VR1 m ρ) c (50 * q + i + 1) h).2 : S16x1.Idx → EReal) (ix2 s (0 : Fin 1)) = _
    rw [accAt_step m ρ c (50 * q + i) h (by omega)]
    show (k0_pay7 (F := Ideal) _ _ (ix2 s (0 : Fin 1)) : EReal) = _
    rw [pay7_at m ρ c, acc_cnts c q s i (Nat.lt_of_succ_lt h) (by omega), Finset.sum_range_succ _ (i + 1)]
    rfl

/-! ## The result arrays: what the last point of a half writes back -/

/-- The block index of the sums' window at a grid point is the point's half, on the leading axis, zero elsewhere. -/
theorem index0_2 : ∀ t : Fin cfg0.N, win0_2.index t (0 : Fin 3) = t.val / 50 ∧ win0_2.index t (1 : Fin 3) = 0 ∧ win0_2.index t (2 : Fin 3) = 0 :=
  (by decide +kernel : ∀ t : Fin grid0.N, win0_2.index t (0 : Fin 3) = t.val / 50 ∧ win0_2.index t (1 : Fin 3) = 0 ∧ win0_2.index t (2 : Fin 3) = 0)

/-- The same for the counts' window. -/
theorem index0_3 : ∀ t : Fin cfg0.N, win0_3.index t (0 : Fin 3) = t.val / 50 ∧ win0_3.index t (1 : Fin 3) = 0 ∧ win0_3.index t (2 : Fin 3) = 0 :=
  (by decide +kernel : ∀ t : Fin grid0.N, win0_3.index t (0 : Fin 3) = t.val / 50 ∧ win0_3.index t (1 : Fin 3) = 0 ∧ win0_3.index t (2 : Fin 3) = 0)

/-- The accumulators at equal positions are equal, whatever the bounds' evidence. -/
theorem accAt_congr (c : Dev nD) {n n' : ℕ} (e : n = n') (h : n < cfg0.N) (h' : n' < cfg0.N) :
    accAt (VR1 m ρ) c n h = accAt (VR1 m ρ) c n' h' := by
  subst e; rfl

/-- The last point of half `p`. -/
theorem last_lt (p : ℕ) (hp : p < 2) : 50 * p + 49 < cfg0.N := by
  have hN : cfg0.N = 100 := N_0
  omega

/-- What the sums' array ends holding: entry `(p, s, col)` is the sum accumulator after the last point of half `p`. -/
def sumsG (c : Dev nD) : S2x16x256.Idx → EReal := fun j =>
  ((accAt (VR1 m ρ) c (50 * (j 0).val + 49) (last_lt (j 0).val (j 0).isLt)).1 : S16x256.Idx → EReal) (ix2 (j 1 : Fin 16) (j 2 : Fin 256))

/-- What the counts' array ends holding: entry `(p, s, 0)` is the count accumulator after the last point of half `p`. -/
def cntsG (c : Dev nD) : S2x16x1.Idx → EReal := fun j =>
  ((accAt (VR1 m ρ) c (50 * (j 0).val + 49) (last_lt (j 0).val (j 0).isLt)).2 : S16x1.Idx → EReal) (ix2 (j 1 : Fin 16) (j 2 : Fin 1))

/-- A point that writes the sums back writes its block of `sumsG`: the point is the last of its half. -/
theorem flushed0_2 (c : Dev nD) (t : Fin cfg0.N) (hf : (cfg0.win 2).flush t = true) :
    (dat0 (VR1 m ρ) c).flushed 2 t = ((cfg0.win 2).blk t).view.read (Elt Ideal) (sumsG m ρ c) := by
  have hN : cfg0.N = 100 := N_0
  have h49 : t.val % 50 = 49 := (flush0_2 t).mp hf
  obtain ⟨e0, e1, e2⟩ := index0_2 t
  show (cfg0.win 2).cut (grid0.coords t) ((dat0 (VR1 m ρ) c).after 2 t) = _
  rw [after0_2]
  funext y
  rw [View.read_apply]
  obtain ⟨a, b, d, rfl⟩ : ∃ (a : Fin 1) (b : Fin 16) (d : Fin 256), y = ix3 a b d := ⟨y 0, y 1, y 2, eq_ix3 y⟩
  obtain rfl : a = 0 := Subsingleton.elim _ _
  show (k0_pay1 (F := Ideal) (accAt (VR1 m ρ) c t.val t.isLt).1 (ix3 (0 : Fin 1) b d) : EReal)
    = sumsG m ρ c (((cfg0.win 2).blk t).view.emb (ix3 (0 : Fin 1) b d))
  rw [Cert.KernelIdeal.Pay.pay1_apply]
  have hp : t.val / 50 < 2 := by omega
  have hi : ((cfg0.win 2).blk t).view.emb (ix3 (0 : Fin 1) b d) = (ix3 (⟨t.val / 50, hp⟩ : Fin 2) b d : S2x16x256.Idx) := by
    funext a
    apply Fin.ext
    match a with
    | ⟨0, _⟩ => show win0_2.index t 0 * 1 + 1 * 0 = t.val / 50; rw [e0]; omega
    | ⟨1, _⟩ => show win0_2.index t 1 * 16 + 1 * b.val = b.val; rw [e1]; omega
    | ⟨2, _⟩ => show win0_2.index t 2 * 256 + 1 * d.val = d.val; rw [e2]; omega
  rw [hi]
  show _ = ((accAt (VR1 m ρ) c (50 * (t.val / 50) + 49) (last_lt _ hp)).1 : S16x256.Idx → EReal) (ix2 b d)
  rw [accAt_congr m ρ c (by omega : t.val = 50 * (t.val / 50) + 49) t.isLt (last_lt _ hp)]

/-- A point that writes the counts back writes its block of `cntsG`. -/
theorem flushed0_3 (c : Dev nD) (t : Fin cfg0.N) (hf : (cfg0.win 3).flush t = true) :
    (dat0 (VR1 m ρ) c).flushed 3 t = ((cfg0.win 3).blk t).view.read (Elt Ideal) (cntsG m ρ c) := by
  have hN : cfg0.N = 100 := N_0
  have h49 : t.val % 50 = 49 := (flush0_3 t).mp hf
  obtain ⟨e0, e1, e2⟩ := index0_3 t
  show (cfg0.win 3).cut (grid0.coords t) ((dat0 (VR1 m ρ) c).after 3 t) = _
  rw [after0_3]
  funext y
  rw [View.read_apply]
  obtain ⟨a, b, d, rfl⟩ : ∃ (a : Fin 1) (b : Fin 16) (d : Fin 1), y = ix3 a b d := ⟨y 0, y 1, y 2, eq_ix3 y⟩
  obtain rfl : a = 0 := Subsingleton.elim _ _
  obtain rfl : d = 0 := Subsingleton.elim _ _
  show (k0_pay2 (F := Ideal) (accAt (VR1 m ρ) c t.val t.isLt).2 (ix3 (0 : Fin 1) b (0 : Fin 1)) : EReal)
    = cntsG m ρ c (((cfg0.win 3).blk t).view.emb (ix3 (0 : Fin 1) b (0 : Fin 1)))
  rw [Cert.KernelIdeal.Pay.pay2_apply]
  have hp : t.val / 50 < 2 := by omega
  have hi : ((cfg0.win 3).blk t).view.emb (ix3 (0 : Fin 1) b (0 : Fin 1)) = (ix3 (⟨t.val / 50, hp⟩ : Fin 2) b (0 : Fin 1) : S2x16x1.Idx) := by
    funext a
    apply Fin.ext
    match a with
    | ⟨0, _⟩ => show win0_3.index t 0 * 1 + 1 * 0 = t.val / 50; rw [e0]; omega
    | ⟨1, _⟩ => show win0_3.index t 1 * 16 + 1 * b.val = b.val; rw [e1]; omega
    | ⟨2, _⟩ => show win0_3.index t 2 * 1 + 1 * 0 = 0; rw [e2]
  rw [hi]
  show _ = ((accAt (VR1 m ρ) c (50 * (t.val / 50) + 49) (last_lt _ hp)).2 : S16x1.Idx → EReal) (ix2 b (0 : Fin 1))
  rw [accAt_congr m ρ c (by omega : t.val = 50 * (t.val / 50) + 49) t.isLt (last_lt _ hp)]

/-- Row `10000 i + k` of half `p` is row `k` of the block at position `50 p + i`. -/
theorem rowOf_block (p : Fin 2) (i : Fin 50) (k : Fin 10000) (h : 10000 * i.val + k.val < 500000) (hn : 50 * p.val + i.val < cfg0.N) :
    Cert.Spec.rowOf p ⟨10000 * i.val + k.val, h⟩ = blockRow (50 * p.val + i.val) hn k :=
  Fin.ext (by show 500000 * p.val + (10000 * i.val + k.val) = 10000 * (50 * p.val + i.val) + k.val; omega)

end Reduce0

open Reduce0

/-- Half `p` of the sums' array is half `p`'s share of the segment sums (`x` finite: the second product of the
    high/low split vanishes). -/
theorem sums_half (c : Dev nD) (hx : Cert.Spec.Finite (xOf m c)) (p : Fin 2) (s : Fin 16) (col : Fin 256) :
    (((dat0 (VR1 m ρ) c).arrAt 2 cfg0.N : S2x16x256.Idx → EReal) (ix3 p s col))
      = Cert.Spec.halfSum (xOf m c) (idOf m c) p s col := by
  have hN : cfg0.N = 100 := N_0
  have hp : p.val < 2 := p.isLt
  obtain ⟨t, ht⟩ : ∃ t : Fin cfg0.N, t.val = 50 * p.val + 49 := ⟨⟨_, last_lt _ hp⟩, rfl⟩
  have hflush : (cfg0.win 2).flush t = true := (flush0_2 t).mpr (by omega)
  obtain ⟨e0, e1, e2⟩ := index0_2 t
  have hmem : (ix3 p s col : S2x16x256.Idx) ∈ ((cfg0.win 2).blk t).view.set := by
    show _ ∈ ((View.whole main_v1_0).slice (win0_2.rect t)).set
    rw [View.set_slice_whole, Rect.mem_set_unit]
    intro a
    match a with
    | ⟨0, _⟩ => show win0_2.index t 0 * 1 ≤ p.val ∧ p.val < win0_2.index t 0 * 1 + 1; rw [e0]; omega
    | ⟨1, _⟩ => show win0_2.index t 1 * 16 ≤ s.val ∧ s.val < win0_2.index t 1 * 16 + 16; rw [e1]; omega
    | ⟨2, _⟩ => show win0_2.index t 2 * 256 ≤ col.val ∧ col.val < win0_2.index t 2 * 256 + 256; rw [e2]; omega
  refine ((dat0 (VR1 m ρ) c).arrAt_apply_of_mem 2 (sumsG m ρ c) (flushed0_2 m ρ c) cfg0.N t (ix3 p s col) t.isLt hflush hmem).trans ?_
  show ((accAt (VR1 m ρ) c (50 * p.val + 49) (last_lt _ hp)).1 : S16x256.Idx → EReal) (ix2 s col) = _
  rw [acc_sums m ρ c hx p.val s col 49 (last_lt _ hp) (by omega)]
  unfold Cert.Spec.halfSum
  rw [Cert.Spec.sum_blocks, Finset.sum_range]
  refine Finset.sum_congr rfl fun i _ => ?_
  have hn : 50 * p.val + i.val < cfg0.N := by have := i.isLt; omega
  unfold blkSum
  rw [dif_pos hn]
  refine Finset.sum_congr rfl fun k _ => ?_
  rw [rowOf_block p i k _ hn]

/-- Half `p` of the counts' array is half `p`'s share of the segment counts. -/
theorem cnts_half (c : Dev nD) (p : Fin 2) (s : Fin 16) :
    (((dat0 (VR1 m ρ) c).arrAt 3 cfg0.N : S2x16x1.Idx → EReal) (ix3 p s (0 : Fin 1)))
      = Cert.Spec.halfCnt (idOf m c) p s := by
  have hN : cfg0.N = 100 := N_0
  have hp : p.val < 2 := p.isLt
  obtain ⟨t, ht⟩ : ∃ t : Fin cfg0.N, t.val = 50 * p.val + 49 := ⟨⟨_, last_lt _ hp⟩, rfl⟩
  have hflush : (cfg0.win 3).flush t = true := (flush0_3 t).mpr (by omega)
  obtain ⟨e0, e1, e2⟩ := index0_3 t
  have hmem : (ix3 p s (0 : Fin 1) : S2x16x1.Idx) ∈ ((cfg0.win 3).blk t).view.set := by
    show _ ∈ ((View.whole main_v1_1).slice (win0_3.rect t)).set
    rw [View.set_slice_whole, Rect.mem_set_unit]
    intro a
    match a with
    | ⟨0, _⟩ => show win0_3.index t 0 * 1 ≤ p.val ∧ p.val < win0_3.index t 0 * 1 + 1; rw [e0]; omega
    | ⟨1, _⟩ => show win0_3.index t 1 * 16 ≤ s.val ∧ s.val < win0_3.index t 1 * 16 + 16; rw [e1]; omega
    | ⟨2, _⟩ => show win0_3.index t 2 * 1 ≤ 0 ∧ 0 < win0_3.index t 2 * 1 + 1; rw [e2]; omega
  refine ((dat0 (VR1 m ρ) c).arrAt_apply_of_mem 3 (cntsG m ρ c) (flushed0_3 m ρ c) cfg0.N t (ix3 p s (0 : Fin 1)) t.isLt hflush hmem).trans ?_
  show ((accAt (VR1 m ρ) c (50 * p.val + 49) (last_lt _ hp)).2 : S16x1.Idx → EReal) (ix2 s (0 : Fin 1)) = _
  rw [acc_cnts m ρ c p.val s 49 (last_lt _ hp) (by omega)]
  unfold Cert.Spec.halfCnt
  rw [Cert.Spec.sum_blocks, Finset.sum_range]
  refine Finset.sum_congr rfl fun i _ => ?_
  have hn : 50 * p.val + i.val < cfg0.N := by have := i.isLt; omega
  unfold blkCnt
  rw [dif_pos hn]
  refine Finset.sum_congr rfl fun k _ => ?_
  rw [rowOf_block p i k _ hn]

end Cert.KernelIdeal.Hand

end
-- ==== Proof.KMean.lean ====
/-
  The kernel program's segment means are the specification's: each half of the first pass's arrays holds its half's
  share of the segment sums and counts, the host adds the halves, raises the counts to at least one and divides.
-/
import proofs.«415255_j31834297598792_3_alg».proof.Proof.KHost
import proofs.«415255_j31834297598792_3_alg».proof.Proof.KVal0
import proofs.«415255_j31834297598792_3_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-- The word of 1.0 is the real number one. -/
theorem ofBits_one : Ideal.ofBits .f32 0x3F800000#32 = 1 := by
  simp [Ideal.ofBits, Ideal.ieee, -EReal.coe_mul]; norm_num

/-- The means read at segment `s`, column `col`: the two halves' sums added, over the two halves' counts added and
    raised to at least one. -/
theorem meanK_apply (A : FVec Ideal S2x16x256 .f32) (B : FVec Ideal S2x16x1 .f32) (s : Fin 16) (col : Fin 256) :
    (meanK A B (ix2 s col) : EReal)
      = Ideal.div (A (ix3 (0 : Fin 2) s col) + A (ix3 (1 : Fin 2) s col))
          (max (B (ix3 (0 : Fin 2) s (0 : Fin 1)) + B (ix3 (1 : Fin 2) s (0 : Fin 1))) 1) := by
  have a0 : shapeCast S16x256 (extractStridedSlice S1x16x256 ![0, 0, 0] A slices_S2x16x256_S1x16x256_0_0_0) shapeCasts_S1x16x256_S16x256 (ix2 s col)
      = A (ix3 (0 : Fin 2) s col) :=
    (shapeCast_1ab_ab_apply _ _ s col).trans (extractStridedSlice_apply _ A _ _ _ (fun a => by
      match a with
      | ⟨0, _⟩ => rfl
      | ⟨1, _⟩ => exact (Nat.zero_add _).symm
      | ⟨2, _⟩ => exact (Nat.zero_add _).symm))
  have a1 : shapeCast S16x256 (extractStridedSlice S1x16x256 ![1, 0, 0] A slices_S2x16x256_S1x16x256_1_0_0) shapeCasts_S1x16x256_S16x256 (ix2 s col)
      = A (ix3 (1 : Fin 2) s col) :=
    (shapeCast_1ab_ab_apply _ _ s col).trans (extractStridedSlice_apply _ A _ _ _ (fun a => by
      match a with
      | ⟨0, _⟩ => rfl
      | ⟨1, _⟩ => exact (Nat.zero_add _).symm
      | ⟨2, _⟩ => exact (Nat.zero_add _).symm))
  have b0 : shapeCast S16x1 (extractStridedSlice S1x16x1 ![0, 0, 0] B slices_S2x16x1_S1x16x1_0_0_0) shapeCasts_S1x16x1_S16x1 (ix2 s (0 : Fin 1))
      = B (ix3 (0 : Fin 2) s (0 : Fin 1)) :=
    (shapeCast_1ab_ab_apply _ _ s (0 : Fin 1)).trans (extractStridedSlice_apply _ B _ _ _ (fun a => by
      match a with
      | ⟨0, _⟩ => rfl
      | ⟨1, _⟩ => exact (Nat.zero_add _).symm
      | ⟨2, _⟩ => rfl))
  have b1 : shapeCast S16x1 (extractStridedSlice S1x16x1 ![1, 0, 0] B slices_S2x16x1_S1x16x1_1_0_0) shapeCasts_S1x16x1_S16x1 (ix2 s (0 : Fin 1))
      = B (ix3 (1 : Fin 2) s (0 : Fin 1)) :=
    (shapeCast_1ab_ab_apply _ _ s (0 : Fin 1)).trans (extractStridedSlice_apply _ B _ _ _ (fun a => by
      match a with
      | ⟨0, _⟩ => rfl
      | ⟨1, _⟩ => exact (Nat.zero_add _).symm
      | ⟨2, _⟩ => rfl))
  have one : (broadcastInDim S16x1 ![] bcast_S_S16x1 (constant (F := Ideal) S_ .f32 0x3F800000#32) (ix2 s (0 : Fin 1)) : EReal) = 1 :=
    (broadcastInDim_apply _ _ _ _ ix0 (fun a => a.elim0)).trans ((constant_apply _ _).trans ofBits_one)
  have hb : ∀ v : FVec Ideal S16x1 .f32, broadcastInDim S16x256 ![0, 1] bcast_S16x1_S16x256_0_1 v (ix2 s col) = v (ix2 s (0 : Fin 1)) :=
    fun v => broadcastInDim_apply _ _ v _ _ (fun a => by
      match a with
      | ⟨0, _⟩ => rfl
      | ⟨1, _⟩ => rfl)
  exact congrArg₂ Ideal.div (congrArg₂ (· + ·) a0 a1) ((hb _).trans (congrArg₂ max (congrArg₂ (· + ·) b0 b1) one))

variable (m : (ℓ : Loc nD τ sig) → Buf (Elt Ideal) ℓ) (ρ : Dev nD → PrngReg)

/-- THE MEANS: the kernel program's means of the first pass's two arrays are the specification's segment means. -/
theorem mean_eq (c : Dev nD) (hx : Cert.Spec.Finite (xOf m c)) :
    (meanK ((dat0 (VR1 m ρ) c).arrAt 2 cfg0.N) ((dat0 (VR1 m ρ) c).arrAt 3 cfg0.N) : S16x256.Idx → EReal)
      = Cert.Spec.mean (xOf m c) (idOf m c) := by
  funext j
  obtain ⟨s, col, rfl⟩ : ∃ (s : Fin 16) (col : Fin 256), j = ix2 s col := ⟨j 0, j 1, eq_ix2 j⟩
  rw [meanK_apply, sums_half m ρ c hx 0 s col, sums_half m ρ c hx 1 s col, cnts_half m ρ c 0 s, cnts_half m ρ c 1 s,
    Cert.Spec.halfSum_add, Cert.Spec.halfCnt_add]
  rfl

end Cert.KernelIdeal.Hand

end
-- ==== Proof.RefSide.lean ====
/-
  The reference's result as the specification's function of its arguments.

  The reference scatters the rows of `x` into 16 segment sums and a row of ones into 16 segment counts (a row whose
  id lies outside `0 … 15` is dropped by both), divides the sums by the counts raised to at least one, passes the
  means through a two-layer network (a product with `w1`, a maximum with zero, a product with `w2`, the logistic
  function `1 / (1 + exp (-z))`), gathers the gate row of each row's id and multiplies. With every id in range the
  gather's index is the id itself: no wrap of a negative id and no clamp takes effect.
-/
import proofs.«415255_j31834297598792_3_alg».proof.Proof.Gen.ReferenceIdeal.Run
import proofs.«415255_j31834297598792_3_alg».proof.Proof.Gen.ReferenceIdeal.Read
import proofs.«415255_j31834297598792_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-- The network from a table of segment means to the gate table, as the reference's host operations compute it:
    `1 / (1 + exp (-(max (mean · w1) 0 · w2)))`. -/
def net (mean : FVec Ideal S16x256 .f32) (w1 : FVec Ideal S256x64 .f32) (w2 : FVec Ideal S64x256 .f32) : FVec Ideal S16x256 .f32 :=
  Host.divf (F := Ideal) (broadcastInDim S16x256 ![] bcast_S_S16x256 (constant (F := Ideal) S_ .f32 0x3F800000#32))
    (addf (F := Ideal) (broadcastInDim S16x256 ![] bcast_S_S16x256 (constant (F := Ideal) S_ .f32 0x3F800000#32))
      (Host.exp (F := Ideal) (Host.negf (F := Ideal) (Host.dotGeneral (F := Ideal) dot_S16x64_S64x256_S16x256_1_0_0_1_n_n none
        (maximumf (F := Ideal) (Host.dotGeneral (F := Ideal) dot_S16x256_S256x64_S16x64_1_0_0_1_n_n none mean w1)
          (broadcastInDim S16x64 ![] bcast_S_S16x64 (constant (F := Ideal) S_ .f32 0x00000000#32))) w2))))

/-! ## Words and constants -/

/-- The word of the float 1.0 is the real number one. -/
private theorem ofBits_one_f32 : Ideal.ofBits .f32 0x3F800000#32 = 1 := by
  simp [Ideal.ofBits, Ideal.ieee, -EReal.coe_mul]; norm_num

/-- A 32-bit word read signed lies in 0 … 15 and is the number s exactly when it is the word of s. -/
private theorem word_eq_iff (x : BitVec 32) (s : Fin 16) :
    (0 ≤ x.toInt ∧ x.toInt < 16 ∧ x.toInt.toNat = s.val) ↔ x = BitVec.ofNat 32 s.val := by
  have hlt : x.toNat < 2 ^ 32 := x.isLt
  have e := BitVec.toInt_eq_toNat_cond x
  have hs := s.isLt
  constructor
  · rintro ⟨h0, h1, h2⟩
    apply BitVec.eq_of_toNat_eq
    rw [BitVec.toNat_ofNat]
    split_ifs at e <;> omega
  · intro hx
    have hn : x.toNat = s.val := by
      rw [hx, BitVec.toNat_ofNat]; omega
    split_ifs at e <;> omega

/-! ## The accumulating scatter at one element -/

/-- The accumulating scatter read at one element, at the extended reals: the operand's element plus the sum of the
    updates that land on it. -/
private theorem scatterAdd_apply {s si u : Shape} {φ : FTy} {w : Nat} (d : ScatterDims s si u) (x : FVec Ideal s φ)
    (idx : IVec si w) (upd : FVec Ideal u φ) (i : s.Idx) :
    (Host.scatterAdd (F := Ideal) d x idx upd i : EReal)
      = x i + ∑ j ∈ Finset.univ.filter (fun j => d.resultIdx? j idx = some i), upd j := rfl

/-! ## The segment sums: the scatter of the rows of `x` -/
private abbrev sc2 := scatter_S16x256_S1000000x1_S1000000x256_1_0_0_1

private theorem sc2_start0 (idx' : IVec S1000000x1 32) (r : Fin 1000000) (c' : Fin 256) :
    sc2.start (ix2 r c') idx' 0 = (idx' (ix2 r (0 : Fin 1))).toInt := by
  unfold ScatterDims.start
  rw [dif_pos (show (0 : Fin 2) ∈ sc2.scatterDimsToOperandDims from List.mem_singleton.mpr rfl)]
  congr 2
  funext b; refine Fin.ext ?_
  match b with
  | ⟨0, _⟩ => rfl
  | ⟨1, _⟩ => rfl

private theorem sc2_start1 (idx' : IVec S1000000x1 32) (j : S1000000x256.Idx) :
    sc2.start j idx' 1 = 0 := by
  unfold ScatterDims.start
  rw [dif_neg (show ¬ (1 : Fin 2) ∈ sc2.scatterDimsToOperandDims by decide)]

private theorem sc2_window0 (j : S1000000x256.Idx) : sc2.window j 0 = 0 := by
  unfold ScatterDims.window
  rw [dif_neg (show ¬ (0 : Fin 2) ∈ sc2.sKept by decide)]

private theorem sc2_window1 (r : Fin 1000000) (c' : Fin 256) : sc2.window (ix2 r c') 1 = c'.val := by
  unfold ScatterDims.window
  rw [dif_pos (show (1 : Fin 2) ∈ sc2.sKept by decide)]
  rfl

/-- The index array of the first scatter at row r is the id of row r. -/
private theorem v1_at (idx : IVec S1000000 32) (r : Fin 1000000) :
    Read.val_main_v1 (F := Ideal) idx (ix2 r (0 : Fin 1)) = idx (ix1 r) := by
  rw [Read.val_main_v1_apply]
  congr 1
  funext a; match a with | ⟨0, _⟩ => rfl

/-- Update (r, c') of the first scatter lands on (s, c) exactly when row r is in segment s and c' = c. -/
private theorem sc2_lands (idx : IVec S1000000 32) (r : Fin 1000000) (c' : Fin 256) (s : Fin 16) (c : Fin 256) :
    sc2.resultIdx? (ix2 r c') (Read.val_main_v1 (F := Ideal) idx) = some (ix2 s c)
      ↔ (Cert.Spec.inSeg idx s r ∧ c' = c) := by
  have h0 : sc2.start (ix2 r c') (Read.val_main_v1 (F := Ideal) idx) 0 + sc2.window (ix2 r c') 0 = (idx (ix1 r)).toInt := by
    rw [sc2_start0, sc2_window0, v1_at]; simp
  have h1 : sc2.start (ix2 r c') (Read.val_main_v1 (F := Ideal) idx) 1 + sc2.window (ix2 r c') 1 = (c'.val : Int) := by
    rw [sc2_start1, sc2_window1]; simp
  have hw := word_eq_iff (idx (ix1 r)) s
  unfold ScatterDims.resultIdx?
  constructor
  · intro h
    split at h
    · rename_i hall
      have hf := Option.some.inj h
      have e0 := congrArg (fun f => (f 0).val) hf
      have e1 := congrArg (fun f => (f 1).val) hf
      simp only [h0, h1] at e0 e1
      have a0 := hall 0
      rw [h0] at a0
      refine ⟨hw.mp ⟨a0.1, ?_, e0⟩, Fin.ext ?_⟩
      · exact a0.2
      · simpa using e1
    · exact absurd h (by simp)
  · rintro ⟨hs, rfl⟩
    obtain ⟨g0, g1, g2⟩ := hw.mpr hs
    have hall : ∀ a, 0 ≤ sc2.start (ix2 r c') (Read.val_main_v1 (F := Ideal) idx) a + sc2.window (ix2 r c') a ∧
        sc2.start (ix2 r c') (Read.val_main_v1 (F := Ideal) idx) a + sc2.window (ix2 r c') a < S16x256.size a := by
      refine Fin.forall_fin_two.mpr ⟨?_, ?_⟩
      · rw [h0]; exact ⟨g0, g1⟩
      · rw [h1]; exact ⟨by omega, by have := c'.isLt; show (c'.val : Int) < 256; omega⟩
    rw [dif_pos hall]
    refine congrArg some (funext ?_)
    refine Fin.forall_fin_two.mpr ⟨Fin.ext ?_, Fin.ext ?_⟩
    · show (sc2.start (ix2 r c') (Read.val_main_v1 (F := Ideal) idx) 0 + sc2.window (ix2 r c') 0).toNat = s.val
      rw [h0]; exact g2
    · show (sc2.start (ix2 r c') (Read.val_main_v1 (F := Ideal) idx) 1 + sc2.window (ix2 r c') 1).toNat = c'.val
      rw [h1]; simp

/-- The scattered sums are the specification's segment sums. -/
theorem segSum_eq (x : S1000000x256.Idx → EReal) (idx : IVec S1000000 32) (s : Fin 16) (c : Fin 256) :
    (Cert.ReferenceIdeal.Read.val_main_v2 (F := Ideal) x idx (ix2 s c) : EReal) = Cert.Spec.segSum x idx s c := by
  rw [Read.val_main_v2, scatterAdd_apply]
  have hz : (Read.val_main_v0 (F := Ideal) (ix2 s c) : EReal) = 0 := by
    rw [Read.val_main_v0_apply, Read.val_main_cst_apply]; exact Ideal.ofBits_zero_f32
  rw [hz, zero_add, Finset.sum_filter, sum_idx2, Cert.Spec.segSum]
  refine Finset.sum_congr rfl fun r _ => ?_
  by_cases hs : Cert.Spec.inSeg idx s r
  · rw [if_pos hs, Finset.sum_eq_single c]
    · rw [if_pos ((sc2_lands idx r c s c).mpr ⟨hs, rfl⟩)]
    · intro c' _ hc
      rw [if_neg (fun h => hc ((sc2_lands idx r c' s c).mp h).2)]
    · intro h; exact absurd (Finset.mem_univ _) h
  · rw [if_neg hs]
    refine Finset.sum_eq_zero fun c' _ => ?_
    rw [if_neg (fun h => hs ((sc2_lands idx r c' s c).mp h).1)]

/-! ## The segment counts: the scatter of a row of ones -/

private abbrev sc1 := scatter_S16_S1000000x1_S1000000_n_0_0_1

private theorem sc1_start0 (idx' : IVec S1000000x1 32) (r : Fin 1000000) :
    sc1.start (ix1 r) idx' 0 = (idx' (ix2 r (0 : Fin 1))).toInt := by
  unfold ScatterDims.start
  rw [dif_pos (show (0 : Fin 1) ∈ sc1.scatterDimsToOperandDims from List.mem_singleton.mpr rfl)]
  congr 2
  funext b; refine Fin.ext ?_
  match b with
  | ⟨0, _⟩ => rfl
  | ⟨1, _⟩ => rfl

private theorem sc1_window0 (j : S1000000.Idx) : sc1.window j 0 = 0 := by
  unfold ScatterDims.window
  rw [dif_neg (show ¬ (0 : Fin 1) ∈ sc1.sKept by decide)]

/-- The index array of the second scatter at row r is the id of row r. -/
private theorem v5_at (idx : IVec S1000000 32) (r : Fin 1000000) :
    Read.val_main_v5 (F := Ideal) idx (ix2 r (0 : Fin 1)) = idx (ix1 r) := by
  rw [Read.val_main_v5_apply]
  congr 1
  funext a; match a with | ⟨0, _⟩ => rfl

/-- Update r of the second scatter lands on s exactly when row r is in segment s. -/
private theorem sc1_lands (idx : IVec S1000000 32) (r : Fin 1000000) (s : Fin 16) :
    sc1.resultIdx? (ix1 r) (Read.val_main_v5 (F := Ideal) idx) = some (ix1 s) ↔ Cert.Spec.inSeg idx s r := by
  have h0 : sc1.start (ix1 r) (Read.val_main_v5 (F := Ideal) idx) 0 + sc1.window (ix1 r) 0 = (idx (ix1 r)).toInt := by
    rw [sc1_start0, sc1_window0, v5_at]; simp
  have hw := word_eq_iff (idx (ix1 r)) s
  unfold ScatterDims.resultIdx?
  constructor
  · intro h
    split at h
    · rename_i hall
      have hf := Option.some.inj h
      have e0 := congrArg (fun f => (f 0).val) hf
      simp only [h0] at e0
      have a0 := hall 0
      rw [h0] at a0
      exact hw.mp ⟨a0.1, a0.2, e0⟩
    · exact absurd h (by simp)
  · intro hs
    obtain ⟨g0, g1, g2⟩ := hw.mpr hs
    have hall : ∀ a, 0 ≤ sc1.start (ix1 r) (Read.val_main_v5 (F := Ideal) idx) a + sc1.window (ix1 r) a ∧
        sc1.start (ix1 r) (Read.val_main_v5 (F := Ideal) idx) a + sc1.window (ix1 r) a < S16.size a := by
      intro a
      obtain rfl : a = 0 := Subsingleton.elim _ _
      rw [h0]; exact ⟨g0, g1⟩
    rw [dif_pos hall]
    refine congrArg some (funext fun a => ?_)
    obtain rfl : a = 0 := Subsingleton.elim _ _
    refine Fin.ext ?_
    show (sc1.start (ix1 r) (Read.val_main_v5 (F := Ideal) idx) 0 + sc1.window (ix1 r) 0).toNat = s.val
    rw [h0]; exact g2

/-- A rank-1 index set is its coordinate's range. -/
private def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scattered ones are the specification's segment counts. -/
theorem segCnt_eq (idx : IVec S1000000 32) (s : Fin 16) :
    (Cert.ReferenceIdeal.Read.val_main_v6 (F := Ideal) idx (ix1 s) : EReal) = Cert.Spec.segCnt idx s := by
  rw [Read.val_main_v6, scatterAdd_apply]
  have hz : (Read.val_main_v4 (F := Ideal) (ix1 s) : EReal) = 0 := by
    rw [Read.val_main_v4_apply, Read.val_main_cst_1_apply]; exact Ideal.ofBits_zero_f32
  have h1 : ∀ j, (Read.val_main_v3 (F := Ideal) j : EReal) = 1 := by
    intro j
    rw [Read.val_main_v3_apply, Read.val_main_cst_0_apply]; exact ofBits_one_f32
  rw [hz, zero_add, Finset.sum_filter, sum_idx1, Cert.Spec.segCnt]
  refine Finset.sum_congr rfl fun r _ => ?_
  rw [h1]
  exact if_congr (sc1_lands idx r s) rfl rfl

/-! ## The means -/

/-- The specification's mean at explicit coordinates. -/
private theorem mean_at (x : S1000000x256.Idx → EReal) (idx : IVec S1000000 32) (s : Fin 16) (c : Fin 256) :
    Cert.Spec.mean x idx (ix2 s c) = Ideal.div (Cert.Spec.segSum x idx s c) (max (Cert.Spec.segCnt idx s) 1) := rfl

/-- The reference's means are the specification's. -/
theorem mean_eq (x : S1000000x256.Idx → EReal) (idx : IVec S1000000 32) :
    (Cert.ReferenceIdeal.Read.val_main_v11 (F := Ideal) x idx : S16x256.Idx → EReal) = Cert.Spec.mean x idx := by
  funext j
  obtain ⟨s, c, rfl⟩ : ∃ (s : Fin 16) (c : Fin 256), j = ix2 s c := ⟨j 0, j 1, eq_ix2 j⟩
  have hi : Read.idx_main_v9 (Read.idx_main_v10 (ix2 s c)) = ix1 s := by
    funext a; match a with | ⟨0, _⟩ => rfl
  rw [Read.val_main_v11_apply, Ideal.hostDivf_def, segSum_eq, Read.val_main_v10_apply, Read.val_main_v9_apply,
    Read.val_main_v8_apply, Ideal.maximumf_def, hi, segCnt_eq, Read.val_main_v7_apply, Read.val_main_cst_2_apply,
    Ideal.ofBits_def, ofBits_one_f32, mean_at]

/-! ## The network's values are real -/

/-- The logistic function takes real values at every extended real. -/
private theorem logistic_real (z : EReal) : Ideal.logistic z ≠ ⊤ ∧ Ideal.logistic z ≠ ⊥ := by
  induction z using EReal.rec with
  | bot => rw [Ideal.logistic_bot]; exact ⟨EReal.zero_ne_top, EReal.zero_ne_bot⟩
  | coe r => rw [Ideal.logistic_coe]; exact ⟨EReal.coe_ne_top _, EReal.coe_ne_bot _⟩
  | top =>
    rw [Ideal.logistic_top, ← EReal.coe_one]
    exact ⟨EReal.coe_ne_top 1, EReal.coe_ne_bot 1⟩

/-- The last four operations of the network, read at one index: the logistic function of the pre-activation. -/
private theorem gate_apply (Z : FVec Ideal S16x256 .f32) (j : S16x256.Idx) :
    (Host.divf (F := Ideal) (broadcastInDim S16x256 ![] bcast_S_S16x256 (constant (F := Ideal) S_ .f32 0x3F800000#32))
      (addf (F := Ideal) (broadcastInDim S16x256 ![] bcast_S_S16x256 (constant (F := Ideal) S_ .f32 0x3F800000#32))
        (Host.exp (F := Ideal) (Host.negf (F := Ideal) Z))) j : EReal) = Ideal.logistic (Z j) := by
  have hb : (broadcastInDim S16x256 ![] bcast_S_S16x256 (constant (F := Ideal) S_ .f32 0x3F800000#32) j : EReal) = 1 := by
    rw [broadcastInDim_apply _ bcast_S_S16x256 _ j ix0 (fun a => a.elim0)]
    exact ofBits_one_f32
  show Ideal.div (broadcastInDim S16x256 ![] bcast_S_S16x256 (constant (F := Ideal) S_ .f32 0x3F800000#32) j)
    (broadcastInDim S16x256 ![] bcast_S_S16x256 (constant (F := Ideal) S_ .f32 0x3F800000#32) j + Ideal.exp (-(Z j))) = _
  rw [hb]
  rfl

/-- The logistic function takes real values: every gate is a real number, whatever the means and weights. -/
theorem net_finite (mean : FVec Ideal S16x256 .f32) (w1 : FVec Ideal S256x64 .f32) (w2 : FVec Ideal S64x256 .f32) :
    Cert.Spec.Finite (net mean w1 w2 : S16x256.Idx → EReal) := by
  intro j
  rw [net, gate_apply]
  exact logistic_real _

/-! ## The gather of the gate rows, and the result -/

/-- A gather read at one result index: the operand at that index's operand index. -/
private theorem gather_apply {α : Type} {s si t : Shape} {w : Nat} (d : GatherDims s si t) (x : s.Idx → α) (idx : IVec si w)
    (j : t.Idx) : Host.gather d x idx j = x (d.operandIdx j idx) := rfl

private abbrev gd := gather_S16x256_S1000000x1_S1000000x256_1_0_n_n_0_1_1256

/-- With the ids in range, the gather's start index at row r is the id of row r: the comparison with zero fails,
    so the select keeps the id and adds no 16. -/
private theorem v26_at (idx : IVec S1000000 32) (h : Cert.Spec.IdsInRange idx) (r : Fin 1000000) :
    Read.val_main_v26 (F := Ideal) idx (ix2 r (0 : Fin 1)) = idx (ix1 r) := by
  have hi : Read.idx_main_v26 (ix2 r (0 : Fin 1)) = ix1 r := by
    funext a; match a with | ⟨0, _⟩ => rfl
  have hc : IntOp.cmpi .slt (idx (ix1 r)) 0#32 = 0#1 := by
    have hlt : ¬ (idx (ix1 r)).toInt < (0#32 : BitVec 32).toInt := by
      have h0 := (h r).1
      have z : (0#32 : BitVec 32).toInt = 0 := by decide
      omega
    show BitVec.ofBool ((idx (ix1 r)).slt 0#32) = 0#1
    rw [BitVec.slt, decide_eq_false hlt]
    rfl
  rw [Read.val_main_v26_apply, hi, Read.val_main_v25_apply, Read.val_main_v22_apply, Read.val_main_v21_apply,
    Read.val_main_c_apply, hc, select_zero]

private theorem gd_start0 (idx' : IVec S1000000x1 32) (r : Fin 1000000) (c : Fin 256) :
    gd.start (ix2 r c) idx' 0 = min (idx' (ix2 r (0 : Fin 1))).toInt.toNat 15 := by
  unfold GatherDims.start
  rw [dif_pos (show (0 : Fin 2) ∈ gd.startIndexMap from List.mem_singleton.mpr rfl)]
  have hsi : gd.siIdx (ix2 r c) ⟨List.idxOf (0 : Fin 2) gd.startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

private theorem gd_start1 (idx' : IVec S1000000x1 32) (j : S1000000x256.Idx) : gd.start j idx' 1 = 0 := by
  unfold GatherDims.start
  rw [dif_neg (show ¬ (1 : Fin 2) ∈ gd.startIndexMap by decide)]

private theorem gd_off0 (j : S1000000x256.Idx) : gd.offCoord j 0 = 0 :=
  GatherDims.offCoord_eq_zero _ _ _ (fun hm => ((GatherDims.mem_sKept _ _).mp hm).1 (List.mem_singleton.mpr rfl))

private theorem gd_off1 (r : Fin 1000000) (c : Fin 256) : gd.offCoord (ix2 r c) 1 = c.val := by
  unfold GatherDims.offCoord
  rw [dif_pos (show (1 : Fin 2) ∈ gd.sKept by decide)]
  rfl

/-- With the ids in range, result element (r, c) of the gather reads the operand at (segment of r, c). -/
private theorem gd_operandIdx (idx : IVec S1000000 32) (h : Cert.Spec.IdsInRange idx) (r : Fin 1000000) (c : Fin 256) :
    gd.operandIdx (ix2 r c) (Read.val_main_v26 (F := Ideal) idx) = ix2 (Cert.Spec.segOf idx h r) c := by
  have hr := h r
  refine funext (Fin.forall_fin_two.mpr ⟨Fin.ext ?_, Fin.ext ?_⟩)
  · show gd.start (ix2 r c) (Read.val_main_v26 (F := Ideal) idx) 0 + gd.batchCoord (ix2 r c) 0 + gd.offCoord (ix2 r c) 0
      = (idx (ix1 r)).toInt.toNat
    rw [gd_start0, GatherDims.batchCoord_eq_zero _ _ _ List.not_mem_nil, gd_off0, v26_at idx h]
    omega
  · show gd.start (ix2 r c) (Read.val_main_v26 (F := Ideal) idx) 1 + gd.batchCoord (ix2 r c) 1 + gd.offCoord (ix2 r c) 1
      = c.val
    rw [gd_start1, GatherDims.batchCoord_eq_zero _ _ _ List.not_mem_nil, gd_off1]
    omega

/-- The specification's gated product at explicit coordinates. -/
private theorem gated_at (x : S1000000x256.Idx → EReal) (idx : IVec S1000000 32) (h : Cert.Spec.IdsInRange idx)
    (gate : S16x256.Idx → EReal) (r : Fin 1000000) (c : Fin 256) :
    Cert.Spec.gated x idx h gate (ix2 r c) = x (ix2 r c) * gate (ix2 (Cert.Spec.segOf idx h r) c) := rfl

/-- The stages from the means to the gate table compose to the network. -/
private theorem v20_eq_net (x : S1000000x256.Idx → EReal) (idx : IVec S1000000 32) (w1 : S256x64.Idx → EReal) (w2 : S64x256.Idx → EReal) :
    Read.val_main_v20 (F := Ideal) x idx w1 w2 = net (Read.val_main_v11 (F := Ideal) x idx) w1 w2 := rfl

/-- The reference's result, with every id in range, is the specification's gated product over its own network of the
    specification's means. -/
theorem result_eq (x : S1000000x256.Idx → EReal) (idx : IVec S1000000 32) (w1 : S256x64.Idx → EReal) (w2 : S64x256.Idx → EReal)
    (h : Cert.Spec.IdsInRange idx) :
    (Cert.ReferenceIdeal.Read.val_main_v28 (F := Ideal) x idx w1 w2 : S1000000x256.Idx → EReal)
      = Cert.Spec.gated x idx h (net (Cert.Spec.mean x idx) w1 w2) := by
  funext j
  obtain ⟨r, c, rfl⟩ : ∃ (r : Fin 1000000) (c : Fin 256), j = ix2 r c := ⟨j 0, j 1, eq_ix2 j⟩
  rw [Read.val_main_v28_apply, Ideal.mulf_def, Read.val_main_v27, gather_apply, gd_operandIdx idx h, v20_eq_net,
    mean_eq, gated_at]

end Cert.ReferenceIdeal.Hand

end
-- ==== Proof.KFinal.lean ====
/-
  The kernel program's result, at the extended reals, as the specification's function of its arguments: the gate
  table the second pass is handed is the network of the specification's segment means, and the second pass multiplies
  each row of `x` by the gate row of its segment.
-/
import proofs.«415255_j31834297598792_3_alg».proof.Proof.KVal1
import proofs.«415255_j31834297598792_3_alg».proof.Proof.KMean
import proofs.«415255_j31834297598792_3_alg».proof.Proof.RefSide

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-- The two programs' host networks are one function: the same operations over the same dimension numbers. -/
theorem netK_eq_net (mean : FVec Ideal S16x256 .f32) (w1 : FVec Ideal S256x64 .f32) (w2 : FVec Ideal S64x256 .f32) :
    netK mean w1 w2 = Cert.ReferenceIdeal.Hand.net mean w1 w2 := rfl

variable (m : (ℓ : Loc nD τ sig) → Buf (Elt Ideal) ℓ) (ρ : Dev nD → PrngReg)

/-- The gate table the second pass is handed is the network of the specification's means. -/
theorem gate_spec (c : Dev nD) (hx : Cert.Spec.Finite (xOf m c)) :
    gateOf m ρ c = Cert.ReferenceIdeal.Hand.net (Cert.Spec.mean (xOf m c) (idOf m c)) (w1Of m c) (w2Of m c) :=
  (gate_eq m ρ c).trans ((congrArg (fun μ => netK μ (w1Of m c) (w2Of m c)) (mean_eq m ρ c hx)).trans (netK_eq_net _ _ _))

/-- THE KERNEL'S RESULT: the result array the run names is the specification's gated product of `x` with the
    network of the specification's means. -/
theorem kernel_result (c : Dev nD) (hx : Cert.Spec.Finite (xOf m c)) (h : Cert.Spec.IdsInRange (idOf m c)) :
    ((dat1 (VR5 m ρ) c).arrAt 3 cfg1.N : S1000000x256.Idx → EReal)
      = Cert.Spec.gated (xOf m c) (idOf m c) h
          (Cert.ReferenceIdeal.Hand.net (Cert.Spec.mean (xOf m c) (idOf m c)) (w1Of m c) (w2Of m c)) := by
  have hg := gate_spec m ρ c hx
  rw [result_gated m ρ c h (hg ▸ Cert.ReferenceIdeal.Hand.net_finite _ _ _), hg]

end Cert.KernelIdeal.Hand

end
-- ==== Proof.PreFacts.lean ====
/-
  What the precondition says of the arguments: every entry of `x` is a real number, and every segment id lies in
  `0 … 15`.

  The precondition is a conjunction of four reductions by "and": three of `|·| < +∞` over the float arguments and one of
  `0 ≤ id ∧ id < 16` (signed compares) over the ids; it holds when the conjunction is the one-bit word 1.
-/
import proofs.«415255_j31834297598792_3_alg».proof.Pre_finite_inputs
import proofs.«415255_j31834297598792_3_alg».proof.Proof.Gen.Pre_finite_inputs
import proofs.«415255_j31834297598792_3_alg».proof.Proof.Spec
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- The result shape of a reduction over all axes has one index. -/
instance : Subsingleton S_.Idx := ⟨fun _ _ => funext fun d => d.elim0⟩

/-- The bit pattern of positive infinity denotes the top extended real. -/
theorem ofBits_inf : Ideal.ofBits .f32 0x7F800000#32 = (⊤ : EReal) := by
  simp [Ideal.ofBits, Ideal.ieee]

/-- An extended real whose absolute value is below positive infinity is a real number. -/
theorem finite_of_abs_lt (a : EReal) (h : Ideal.cmp .olt (max a (-a)) (Ideal.ofBits .f32 0x7F800000#32) = 1#1) :
    a ≠ ⊤ ∧ a ≠ ⊥ := by
  rw [ofBits_inf] at h
  simp only [Ideal.cmp, StableHlo.Predicate.ofBool_eq_one_iff, decide_eq_true_eq] at h
  have h1 : a < ⊤ := lt_of_le_of_lt (le_max_left _ _) h
  have h2 : -a < ⊤ := lt_of_le_of_lt (le_max_right _ _) h
  refine ⟨ne_of_lt h1, ?_⟩
  rintro rfl
  simp at h2

/-- A word that passes both signed compares lies in `0 … 15` as a signed integer. -/
theorem range_of_cmp (a : BitVec 32)
    (h : IntOp.andi (IntOp.cmpi .sge a 0#32) (IntOp.cmpi .slt a 16#32) = 1#1) : 0 ≤ a.toInt ∧ a.toInt < 16 := by
  obtain ⟨h1, h2⟩ := IntOp.andi_eq_one.1 h
  simp only [IntOp.cmpi, StableHlo.Predicate.ofBool_eq_one_iff, BitVec.sle, BitVec.slt, decide_eq_true_eq] at h1 h2
  have e0 : (0#32 : BitVec 32).toInt = 0 := by decide
  have e16 : (16#32 : BitVec 32).toInt = 16 := by decide
  rw [e0] at h1; rw [e16] at h2
  exact ⟨h1, h2⟩

/-- From the printed precondition at the extended reals: `x` is finite entry by entry and the ids are in range. -/
theorem of_pre [Cert.Pre_finite_inputs.Facts] (x : S1000000x256.Idx → EReal) (idx : IVec S1000000 32)
    (w1 : S256x64.Idx → EReal) (w2 : S64x256.Idx → EReal)
    (h : Cert.Pre_finite_inputs.fn (F := Ideal) x idx w1 w2 = fun _ => 1#1) :
    Cert.Spec.Finite x ∧ Cert.Spec.IdsInRange idx := by
  have h0 := congrFun h ValueIdx.ix0
  dsimp only [Cert.Pre_finite_inputs.fn, Cert.Pre_finite_inputs.fn_part1] at h0
  obtain ⟨h123, hid⟩ := IntOp.andi_eq_one.1 h0
  obtain ⟨h12, _⟩ := IntOp.andi_eq_one.1 h123
  obtain ⟨hx, _⟩ := IntOp.andi_eq_one.1 h12
  constructor
  · intro j
    exact finite_of_abs_lt (x j) (Host.reduce_andi_all _ _ _ _ _ hx j)
  · intro r
    exact range_of_cmp (idx (ix1 r)) (Host.reduce_andi_all _ _ _ _ _ hid (ix1 r))

end Cert.PreFacts

end
-- ==== Proof.lean ====
/-
  The certificate: a kernel that gates each row of `x` by a table computed from per-segment means of `x`, in two
  streaming passes over `x`, against the plain reference that scatters, averages, runs the same small network and
  gathers.

  Under the precondition — every float entry finite, every segment id in `0 … 15` — both programs run to the end
  with their arguments unchanged (the frames), the kernel's idealization only removed three round trips through
  bfloat16 (the ledger), and at the extended reals both results are one function of the arguments: row `r`,
  column `c` is `x r c` times the logistic gate, at row `r`'s segment and column `c`, of the two-layer network of the
  segment means. The kernel reaches it by one-hot selectors: a selector times a block of `x` sums the block's rows of
  each segment, its row sums count them, and its transpose times the gate table picks each row's gate; the second
  product of each high/low split, against `v - v`, vanishes because the entries are finite (the gates always are:
  the logistic function takes real values). The range of the ids matters: outside it the reference's gather clamps
  to a table row while a selector selects nothing.
-/
import proofs.«415255_j31834297598792_3_alg».proof.Defs
import proofs.«415255_j31834297598792_3_alg».proof.Proof.Gen.Kernel
import proofs.«415255_j31834297598792_3_alg».proof.Proof.Gen.Kernel.Skeleton
import proofs.«415255_j31834297598792_3_alg».proof.Proof.Gen.Kernel.Launch
import proofs.«415255_j31834297598792_3_alg».proof.Proof.Gen.Kernel.Regions
import proofs.«415255_j31834297598792_3_alg».proof.Proof.Gen.Kernel.Points
import proofs.«415255_j31834297598792_3_alg».proof.Proof.Gen.KernelIdeal
import proofs.«415255_j31834297598792_3_alg».proof.Proof.Gen.KernelIdeal.Skeleton
import proofs.«415255_j31834297598792_3_alg».proof.Proof.Gen.KernelIdeal.Launch
import proofs.«415255_j31834297598792_3_alg».proof.Proof.Gen.KernelIdeal.Regions
import proofs.«415255_j31834297598792_3_alg».proof.Proof.Gen.KernelIdeal.Points
import proofs.«415255_j31834297598792_3_alg».proof.Proof.Gen.ReferenceIdeal
import proofs.«415255_j31834297598792_3_alg».proof.Proof.Gen.ReferenceIdeal.Run
import proofs.«415255_j31834297598792_3_alg».proof.Proof.Gen.ReferenceIdeal.Read
import proofs.«415255_j31834297598792_3_alg».proof.Proof.Gen.Pre_finite_inputs
import proofs.«415255_j31834297598792_3_alg».proof.Proof.RunB
import proofs.«415255_j31834297598792_3_alg».proof.Proof.KFinal
import proofs.«415255_j31834297598792_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger: three round trips through bfloat16 removed, each the identity at the extended reals. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- At the extended reals both programs end at the specification's gated product of `x` with the network of the
    segment means. -/
theorem algebraic : Cert.algebraic_KernelIdeal_ReferenceIdeal := by
  intro m ρ m' ρ' hpre hagree
  have hP : ∀ c : Dev Cert.KernelIdeal.nD,
      Cert.Spec.Finite (Cert.KernelIdeal.Hand.xOf m c) ∧ Cert.Spec.IdsInRange (Cert.KernelIdeal.Hand.idOf m c) :=
    fun c => Cert.PreFacts.of_pre _ _ _ _ (hpre c)
  refine ⟨fun c => Cert.Spec.gated (Cert.KernelIdeal.Hand.xOf m c) (Cert.KernelIdeal.Hand.idOf m c) (hP c).2
      (Cert.ReferenceIdeal.Hand.net (Cert.Spec.mean (Cert.KernelIdeal.Hand.xOf m c) (Cert.KernelIdeal.Hand.idOf m c))
        (Cert.KernelIdeal.Hand.w1Of m c) (Cert.KernelIdeal.Hand.w2Of m c)), ?_, ?_⟩
  · exact (θ_run Cert.KernelIdeal.defs _ _).mono
      (fun _ h c => ⟨(h c).1.trans (Cert.KernelIdeal.Hand.kernel_result m ρ c (hP c).1 (hP c).2), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, (hagree c).1, (hagree c).2.1, (hagree c).2.2.1, (hagree c).2.2.2]
    exact Cert.ReferenceIdeal.Hand.result_eq _ _ _ _ (hP c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
